-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x64 : Shape := ⟨4, ![4, 64, 64, 64]⟩
abbrev S_ : Shape := ⟨0, ![]⟩

class Facts : Prop where
  bcast_S_S4x64x64x64 : S_.BroadcastsInDim S4x64x64x64 (![] : Fin 0 → Fin S4x64x64x64.rank)
  reducesTo_S4x64x64x64_S_d0_1_2_3 : S4x64x64x64.ReducesTo [0, 1, 2, 3] S_
  h_S_ : 0 < S_.numel

variable [Facts]

def fn {F : FTy → Type} [FloatOps F] (main_arg0 : FVec F S4x64x64x64 .f32) : IVec S_ 1 :=
  let main_v0 : FVec F S4x64x64x64 .f32 := Host.absf main_arg0
  let main_cst : FVec F S_ .f32 := constant S_ .f32 0x7F800000#32
  let main_v1 : FVec F S4x64x64x64 .f32 := broadcastInDim S4x64x64x64 ![] bcast_S_S4x64x64x64 main_cst
  let main_v2 : IVec S4x64x64x64 1 := cmpf .olt main_v0 main_v1
  let main_c : IVec S_ 1 := constantI S_ 1 1#1
  let main_v3 : IVec S_ 1 := (fun x v => Host.reduce IntOp.andi x v reducesTo_S4x64x64x64_S_d0_1_2_3 h_S_) main_v2 main_c
  main_v3
-- ==== Kernel.lean ====
abbrev S4x64x64x64 : Shape := ⟨4, ![4, 64, 64, 64]⟩
abbrev S4x64x4096 : Shape := ⟨3, ![4, 64, 4096]⟩
abbrev S4x1x1 : Shape := ⟨3, ![4, 1, 1]⟩
abbrev S1x64x512 : Shape := ⟨3, ![1, 64, 512]⟩
abbrev S1x1x1 : Shape := ⟨3, ![1, 1, 1]⟩
abbrev S64x512 : Shape := ⟨2, ![64, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 5
  | .vmem => 16
  | .smem => 0
  | _ => 0

abbrev bufTy : (tb : Table) → Fin (tcTables nBuf tb) → BufTy
  | .hbm, ⟨0, _⟩ => ⟨S4x64x64x64, .f32⟩
  | .hbm, ⟨1, _⟩ => ⟨S4x64x4096, .f32⟩
  | .hbm, ⟨2, _⟩ => ⟨S4x1x1, .f32⟩
  | .hbm, ⟨3, _⟩ => ⟨S4x64x4096, .f32⟩
  | .hbm, ⟨4, _⟩ => ⟨S4x64x64x64, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x64x512, .f32⟩
  | .local _ .vmem, ⟨8, _⟩ => ⟨S1x64x512, .f32⟩
  | .local _ .vmem, ⟨9, _⟩ => ⟨S1x64x512, .f32⟩
  | .local _ .vmem, ⟨10, _⟩ => ⟨S1x64x512, .f32⟩
  | .local _ .vmem, ⟨11, _⟩ => ⟨S1x1x1, .f32⟩
  | .local _ .vmem, ⟨12, _⟩ => ⟨S1x1x1, .f32⟩
  | .local _ .vmem, ⟨13, _⟩ => ⟨S1x64x512, .f32⟩
  | .local _ .vmem, ⟨14, _⟩ => ⟨S1x64x512, .f32⟩
  | .local _ .vmem, ⟨15, _⟩ => ⟨S64x512, .f32⟩
  | _, _ => ⟨S4x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let arg2 : BitVec 32 := BitVec.ofNat 32 (i 2).val
  let c7_i32_15 : BitVec 32 := 7#32
  let v22 : BitVec 1 := Scalar.cmpi .eq arg2 c7_i32_15
  let v23 : BitVec 1 := Scalar.andi v21 v22
  let v24 : BitVec 32 := Scalar.extui v23
  let c0_i32_16 : BitVec 32 := 0#32
  let v25 : BitVec 1 := Scalar.cmpi .ne v24 c0_i32_16
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev grid1 : Pipeline.Grid := ⟨3, ![4, 8, 8], ![false, false, false]⟩

def k1_cond2 (i : grid1.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_11 : BitVec 32 := 0#32
  let v17 : BitVec 1 := Scalar.cmpi .ne v16 c0_i32_11
  v17

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x64x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x64x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x64x64x64_S4x64x4096 : S4x64x64x64.ShapeCasts S4x64x4096
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1x1 : S1x1.ShapeCasts S1x1x1
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inpos_S1x1x1_p0_0_0 : ∀ a, (![0, 0, 0] : Fin 3 → Nat) a < S1x1x1.size a
  shapeCasts_S64x512_S1x64x512 : S64x512.ShapeCasts S1x64x512
  shapeCasts_S4x64x4096_S4x64x64x64 : S4x64x4096.ShapeCasts S4x64x64x64
  dot_S64x512_S64x512_S512x512_0_0_1_1_n_n_wf : DotDims.WF S64x512 S64x512 S512x512 [0] [0] [1] [1] [] []
  dot_S64x512_S512x512_S64x512_1_0_0_1_n_n_wf : DotDims.WF S64x512 S512x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S4x64x4096.size a
  hwx0_0 : ∀ i : grid0.Coords, EltTy.bits .f32 = 32 ∨ (Rect.block (s := S4x64x4096) S1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S4x64x4096.size a
  hwx0_1 : ∀ i : grid0.Coords, EltTy.bits .f32 = 32 ∨ (Rect.block (s := S4x64x4096) S1x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S4x1x1.size a
  hwx0_2 : ∀ i : grid0.Coords, EltTy.bits .f32 = 32 ∨ (Rect.block (s := S4x1x1) S1x1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x512.size a ≤ S4x64x4096.size a
  hwx1_0 : ∀ i : grid1.Coords, EltTy.bits .f32 = 32 ∨ (Rect.block (s := S4x64x4096) S1x64x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x512.size a ≤ S4x64x4096.size a
  hwx1_1 : ∀ i : grid1.Coords, EltTy.bits .f32 = 32 ∨ (Rect.block (s := S4x64x4096) S1x64x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1.size a ≤ S4x1x1.size a
  hwx1_2 : ∀ i : grid1.Coords, EltTy.bits .f32 = 32 ∨ (Rect.block (s := S4x1x1) S1x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x512.size a ≤ S4x64x4096.size a
  hwx1_3 : ∀ i : grid1.Coords, EltTy.bits .f32 = 32 ∨ (Rect.block (s := S4x64x4096) S1x64x512.size (cc1_transform_3 i) (hinb1_3 i)).WholeWords (EltTy.packing .f32)

variable [Facts₀]

def dot_S64x512_S64x512_S512x512_0_0_1_1_n_n : DotDims S64x512 S64x512 S512x512 where
  lhsContracting := [0]
  rhsContracting := [0]
  lhsNonContracting := [1]
  rhsNonContracting := [1]
  lhsBatch := []
  rhsBatch := []
  wf := dot_S64x512_S64x512_S512x512_0_0_1_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf

abbrev win0_0 : Pipeline.Window sig grid0 :=
  Pipeline.Window.ofSpec (Memref.whole main_v0) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S1x64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x64x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x64x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x64x64x64 : Shape := ⟨4, ![4, 64, 64, 64]⟩
abbrev S4x64x4096 : Shape := ⟨3, ![4, 64, 4096]⟩
abbrev S4x4096x4096 : Shape := ⟨3, ![4, 4096, 4096]⟩
abbrev S_ : Shape := ⟨0, ![]⟩
abbrev S4 : Shape := ⟨1, ![4]⟩
abbrev S4x1x1 : Shape := ⟨3, ![4, 1, 1]⟩

abbrev nBuf : Space → Nat
  | .hbm => 11
  | .vmem => 0
  | .smem => 0
  | _ => 0

abbrev bufTy : (tb : Table) → Fin (tcTables nBuf tb) → BufTy
  | .hbm, ⟨0, _⟩ => ⟨S4x64x64x64, .f32⟩
  | .hbm, ⟨1, _⟩ => ⟨S4x64x4096, .f32⟩
  | .hbm, ⟨2, _⟩ => ⟨S4x4096x4096, .f32⟩
  | .hbm, ⟨3, _⟩ => ⟨S4x4096x4096, .f32⟩
  | .hbm, ⟨4, _⟩ => ⟨S_, .f32⟩
  | .hbm, ⟨5, _⟩ => ⟨S4, .f32⟩
  | .hbm, ⟨6, _⟩ => ⟨S4x1x1, .f32⟩
  | .hbm, ⟨7, _⟩ => ⟨S4x4096x4096, .f32⟩
  | .hbm, ⟨8, _⟩ => ⟨S4x4096x4096, .f32⟩
  | .hbm, ⟨9, _⟩ => ⟨S4x64x4096, .f32⟩
  | .hbm, ⟨10, _⟩ => ⟨S4x64x64x64, .f32⟩
  | _, _ => ⟨S4x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]

class Facts₀ : Prop where
  shapeCasts_S4x64x64x64_S4x64x4096 : S4x64x64x64.ShapeCasts S4x64x4096
  reducesTo_S4x4096x4096_S4_d1_2 : S4x4096x4096.ReducesTo [1, 2] S4
  h_S_ : 0 < S_.numel
  bcast_S4_S4x1x1_0 : S4.BroadcastsInDim S4x1x1 (![0] : Fin 1 → Fin S4x1x1.rank)
  bcast_S4x1x1_S4x4096x4096_0_1_2 : S4x1x1.BroadcastsInDim S4x4096x4096 (![0, 1, 2] : Fin 3 → Fin S4x4096x4096.rank)
  shapeCasts_S4x64x4096_S4x64x64x64 : S4x64x4096.ShapeCasts S4x64x64x64
  dot_S4x64x4096_S4x64x4096_S4x4096x4096_1_1_2_2_0_0_wf : DotDims.WF S4x64x4096 S4x64x4096 S4x4096x4096 [1] [1] [2] [2] [0] [0]
  dot_S4x64x4096_S4x4096x4096_S4x64x4096_2_1_1_2_0_0_wf : DotDims.WF S4x64x4096 S4x4096x4096 S4x64x4096 [2] [1] [1] [2] [0] [0]

variable [Facts₀]

def dot_S4x64x4096_S4x64x4096_S4x4096x4096_1_1_2_2_0_0 : DotDims S4x64x4096 S4x64x4096 S4x4096x4096 where
  lhsContracting := [1]
  rhsContracting := [1]
  lhsNonContracting := [2]
  rhsNonContracting := [2]
  lhsBatch := [0]
  rhsBatch := [0]
  wf := dot_S4x64x4096_S4x64x4096_S4x4096x4096_1_1_2_2_0_0_wf
def dot_S4x64x4096_S4x4096x4096_S4x64x4096_2_1_1_2_0_0 : DotDims S4x64x4096 S4x4096x4096 S4x64x4096 where
  lhsContracting := [2]
  rhsContracting := [1]
  lhsNonContracting := [1]
  rhsNonContracting := [2]
  lhsBatch := [0]
  rhsBatch := [0]
  wf := dot_S4x64x4096_S4x4096x4096_S4x64x4096_2_1_1_2_0_0_wf

class Facts : Prop extends Facts₀ where

variable [Facts]
-- ==== Proof.KI.Data.lean ====
/-
  The proof data of the two kernel regions, at any float instance and at any contents `V` of the core's
  buffers when a region is entered.

  Both kernels tile the flattened spatial axis (4096 = 8 blocks of 512) and run over the grid (b, mi, ni),
  point t = 64·b + 8·mi + ni. Window 0 of each holds the block of columns mi of f[b] (64×512), window 1 the
  block of columns ni of f[b].

  Region 0 keeps one number in a scratch cell: it is set to zero where mi = ni = 0 (t ≡ 0 mod 64), every point
  adds to it the sum of exp over its 512×512 tile of f[b]ᵀf[b], and where mi = ni = 7 (t ≡ 63 mod 64) it is copied
  to the output block b. `sc0 n` is what the scratch holds after point n.

  Region 1 keeps a 64×512 scratch: it is set to zero where ni = 0 (t ≡ 0 mod 8), every point adds
  f[b][:, ni-block] · exp(tile), and where ni = 7 (t ≡ 7 mod 8) the scratch divided by the per-batch total (window 2)
  is stored into the output block (b, mi). `sc1 n` is what the scratch holds after point n.
-/
import proofs.«157743_j13898514170484_1_alg».proof.Proof.Gen.KernelIdeal.Launch
import proofs.«157743_j13898514170484_1_alg».proof.Proof.Gen.KernelIdeal.Skeleton
import proofs.«157743_j13898514170484_1_alg».proof.Proof.Gen.KernelIdeal.Points
import Idealize.ShloMosaic.Lib.Pipeline.FrameBody
import Idealize.ShloMosaic.Lib.Pipeline.Frame
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the per-batch total -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of columns `mi` of `f[b]` at point `t` (window 0), and the block of columns `ni` (window 1). -/
abbrev colBlk0 (c : Dev nD) (t : Fin cfg0.N) : Vec F S1x64x512 .f32 := iblk0 V c 0 t
abbrev rowBlk0 (c : Dev nD) (t : Fin cfg0.N) : Vec F S1x64x512 .f32 := iblk0 V c 1 t

/-- The scratch cell after point `n`: the tile's sum added to zero where the batch's run starts, else to what the
    point before left. -/
def sc0 (c : Dev nD) : (n : ℕ) → n < cfg0.N → Vec F S1x1x1 .f32
  | 0, hn => k0_pay2 (colBlk0 V c ⟨0, hn⟩) (rowBlk0 V c ⟨0, hn⟩) k0_pay1
  | n + 1, hn => k0_pay2 (colBlk0 V c ⟨n + 1, hn⟩) (rowBlk0 V c ⟨n + 1, hn⟩)
      (if (n + 1) % 64 = 0 then k0_pay1 else sc0 c n (Nat.lt_of_succ_lt hn))

theorem sc0_reset (c : Dev nD) (t : Fin cfg0.N) (h : t.val % 64 = 0) :
    sc0 V c t.val t.isLt = k0_pay2 (colBlk0 V c t) (rowBlk0 V c t) k0_pay1 := by
  obtain ⟨n, hn⟩ := t
  cases n with
  | zero => rfl
  | succ n => exact congrArg (k0_pay2 (colBlk0 V c ⟨n + 1, hn⟩) (rowBlk0 V c ⟨n + 1, hn⟩)) (if_pos h)

theorem sc0_step (c : Dev nD) (t : Fin cfg0.N) (h : ¬ t.val % 64 = 0) :
    sc0 V c t.val t.isLt = k0_pay2 (colBlk0 V c t) (rowBlk0 V c t)
      (sc0 V c (t.val - 1) (Nat.lt_of_le_of_lt (Nat.sub_le _ _) t.isLt)) := by
  obtain ⟨n, hn⟩ := t
  cases n with
  | zero => exact absurd (Nat.zero_mod _) h
  | succ n => exact congrArg (k0_pay2 (colBlk0 V c ⟨n + 1, hn⟩) (rowBlk0 V c ⟨n + 1, hn⟩)) (if_neg h)

/-- The scratch cell of region 0, as a memref. -/
abbrev scM0 : Memref sig .tc .vmem S1x1x1 .f32 := Memref.whole cc0_scratch0

/-- The core's scoped buffers that region 0 does not stage: its scratch cell at `X`, the others at some contents. -/
def scoped0 (c : Dev nD) (X : sProp 𝕄) : sProp 𝕄 :=
  iprop(X ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The region's invariant before position `n`: at the start the scoped rest at anything; afterwards the scratch
    cell at what the point before left. The generator register rides along. -/
def PhiS0 (c : Dev nD) : (n : ℕ) → n ≤ cfg0.N → sProp 𝕄
  | 0, _ => Pipeline.ΦA spec0 c
  | n + 1, hn => iprop(scoped0 c (owns (c : Thread nD τ) scM0 fullShare (sc0 V c n hn)) ∗ (∃ r, prngReg c r))

theorem PhiA0_eq (c : Dev nD) :
    (Pipeline.ΦA spec0 c : sProp 𝕄) = iprop(scoped0 c iprop(∃ d, owns (c : Thread nD τ) scM0 fullShare d) ∗ (∃ r, prngReg c r)) := by
  unfold Pipeline.ΦA scoped0; rw [scopedRest0_eq]; simp only [scM0, owns_whole]; try rfl

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(scoped0 c (owns (c : Thread nD τ) scM0 fullShare (sc0 V c n hn)) ∗ (∃ r, prngReg c r)) := rfl
theorem PhiS0_pos (c : Dev nD) (n : ℕ) (h : n ≤ cfg0.N) (hz : n ≠ 0) :
    PhiS0 V c n h = iprop(scoped0 c (owns (c : Thread nD τ) scM0 fullShare (sc0 V c (n - 1) (by omega))) ∗ (∃ r, prngReg c r)) := by
  cases n with
  | zero => exact absurd rfl hz
  | succ n => rfl

/-- The proof data of region 0 on core `c`. The two input windows read one array, so each holds half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => sc0 V c t.val t.isLt
  Φ t := PhiS0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = sc0 V c t.val t.isLt := by dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! # Region 1: the numerator and the quotient -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Columns `mi` of `f[b]` (window 0), columns `ni` (window 1), the batch's total (window 2), at point `t`. -/
abbrev colBlk1 (c : Dev nD) (t : Fin cfg1.N) : Vec F S1x64x512 .f32 := iblk1 V c 0 t
abbrev rowBlk1 (c : Dev nD) (t : Fin cfg1.N) : Vec F S1x64x512 .f32 := iblk1 V c 1 t
abbrev totBlk1 (c : Dev nD) (t : Fin cfg1.N) : Vec F S1x1x1 .f32 := iblk1 V c 2 t

/-- The 64×512 scratch after point `n`. -/
def sc1 (c : Dev nD) : (n : ℕ) → n < cfg1.N → Vec F S64x512 .f32
  | 0, hn => k1_pay2 (colBlk1 V c ⟨0, hn⟩) (rowBlk1 V c ⟨0, hn⟩) k1_pay1
  | n + 1, hn => k1_pay2 (colBlk1 V c ⟨n + 1, hn⟩) (rowBlk1 V c ⟨n + 1, hn⟩)
      (if (n + 1) % 8 = 0 then k1_pay1 else sc1 c n (Nat.lt_of_succ_lt hn))

theorem sc1_reset (c : Dev nD) (t : Fin cfg1.N) (h : t.val % 8 = 0) :
    sc1 V c t.val t.isLt = k1_pay2 (colBlk1 V c t) (rowBlk1 V c t) k1_pay1 := by
  obtain ⟨n, hn⟩ := t
  cases n with
  | zero => rfl
  | succ n => exact congrArg (k1_pay2 (colBlk1 V c ⟨n + 1, hn⟩) (rowBlk1 V c ⟨n + 1, hn⟩)) (if_pos h)

theorem sc1_step (c : Dev nD) (t : Fin cfg1.N) (h : ¬ t.val % 8 = 0) :
    sc1 V c t.val t.isLt = k1_pay2 (colBlk1 V c t) (rowBlk1 V c t)
      (sc1 V c (t.val - 1) (Nat.lt_of_le_of_lt (Nat.sub_le _ _) t.isLt)) := by
  obtain ⟨n, hn⟩ := t
  cases n with
  | zero => exact absurd (Nat.zero_mod _) h
  | succ n => exact congrArg (k1_pay2 (colBlk1 V c ⟨n + 1, hn⟩) (rowBlk1 V c ⟨n + 1, hn⟩)) (if_neg h)

abbrev scM1 : Memref sig .tc .vmem S64x512 .f32 := Memref.whole cc1_scratch0

/-- The core's scoped buffers that region 1 does not stage: region 0's at some contents, its own scratch at `X`. -/
def scoped1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ X)

def PhiS1 (c : Dev nD) : (n : ℕ) → n ≤ cfg1.N → sProp 𝕄
  | 0, _ => Pipeline.ΦA spec1 c
  | n + 1, hn => iprop(scoped1 c (owns (c : Thread nD τ) scM1 fullShare (sc1 V c n hn)) ∗ (∃ r, prngReg c r))

theorem PhiA1_eq (c : Dev nD) :
    (Pipeline.ΦA spec1 c : sProp 𝕄) = iprop(scoped1 c iprop(∃ d, owns (c : Thread nD τ) scM1 fullShare d) ∗ (∃ r, prngReg c r)) := by
  unfold Pipeline.ΦA scoped1; rw [scopedRest1_eq]; simp only [scM1, owns_whole]; try rfl

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(scoped1 c (owns (c : Thread nD τ) scM1 fullShare (sc1 V c n hn)) ∗ (∃ r, prngReg c r)) := rfl
theorem PhiS1_pos (c : Dev nD) (n : ℕ) (h : n ≤ cfg1.N) (hz : n ≠ 0) :
    PhiS1 V c n h = iprop(scoped1 c (owns (c : Thread nD τ) scM1 fullShare (sc1 V c (n - 1) (by omega))) ∗ (∃ r, prngReg c r)) := by
  cases n with
  | zero => exact absurd rfl hz
  | succ n => rfl

/-- The proof data of region 1 on core `c`. Windows 0 and 1 read one array, half each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (totBlk1 V c t) (sc1 V c t.val t.isLt)
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (totBlk1 V c t) (sc1 V c t.val t.isLt) := by dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

end Cert.KernelIdeal.Hand

end
-- ==== Proof.KI.Body0.lean ====
/-
  The body of region 0 at a grid point. The body first clears the scratch cell where the batch's run starts
  (mi = ni = 0), then loads the two column blocks and the scratch cell, stores the cell plus the tile's sum back,
  and where the batch's run ends (mi = ni = 7) copies the cell into the output block. So after point t the scratch
  cell holds `sc0 t`, the input blocks are as found, and the output buffer holds the cell at the run's last
  point and is untouched elsewhere.
-/
import proofs.«157743_j13898514170484_1_alg».proof.Proof.KI.Data
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three control cases

  On the grid (t = 64·b + 8·mi + ni) the first conditional is taken exactly where a batch's run starts (t ≡ 0 mod 64),
  the second exactly where it ends (t ≡ 63 mod 64), never both. Each case is first run on ANY whole memrefs at ANY
  contents; every load and store of the body goes through the whole-shape rectangle at zero offsets, so a buffer reads
  back as the payload of the last store into it. -/

/-- The first conditional's test (the run of a batch starts: mi = ni = 0), from the grid coordinates. -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds exactly at the points ≡ 0 (mod 64). -/
theorem hcond0_0 : ∀ t : Fin cfg0.N, cond0_0 (grid0.coords t) ↔ t.val % 64 = 0 :=
  (by decide +kernel : ∀ t : Fin grid0.N, cond0_0 (grid0.coords t) ↔ t.val % 64 = 0)

/-- The second conditional's test (the run of a batch ends: mi = ni = 7). -/
abbrev cond0_1 (i : grid0.Coords) : Prop := k0_cond2 i = 1#1
/-- It holds exactly at the points ≡ 63 (mod 64). -/
theorem hcond0_1 : ∀ t : Fin cfg0.N, cond0_1 (grid0.coords t) ↔ t.val % 64 = 63 :=
  (by decide +kernel : ∀ t : Fin grid0.N, cond0_1 (grid0.coords t) ↔ t.val % 64 = 63)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Off the last point of a batch's run the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last point of a batch's run the output window is live. -/
theorem liveAt0_2 : ∀ t : Fin cfg0.N, cond0_1 (grid0.coords t) → cfg0.idle 2 (grid0.coords t) = false := by decide +kernel

/-- The zero offsets, spelt as a vector literal. -/
theorem hz3 : (![0, 0, 0] : Fin 3 → ℕ) = fun _ => 0 := funext fun a => by fin_cases a <;> rfl

/-- A buffer whose LAST store went through the whole-shape rectangle at zero offsets reads back that store's payload,
    whatever it held and whatever was stored before. -/
theorem read_writes_last_whole {sg : RefSig} {κ : Kind} {sp : Space} {S : Shape} {e : EltTy}
    (v : View sg κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb w L]

set_option maxHeartbeats 1000000 in
/-- The body where a batch's run neither starts nor ends: the inputs' and the output's buffers come back as found, the
    scratch cell with the tile's sum added to what it held. -/
theorem run0_plain (c : Dev nD) (i : grid0.Coords)
    (arg3 : Memref sig .tc .vmem S1x64x512 .f32) (harg3 : arg3.IsWhole) (arg4 : Memref sig .tc .vmem S1x64x512 .f32) (harg4 : arg4.IsWhole)
    (arg5 : Memref sig .tc .vmem S1x1x1 .f32) (harg5 : arg5.IsWhole) (arg6 : Memref sig .tc .vmem S1x1x1 .f32) (harg6 : arg6.IsWhole)
    (hc0 : ¬cond0_0 i) (hc1 : ¬cond0_1 i)
    (x0 x1 : Vec F S1x64x512 .f32) (xi xs : Vec F S1x1x1 .f32) (E : Set ℕ) (K : PUnit → sProp 𝕄) :
    iprop(owns (c : Thread nD τ) arg3 fullShare x0 ∗ owns (c : Thread nD τ) arg4 fullShare x1 ∗ owns (c : Thread nD τ) arg5 fullShare xi
        ∗ owns (c : Thread nD τ) arg6 fullShare xs
        ∗ (iprop(owns (c : Thread nD τ) arg3 fullShare x0 ∗ owns (c : Thread nD τ) arg4 fullShare x1 ∗ owns (c : Thread nD τ) arg5 fullShare xi
            ∗ owns (c : Thread nD τ) arg6 fullShare (k0_pay2 x0 x1 xs)) -∗ K ⟨⟩))
      ⊢ wp frame (wpE (defs₀ (F := F)) Variants.none c none) E (cc0__sum_kernel i arg3 harg3 arg4 harg4 arg5 harg5 arg6 harg6) K := by
  simp only [cc0__sum_kernel_eq_skeleton]; unfold cc0__sum_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [read_writes_last_whole _ _ hz3]
  simp only [View.readAt_eq_ld, harg3.read_unread, harg4.read_unread, harg6.read_unread,
    View.ld_unit_zero (S := S1x64x512) hz3, View.ld_unit_zero (S := S1x1x1) hz3]

set_option maxHeartbeats 1000000 in
/-- The body where a batch's run starts: the scratch cell, whatever it held, ends with the tile's sum added to zero;
    the inputs' and the output's buffers come back as found. -/
theorem run0_reset (c : Dev nD) (i : grid0.Coords)
    (arg3 : Memref sig .tc .vmem S1x64x512 .f32) (harg3 : arg3.IsWhole) (arg4 : Memref sig .tc .vmem S1x64x512 .f32) (harg4 : arg4.IsWhole)
    (arg5 : Memref sig .tc .vmem S1x1x1 .f32) (harg5 : arg5.IsWhole) (arg6 : Memref sig .tc .vmem S1x1x1 .f32) (harg6 : arg6.IsWhole)
    (hc0 : cond0_0 i) (hc1 : ¬cond0_1 i)
    (x0 x1 : Vec F S1x64x512 .f32) (xi : Vec F S1x1x1 .f32) (E : Set ℕ) (K : PUnit → sProp 𝕄) :
    iprop(owns (c : Thread nD τ) arg3 fullShare x0 ∗ owns (c : Thread nD τ) arg4 fullShare x1 ∗ owns (c : Thread nD τ) arg5 fullShare xi
        ∗ (∃ d, owns (c : Thread nD τ) arg6 fullShare d)
        ∗ (iprop(owns (c : Thread nD τ) arg3 fullShare x0 ∗ owns (c : Thread nD τ) arg4 fullShare x1 ∗ owns (c : Thread nD τ) arg5 fullShare xi
            ∗ owns (c : Thread nD τ) arg6 fullShare (k0_pay2 x0 x1 k0_pay1)) -∗ K ⟨⟩))
      ⊢ wp frame (wpE (defs₀ (F := F)) Variants.none c none) E (cc0__sum_kernel i arg3 harg3 arg4 harg4 arg5 harg5 arg6 harg6) K := by
  simp only [cc0__sum_kernel_eq_skeleton]; unfold cc0__sum_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  -- the last store into the cell covers it; its payload read the cell back after the clearing store
  rw [read_writes_last_whole _ _ hz3]
  sl_unfold_words
  simp only [View.readAt_eq_ld, harg3.read_unread, harg4.read_unread,
    View.ld_unit_zero (S := S1x64x512) hz3, View.readCov_unit_zero (S := S1x1x1) _ hz3]

set_option maxHeartbeats 1000000 in
/-- The body where a batch's run ends: the scratch cell ends with the tile's sum added to what it held, and the
    output's buffer, whatever it held, ends with a copy of the cell. -/
theorem run0_store (c : Dev nD) (i : grid0.Coords)
    (arg3 : Memref sig .tc .vmem S1x64x512 .f32) (harg3 : arg3.IsWhole) (arg4 : Memref sig .tc .vmem S1x64x512 .f32) (harg4 : arg4.IsWhole)
    (arg5 : Memref sig .tc .vmem S1x1x1 .f32) (harg5 : arg5.IsWhole) (arg6 : Memref sig .tc .vmem S1x1x1 .f32) (harg6 : arg6.IsWhole)
    (hc0 : ¬cond0_0 i) (hc1 : cond0_1 i)
    (x0 x1 : Vec F S1x64x512 .f32) (xs : Vec F S1x1x1 .f32) (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1 ∗ owns (c : Thread nD τ) arg5 fullShare (k0_pay2 x0 x1 xs)
            ∗ owns (c : Thread nD τ) arg6 fullShare (k0_pay2 x0 x1 xs)) -∗ K ⟨⟩))
      ⊢ wp frame (wpE (defs₀ (F := F)) Variants.none c none) E (cc0__sum_kernel i arg3 harg3 arg4 harg4 arg5 harg5 arg6 harg6) K := by
  simp only [cc0__sum_kernel_eq_skeleton]; unfold cc0__sum_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    -- the one store into the output's buffer covers it; its payload is the cell read back after the cell's store
    rw [read_writes_last_whole _ _ hz3]
    sl_unfold_words
    simp only [View.readAt_eq_ld, harg3.read_unread, harg4.read_unread, harg6.read_unread,
      View.ld_unit_zero (S := S1x64x512) hz3, View.ld_unit_zero (S := S1x1x1) hz3, View.readCov_unit_zero (S := S1x1x1) _ hz3]
  iexists _; isplitr
  swap; · iexact HS
  ipureintro
  sl_unfold_words
  rw [read_writes_last_whole _ _ hz3]
  simp only [View.readAt_eq_ld, harg3.read_unread, harg4.read_unread, harg6.read_unread,
    View.ld_unit_zero (S := S1x64x512) hz3, View.ld_unit_zero (S := S1x1x1) hz3]

/-! ## The body obligation, at a generic point -/

/-- Each window's current staging memref at point `t`, spelt as the pipeline passes it to the body, and its wholeness. -/
abbrev ms0_0 (t : Fin cfg0.N) : Memref sig .tc .vmem S1x64x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1 .f32 := win0_2.stage (cfg0.slots t 2)
abbrev hs0_2 (t : Fin cfg0.N) : (ms0_2 t).IsWhole := hstage0_2 ((cfg0.slots t 2).cast nbuf0_2)

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the closed forms say which case the point is in;
    the invariant hands the body the scratch cell at what the point before left (at anything before the first point,
    and a point where a run starts overwrites it anyway) and takes it back at `sc0 t`; off a run's last point the
    output's buffer goes back as it came, and at a run's last point it is left at `sc0 t`. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 256 := lt_of_lt_of_eq t.isLt (show cfg0.N = 256 from N_0)
  by_cases h0 : t.val % 64 = 0
  · -- a run starts here
    have h1 : ¬t.val % 64 = 63 := by omega
    rw [Dat.leavesExact_idle (dat0 V c) 2 t (idleAt0_2 t (fun h => h1 ((hcond0_1 t).mp h))) (noFlush0_2 t (fun h => h1 ((hcond0_1 t).mp h)))]
    rw [sc0_reset V c t h0]
    by_cases hz : t.val = 0
    · rw [PhiS0_castSucc V c t, PhiS0_zero V c _ _ hz, PhiA0_eq]
      unfold scoped0
      iintro ⟨⟨⟨HS, Hrest⟩, Hg⟩, Ho, ⟨%d0, H0⟩, ⟨%d1, H1⟩, ⟨%d2, H2⟩⟩
      iapply (run0_reset c (grid0.coords t) _ (hs0_0 t) _ (hs0_1 t) _ (hs0_2 t) _ (Memref.isWhole_whole _) ((hcond0_0 t).mpr h0) (fun h => h1 ((hcond0_1 t).mp h)) (colBlk0 V c t) (rowBlk0 V c t) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS0_castSucc V c t, PhiS0_pos V c _ _ hz]
      unfold scoped0
      iintro ⟨⟨⟨HS, Hrest⟩, Hg⟩, Ho, ⟨%d0, H0⟩, ⟨%d1, H1⟩, ⟨%d2, H2⟩⟩
      iapply (run0_reset c (grid0.coords t) _ (hs0_0 t) _ (hs0_1 t) _ (hs0_2 t) _ (Memref.isWhole_whole _) ((hcond0_0 t).mpr h0) (fun h => h1 ((hcond0_1 t).mp h)) (colBlk0 V c t) (rowBlk0 V c t) _ Set.univ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun hz => h0 (by rw [hz])
    rw [sc0_step V c t h0]
    rw [PhiS0_castSucc V c t, PhiS0_pos V c _ _ hz]
    unfold scoped0
    by_cases h1 : t.val % 64 = 63
    · -- a run ends here
      rw [show (dat0 V c).leavesExact 2 t = owns (c : Thread nD τ) (ms0_2 t) fullShare ((dat0 V c).after 2 t) from by
        unfold Dat.leavesExact; rw [liveAt0_2 t ((hcond0_1 t).mpr h1)], after0_2]
      rw [sc0_step V c t h0]
      iintro ⟨⟨⟨HS, Hrest⟩, Hg⟩, Ho, ⟨%d0, H0⟩, ⟨%d1, H1⟩, ⟨%d2, H2⟩⟩
      iapply (run0_store c (grid0.coords t) _ (hs0_0 t) _ (hs0_1 t) _ (hs0_2 t) _ (Memref.isWhole_whole _) (fun h => h0 ((hcond0_0 t).mp h)) ((hcond0_1 t).mpr h1) (colBlk0 V c t) (rowBlk0 V c t) _ Set.univ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · -- inside a run
      rw [Dat.leavesExact_idle (dat0 V c) 2 t (idleAt0_2 t (fun h => h1 ((hcond0_1 t).mp h))) (noFlush0_2 t (fun h => h1 ((hcond0_1 t).mp h)))]
      iintro ⟨⟨⟨HS, Hrest⟩, Hg⟩, Ho, ⟨%d0, H0⟩, ⟨%d1, H1⟩, ⟨%d2, H2⟩⟩
      iapply (run0_plain c (grid0.coords t) _ (hs0_0 t) _ (hs0_1 t) _ (hs0_2 t) _ (Memref.isWhole_whole _) (fun h => h0 ((hcond0_0 t).mp h)) (fun h => h1 ((hcond0_1 t).mp h)) (colBlk0 V c t) (rowBlk0 V c t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation for region 0, at every grid point. -/
theorem body_obligation0 (c : Dev nD) : BodyObligation (dat0 (F := F) V c) (defs₀ (F := F)) Variants.none () Set.univ := by
  intro t
  rw [bigSep_W0, bigSep_W0]
  exact sound_body0 V c t

end Cert.KernelIdeal.Hand

end
-- ==== Proof.KI.Body1.lean ====
/-
  The body of region 1 at a grid point. The body first clears the 64×512 scratch where ni = 0, then loads the two
  column blocks and the scratch, stores the scratch plus f[:, ni-block] · exp(tile) back, and where ni = 7 divides the
  scratch by the batch's total (window 2) and stores the quotient into the output block. So after point t the scratch
  holds `sc1 t`, the input blocks are as found, and the output buffer holds the quotient at ni = 7 and is untouched
  elsewhere.

  Three cases occur on the grid (t = 64·b + 8·mi + ni): the scratch is cleared first (ni = 0), neither conditional
  is taken (0 < ni < 7), the quotient is stored last (ni = 7). Each case's run of the whole body is stated with the
  contents every buffer ends with; the obligation then chooses the case from the point's residue mod 8.
-/
import proofs.«157743_j13898514170484_1_alg».proof.Proof.KI.Data
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions of the body, in closed form over the grid -/

/-- The first conditional (the scratch is cleared): the coordinate ni is 0. -/
abbrev cond1_0 (i : grid1.Coords) : Prop :=
  (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional (the quotient is stored): the coordinate ni is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output is idle exactly off the points where the quotient is stored, -/
theorem idleAt1_3 : ∀ t : Fin cfg1.N, ¬ t.val % 8 = 7 → cfg1.idle 3 (grid1.coords t) = true := by decide +kernel
theorem liveAt1_3 : ∀ t : Fin cfg1.N, t.val % 8 = 7 → cfg1.idle 3 (grid1.coords t) = false := by decide +kernel
/-- and is not written back there. -/
theorem noFlush1_3 (t : Fin cfg1.N) (h : ¬ t.val % 8 = 7) : (cfg1.win 3).flush t = false := by
  cases hf : (cfg1.win 3).flush t with
  | false => rfl
  | true => exact absurd ((flush1_3 t).mp hf) h

/-! ## Whole-buffer loads and stores: the zero offsets, and the one-piece cover -/

private theorem hz2 : (![0, 0] : Fin S64x512.rank → Nat) = fun _ => 0 := funext fun a => by fin_cases a <;> rfl
private theorem hz3 : (![0, 0, 0] : Fin S1x64x512.rank → Nat) = fun _ => 0 := funext fun a => by fin_cases a <;> rfl
private theorem hz1 : (![0, 0, 0] : Fin S1x1x1.rank → Nat) = fun _ => 0 := funext fun a => by fin_cases a <;> rfl

/-- A list of stores whose last (head) store is of the whole buffer covers it. -/
private theorem cover_head {S : Shape} {e : EltTy} {off : Fin S.rank → Nat} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons.mpr (Or.inl rfl), View.mem_set_unit_zero h inb y⟩

/-! ## The body's run, case by case -/

set_option maxHeartbeats 1000000 in
/-- THE SCRATCH CLEARED FIRST. With the scratch at any contents `xs`, the body runs to the continuation holding the
    inputs and the output as they were and the scratch at the update of the cleared scratch by the two blocks. -/
theorem kernelRun1_A (c : Dev nD) (i : grid1.Coords)
    (arg3 : Memref sig .tc .vmem S1x64x512 .f32) (harg3 : arg3.IsWhole)
    (arg4 : Memref sig .tc .vmem S1x64x512 .f32) (harg4 : arg4.IsWhole)
    (arg5 : Memref sig .tc .vmem S1x1x1 .f32) (harg5 : arg5.IsWhole)
    (arg6 : Memref sig .tc .vmem S1x64x512 .f32) (harg6 : arg6.IsWhole)
    (arg7 : Memref sig .tc .vmem S64x512 .f32) (harg7 : arg7.IsWhole)
    (hc0 : cond1_0 i) (hc1 : ¬cond1_1 i)
    (x0 x1 : Vec F S1x64x512 .f32) (x2 : Vec F S1x1x1 .f32) (xs : Vec F S64x512 .f32)
    (xi3 : Vec F S1x64x512 .f32) (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare xi3
        ∗ owns (c : Thread nD τ) arg7 fullShare xs
        ∗ (iprop(owns (c : Thread nD τ) arg3 fullShare x0 ∗ owns (c : Thread nD τ) arg4 fullShare x1
            ∗ owns (c : Thread nD τ) arg5 fullShare x2 ∗ owns (c : Thread nD τ) arg6 fullShare xi3
            ∗ owns (c : Thread nD τ) arg7 fullShare (k1_pay2 x0 x1 k1_pay1)) -∗ K ⟨⟩))
      ⊢ wp frame (wpE (defs₀ (F := F)) Variants.none c none) E
          (cc1__num_kernel i arg3 harg3 arg4 harg4 arg5 harg5 arg6 harg6 arg7 harg7) K := by
  simp only [cc1__num_kernel_eq_skeleton]; unfold cc1__num_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1
  obtain rfl := harg5.eq_unread hf2; obtain rfl := harg6.eq_unread hf3
  obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  sl_unfold_words
  rw [View.read_writes_eq_canon _ _ _ (cover_head hz2 _ _ _), View.canon_cons_unit_zero hz2]
  simp only [View.readAt_eq_ld, harg3.read_unread, harg4.read_unread,
    View.ld_unit_zero (S := S1x64x512) hz3, View.readCov_unit_zero (S := S64x512) _ hz2]

set_option maxHeartbeats 1000000 in
/-- NEITHER CONDITIONAL TAKEN. With the three inputs' buffers at `x0`, `x1`, `x2`, the output's at `xi3` and the scratch
    at `xs`, the body runs to the continuation holding the inputs and the output as they were and the scratch at the
    update of `xs` by the two blocks. -/
theorem kernelRun1_B (c : Dev nD) (i : grid1.Coords)
    (arg3 : Memref sig .tc .vmem S1x64x512 .f32) (harg3 : arg3.IsWhole)
    (arg4 : Memref sig .tc .vmem S1x64x512 .f32) (harg4 : arg4.IsWhole)
    (arg5 : Memref sig .tc .vmem S1x1x1 .f32) (harg5 : arg5.IsWhole)
    (arg6 : Memref sig .tc .vmem S1x64x512 .f32) (harg6 : arg6.IsWhole)
    (arg7 : Memref sig .tc .vmem S64x512 .f32) (harg7 : arg7.IsWhole)
    (hc0 : ¬cond1_0 i) (hc1 : ¬cond1_1 i)
    (x0 x1 : Vec F S1x64x512 .f32) (x2 : Vec F S1x1x1 .f32) (xs : Vec F S64x512 .f32)
    (xi3 : Vec F S1x64x512 .f32) (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare xi3
        ∗ owns (c : Thread nD τ) arg7 fullShare xs
        ∗ (iprop(owns (c : Thread nD τ) arg3 fullShare x0 ∗ owns (c : Thread nD τ) arg4 fullShare x1
            ∗ owns (c : Thread nD τ) arg5 fullShare x2 ∗ owns (c : Thread nD τ) arg6 fullShare xi3
            ∗ owns (c : Thread nD τ) arg7 fullShare (k1_pay2 x0 x1 xs)) -∗ K ⟨⟩))
      ⊢ wp frame (wpE (defs₀ (F := F)) Variants.none c none) E
          (cc1__num_kernel i arg3 harg3 arg4 harg4 arg5 harg5 arg6 harg6 arg7 harg7) K := by
  simp only [cc1__num_kernel_eq_skeleton]; unfold cc1__num_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1
  obtain rfl := harg5.eq_unread hf2; obtain rfl := harg6.eq_unread hf3
  obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (cover_head hz2 _ _ _), View.canon_unit_zero hz2]
  simp only [View.readAt_eq_ld, harg3.read_unread, harg4.read_unread, harg7.read_unread,
    View.ld_unit_zero (S := S1x64x512) hz3, View.ld_unit_zero (S := S64x512) hz2]

set_option maxHeartbeats 1000000 in
/-- THE QUOTIENT STORED LAST. With the output's buffer at any contents `xo`, the body runs to the continuation
    holding the inputs as they were, the scratch at the update of `xs` by the two blocks, and the output at that
    divided by the total. -/
theorem kernelRun1_C (c : Dev nD) (i : grid1.Coords)
    (arg3 : Memref sig .tc .vmem S1x64x512 .f32) (harg3 : arg3.IsWhole)
    (arg4 : Memref sig .tc .vmem S1x64x512 .f32) (harg4 : arg4.IsWhole)
    (arg5 : Memref sig .tc .vmem S1x1x1 .f32) (harg5 : arg5.IsWhole)
    (arg6 : Memref sig .tc .vmem S1x64x512 .f32) (harg6 : arg6.IsWhole)
    (arg7 : Memref sig .tc .vmem S64x512 .f32) (harg7 : arg7.IsWhole)
    (hc0 : ¬cond1_0 i) (hc1 : cond1_1 i)
    (x0 x1 : Vec F S1x64x512 .f32) (x2 : Vec F S1x1x1 .f32) (xs : Vec F S64x512 .f32)
    (xo : Vec F S1x64x512 .f32) (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare xo
        ∗ owns (c : Thread nD τ) arg7 fullShare xs
        ∗ (iprop(owns (c : Thread nD τ) arg3 fullShare x0 ∗ owns (c : Thread nD τ) arg4 fullShare x1
            ∗ owns (c : Thread nD τ) arg5 fullShare x2
            ∗ owns (c : Thread nD τ) arg6 fullShare (k1_pay3 x2 (k1_pay2 x0 x1 xs))
            ∗ owns (c : Thread nD τ) arg7 fullShare (k1_pay2 x0 x1 xs)) -∗ K ⟨⟩))
      ⊢ wp frame (wpE (defs₀ (F := F)) Variants.none c none) E
          (cc1__num_kernel i arg3 harg3 arg4 harg4 arg5 harg5 arg6 harg6 arg7 harg7) K := by
  simp only [cc1__num_kernel_eq_skeleton]; unfold cc1__num_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1
  obtain rfl := harg5.eq_unread hf2; obtain rfl := harg6.eq_unread hf3
  obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    rw [View.read_writes_eq_canon _ _ _ (cover_head hz3 _ _ _), View.canon_unit_zero hz3]
    simp only [View.readAt_eq_ld, harg3.read_unread, harg4.read_unread, harg5.read_unread, harg7.read_unread,
      View.ld_unit_zero (S := S1x64x512) hz3, View.ld_unit_zero (S := S64x512) hz2,
      View.ld_unit_zero (S := S1x1x1) hz1, View.readCov_unit_zero (S := S64x512) _ hz2]
  iexists _; isplitr
  swap; · iexact HS
  ipureintro
  sl_unfold_words
  rw [View.read_writes_eq_canon _ _ _ (cover_head hz2 _ _ _), View.canon_unit_zero hz2]
  simp only [View.readAt_eq_ld, harg3.read_unread, harg4.read_unread, harg7.read_unread,
    View.ld_unit_zero (S := S1x64x512) hz3, View.ld_unit_zero (S := S64x512) hz2]

/-! ## The body obligation at a point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point's residue mod 8 says which case it is
    in. Where the scratch is cleared first it is handed over at whatever it holds (anything at the first point, what
    the point before left later); elsewhere at what the point before left. It comes back at this point's contents;
    the other scoped buffers and the generator register ride along untouched. The output's buffer is handed back as
    found off the storing points, and at the quotient on them. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val % 8 = 0
  · -- the scratch is cleared first
    have h1 : ¬ t.val % 8 = 7 := by omega
    rw [Dat.leavesExact_idle (dat1 V c) 3 t (idleAt1_3 t h1) (noFlush1_3 t h1)]
    rw [sc1_reset V c t h0]
    by_cases hz : t.val = 0
    · rw [PhiS1_castSucc V c t, PhiS1_zero V c _ _ hz, PhiA1_eq]
      unfold scoped1
      iintro ⟨⟨⟨G0, G1, G2, G3, G4, G5, G6, ⟨%ds, HS⟩⟩, Hg⟩, Ho, ⟨%d0, H0⟩, ⟨%d1, H1⟩, ⟨%d2, H2⟩, ⟨%d3, H3⟩⟩
      iapply (kernelRun1_A c (grid1.coords t) _ _ _ _ _ _ _ _ _ _ ((hcond1_0 t).mpr h0) (fun h => h1 ((hcond1_1 t).mp h))
        (colBlk1 V c t) (rowBlk1 V c t) (totBlk1 V c t) ds ((dat1 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [G0 G1 G2 G3 G4 G5 G6 HS Hg]
      · isplitl [G0 G1 G2 G3 G4 G5 G6 HS]
        · isplitl [G0]; · iexact G0
          isplitl [G1]; · iexact G1
          isplitl [G2]; · iexact G2
          isplitl [G3]; · iexact G3
          isplitl [G4]; · iexact G4
          isplitl [G5]; · iexact G5
          isplitl [G6]; · iexact G6
          iexact HS
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      unfold scoped1
      iintro ⟨⟨⟨G0, G1, G2, G3, G4, G5, G6, HS⟩, Hg⟩, Ho, ⟨%d0, H0⟩, ⟨%d1, H1⟩, ⟨%d2, H2⟩, ⟨%d3, H3⟩⟩
      iapply (kernelRun1_A c (grid1.coords t) _ _ _ _ _ _ _ _ _ _ ((hcond1_0 t).mpr h0) (fun h => h1 ((hcond1_1 t).mp h))
        (colBlk1 V c t) (rowBlk1 V c t) (totBlk1 V c t) _ ((dat1 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [G0 G1 G2 G3 G4 G5 G6 HS Hg]
      · isplitl [G0 G1 G2 G3 G4 G5 G6 HS]
        · isplitl [G0]; · iexact G0
          isplitl [G1]; · iexact G1
          isplitl [G2]; · iexact G2
          isplitl [G3]; · iexact G3
          isplitl [G4]; · iexact G4
          isplitl [G5]; · iexact G5
          isplitl [G6]; · iexact G6
          iexact HS
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [PhiS1_castSucc V c t, PhiS1_pos V c _ _ hz]
    rw [sc1_step V c t h0]
    unfold scoped1
    by_cases h1 : t.val % 8 = 7
    · -- the quotient is stored last
      rw [show (dat1 V c).leavesExact 3 t = owns (c : Thread nD τ) (st1_3 t) fullShare ((dat1 V c).after 3 t) from by
        unfold Dat.leavesExact; rw [liveAt1_3 t h1], after1_3, sc1_step V c t h0]
      iintro ⟨⟨⟨G0, G1, G2, G3, G4, G5, G6, HS⟩, Hg⟩, Ho, ⟨%d0, H0⟩, ⟨%d1, H1⟩, ⟨%d2, H2⟩, ⟨%d3, H3⟩⟩
      iapply (kernelRun1_C c (grid1.coords t) _ _ _ _ _ _ _ _ _ _ (fun h => h0 ((hcond1_0 t).mp h)) ((hcond1_1 t).mpr h1)
        (colBlk1 V c t) (rowBlk1 V c t) (totBlk1 V c t) _ ((dat1 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [G0 G1 G2 G3 G4 G5 G6 HS Hg]
      · isplitl [G0 G1 G2 G3 G4 G5 G6 HS]
        · isplitl [G0]; · iexact G0
          isplitl [G1]; · iexact G1
          isplitl [G2]; · iexact G2
          isplitl [G3]; · iexact G3
          isplitl [G4]; · iexact G4
          isplitl [G5]; · iexact G5
          isplitl [G6]; · iexact G6
          iexact HS
        iexact Hg
      isplitl [Ho]; · iexact Ho
      isplitl [H0]; · iexact H0
      isplitl [H1]; · iexact H1
      isplitl [H2]; · iexact H2
      iexact H3
    · -- neither conditional is taken
      rw [Dat.leavesExact_idle (dat1 V c) 3 t (idleAt1_3 t h1) (noFlush1_3 t h1)]
      iintro ⟨⟨⟨G0, G1, G2, G3, G4, G5, G6, HS⟩, Hg⟩, Ho, ⟨%d0, H0⟩, ⟨%d1, H1⟩, ⟨%d2, H2⟩, ⟨%d3, H3⟩⟩
      iapply (kernelRun1_B c (grid1.coords t) _ _ _ _ _ _ _ _ _ _ (fun h => h0 ((hcond1_0 t).mp h)) (fun h => h1 ((hcond1_1 t).mp h))
        (colBlk1 V c t) (rowBlk1 V c t) (totBlk1 V c t) _ ((dat1 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [G0 G1 G2 G3 G4 G5 G6 HS Hg]
      · isplitl [G0 G1 G2 G3 G4 G5 G6 HS]
        · isplitl [G0]; · iexact G0
          isplitl [G1]; · iexact G1
          isplitl [G2]; · iexact G2
          isplitl [G3]; · iexact G3
          isplitl [G4]; · iexact G4
          isplitl [G5]; · iexact G5
          isplitl [G6]; · iexact G6
          iexact HS
        iexact Hg
      isplitl [Ho]; · iexact Ho
      isplitl [H0]; · iexact H0
      isplitl [H1]; · iexact H1
      isplitl [H2]; · iexact H2
      iexists _; iexact H3

/-- The library's body obligation for region 1, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole run of @main: the reshape of the image, the two kernel regions, the reshape of the result.

  Between two items core c holds every unscoped buffer at a known valuation: the launch memory, then the image
  flattened, then the totals' array at what region 0 leaves in it, then the quotients' array at what region 1 leaves
  in it, then the result reshaped. Both regions read the flattened image through two windows, so at a region's entry
  the image's buffer is split in two halves, one per window, and at its exit the halves are joined again; an input
  array is never written, so both halves come back at the contents they went in with.
-/
import proofs.«157743_j13898514170484_1_alg».proof.Proof.KI.Body0
import proofs.«157743_j13898514170484_1_alg».proof.Proof.KI.Body1
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the image is flattened (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: the totals' array at what its write-backs leave (region 1's entry). -/
def W2 (c : Dev nD) : Valuation τ sig (Elt F) :=
  Function.update (W1 m ρ c) main_v1 (show Buf (Elt F) ((c : Thread nD τ).loc main_v1) from (dat0 (V1 m ρ) c).arrAt 2 cfg0.N)
abbrev V2 : (c : Dev nD) → (b : Ref sig .tc) → Buf (Elt F) ((c : Thread nD τ).loc b) := fun c b => W2 m ρ c b
/-- After region 1: the quotients' array at what its write-backs leave. -/
def W3 (c : Dev nD) : Valuation τ sig (Elt F) :=
  Function.update (W2 m ρ c) main_v2 (show Buf (Elt F) ((c : Thread nD τ).loc main_v2) from (dat1 (V2 m ρ) c).arrAt 3 cfg1.N)
abbrev V3 : (c : Dev nD) → (b : Ref sig .tc) → Buf (Elt F) ((c : Thread nD τ).loc b) := fun c b => W3 m ρ c b
/-- After the result is reshaped. -/
abbrev W4 : Dev nD → Valuation τ sig (Elt F) := fun c => StableHlo.after hostOps2 (W3 m ρ c)

theorem W2_v1 (c : Dev nD) : W2 m ρ c main_v1 = (dat0 (V1 m ρ) c).arrAt 2 cfg0.N := by
  unfold W2; exact Function.update_self ..
theorem W2_of_ne (c : Dev nD) (b : Ref sig .tc) (h : b ≠ main_v1) : W2 m ρ c b = W1 m ρ c b := by
  unfold W2; exact Function.update_of_ne (StableHlo.devRef_ne_of_ne h) ..
theorem W3_v2 (c : Dev nD) : W3 m ρ c main_v2 = (dat1 (V2 m ρ) c).arrAt 3 cfg1.N := by
  unfold W3; exact Function.update_self ..
theorem W3_of_ne (c : Dev nD) (b : Ref sig .tc) (h : b ≠ main_v2) : W3 m ρ c b = W2 m ρ c b := by
  unfold W3; exact Function.update_of_ne (StableHlo.devRef_ne_of_ne h) ..

/-! ## The unscoped buffers and a region's arrays, one by one -/

/-- The core's five unscoped buffers at contents `V`. -/
theorem ub_eq (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_v0) ↦{fullShare} V main_v0)
          ∗ (((c : Thread nD τ).loc main_v1) ↦{fullShare} V main_v1) ∗ (((c : Thread nD τ).loc main_v2) ↦{fullShare} V main_v2)
          ∗ (((c : Thread nD τ).loc main_v3) ↦{fullShare} V main_v3)) := by
  unfold unscopedBufs
  exact bigSep_eq_bigSepL_of_eq [main_arg0, main_v0, main_v1, main_v2, main_v3] (by decide) (by decide) _

variable (V : (c : Dev nD) → (b : Ref sig .tc) → Buf (Elt F) ((c : Thread nD τ).loc b))

/-- Region 0's arrays: the flattened image in two halves, the totals' array whole. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Dat.arrays
  rw [bigSep_W0, (arr_whole0 0).set_eq_univ, (arr_whole0 2).set_eq_univ]
  rfl

/-- Region 1's arrays: the flattened image in two halves, the totals' and the quotients' arrays whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2) ∗ (((c : Thread nD τ).loc main_v2) ↦{fullShare} G 3)) := by
  unfold Dat.arrays
  rw [bigSep_W1, (arr_whole1 0).set_eq_univ, (arr_whole1 2).set_eq_univ, (arr_whole1 3).set_eq_univ]
  rfl

/-! ## The proof data family and the thread state -/

/-- No pallas_call has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-- After any point but the first, a region's invariant gives the scoped rest back at some contents. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  unfold scoped0
  iintro ⟨⟨HS, Hrest⟩, Hg⟩
  isplitl [HS Hrest]
  · isplitl [HS]; · iexists _; iexact HS
    iexact Hrest
  iexact Hg
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scoped1
  iintro ⟨⟨H0, H1, H2, H3, H4, H5, H6, HS⟩, Hg⟩
  isplitl [H0 H1 H2 H3 H4 H5 H6 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact HS
  iexact Hg

/-! ## A region's arrays out of the unscoped buffers, and back -/

/-- The unscoped buffers region 0 does not window. -/
def rest0 (c : Dev nD) : sProp 𝕄 :=
  iprop((((c : Thread nD τ).loc main_arg0) ↦{fullShare} V c main_arg0) ∗ (((c : Thread nD τ).loc main_v2) ↦{fullShare} V c main_v2)
    ∗ (((c : Thread nD τ).loc main_v3) ↦{fullShare} V c main_v3))
/-- The unscoped buffers region 1 does not window. -/
def rest1 (c : Dev nD) : sProp 𝕄 :=
  iprop((((c : Thread nD τ).loc main_arg0) ↦{fullShare} V c main_arg0) ∗ (((c : Thread nD τ).loc main_v3) ↦{fullShare} V c main_v3))

/-- Entry of region 0: the image's buffer is dealt in two halves to the two windows that read it. -/
theorem entry_arrays0 (c : Dev nD) :
    (unscopedBufs (Ix := Unit) (Name := ℕ) (U := UR sig nD τ) (Lvl := ℕ) c (V c) : sProp 𝕄)
      ⊢ iprop((dat0 V c).arrays (fun w => (dat0 V c).arrAt w 0) ∗ rest0 V c) := by
  rw [ub_eq, arrays0_eq]; unfold rest0
  iintro ⟨Ha, Hv0, Hv1, Hv2, Hv3⟩
  ihave Hs := (pointsTo_share (PosShare.mem_left_op_right fullShare)).1 $$ Hv0
  icases Hs with ⟨HL, HR⟩
  isplitl [HL HR Hv1]
  · isplitl [HL]; · iexact HL
    isplitl [HR]; · iexact HR
    iexact Hv1
  isplitl [Ha]; · iexact Ha
  isplitl [Hv2]; · iexact Hv2
  iexact Hv3

/-- Exit of region 0: the two halves of the image's buffer, unchanged, are joined; the totals' array holds what
    the region's write-backs leave. -/
theorem exit_arrays0 (c : Dev nD) (V' : (b : Ref sig .tc) → Buf (Elt F) ((c : Thread nD τ).loc b))
    (h1 : V' main_v1 = (dat0 V c).arrAt 2 cfg0.N) (hne : ∀ b, b ≠ main_v1 → V' b = V c b) :
    iprop((dat0 V c).arrays (fun w => (dat0 V c).arrAt w cfg0.N) ∗ rest0 V c)
      ⊢ (unscopedBufs (Ix := Unit) (Name := ℕ) (U := UR sig nD τ) (Lvl := ℕ) c V' : sProp 𝕄) := by
  have e0 : (dat0 V c).arrAt 0 cfg0.N = V c main_v0 := ((dat0 V c).arrAt_in 0 rfl _).trans (A_eq0 V c 0)
  have e1 : (dat0 V c).arrAt 1 cfg0.N = V c main_v0 := ((dat0 V c).arrAt_in 1 rfl _).trans (A_eq0 V c 1)
  rw [ub_eq, arrays0_eq, h1, hne main_arg0 (by decide), hne main_v0 (by decide), hne main_v2 (by decide), hne main_v3 (by decide)]
  unfold rest0
  iintro ⟨⟨HL, HR, Hv1⟩, Ha, Hv2, Hv3⟩
  rw [e0, e1]
  ihave Hv0 := (pointsTo_share (PosShare.mem_left_op_right fullShare)).2 $$ [HL HR]
  · isplitl [HL]; · iexact HL
    iexact HR
  isplitl [Ha]; · iexact Ha
  isplitl [Hv0]; · iexact Hv0
  isplitl [Hv1]; · iexact Hv1
  isplitl [Hv2]; · iexact Hv2
  iexact Hv3

/-- Entry of region 1. -/
theorem entry_arrays1 (c : Dev nD) :
    (unscopedBufs (Ix := Unit) (Name := ℕ) (U := UR sig nD τ) (Lvl := ℕ) c (V c) : sProp 𝕄)
      ⊢ iprop((dat1 V c).arrays (fun w => (dat1 V c).arrAt w 0) ∗ rest1 V c) := by
  rw [ub_eq, arrays1_eq]; unfold rest1
  iintro ⟨Ha, Hv0, Hv1, Hv2, Hv3⟩
  ihave Hs := (pointsTo_share (PosShare.mem_left_op_right fullShare)).1 $$ Hv0
  icases Hs with ⟨HL, HR⟩
  isplitl [HL HR Hv1 Hv2]
  · isplitl [HL]; · iexact HL
    isplitl [HR]; · iexact HR
    isplitl [Hv1]; · iexact Hv1
    iexact Hv2
  isplitl [Ha]; · iexact Ha
  iexact Hv3

/-- Exit of region 1. -/
theorem exit_arrays1 (c : Dev nD) (V' : (b : Ref sig .tc) → Buf (Elt F) ((c : Thread nD τ).loc b))
    (h2 : V' main_v2 = (dat1 V c).arrAt 3 cfg1.N) (hne : ∀ b, b ≠ main_v2 → V' b = V c b) :
    iprop((dat1 V c).arrays (fun w => (dat1 V c).arrAt w cfg1.N) ∗ rest1 V c)
      ⊢ (unscopedBufs (Ix := Unit) (Name := ℕ) (U := UR sig nD τ) (Lvl := ℕ) c V' : sProp 𝕄) := by
  have e0 : (dat1 V c).arrAt 0 cfg1.N = V c main_v0 := ((dat1 V c).arrAt_in 0 rfl _).trans (A_eq1 V c 0)
  have e1 : (dat1 V c).arrAt 1 cfg1.N = V c main_v0 := ((dat1 V c).arrAt_in 1 rfl _).trans (A_eq1 V c 1)
  have e2 : (dat1 V c).arrAt 2 cfg1.N = V c main_v1 := ((dat1 V c).arrAt_in 2 rfl _).trans (A_eq1 V c 2)
  rw [ub_eq, arrays1_eq, h2, hne main_arg0 (by decide), hne main_v0 (by decide), hne main_v1 (by decide), hne main_v3 (by decide)]
  unfold rest1
  iintro ⟨⟨HL, HR, Hv1, Hv2⟩, Ha, Hv3⟩
  rw [e0, e1, e2]
  ihave Hv0 := (pointsTo_share (PosShare.mem_left_op_right fullShare)).2 $$ [HL HR]
  · isplitl [HL]; · iexact HL
    iexact HR
  isplitl [Ha]; · iexact Ha
  isplitl [Hv0]; · iexact Hv0
  isplitl [Hv1]; · iexact Hv1
  isplitl [Hv2]; · iexact Hv2
  iexact Hv3

/-! ## The regions as items -/

set_option backward.isDefEq.respectTransparency.types false in
/-- Region 0 (the totals): entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := rest0 (V1 m ρ) c
  hentry c := by
    rw [Pipeline.ownSems0_none]
    have hsplit := entry_arrays0 (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi0_out (V1 m ρ) c (Fin.last _) (by rw [Fin.val_last]; have : cfg0.N = 256 := N_0; omega)).trans ?_
    unfold Pipeline.ΦA
    iintro ⟨Hr, Hp⟩
    isplitl [Hp]; · iexact Hp
    isplitr; · iempintro
    iexact Hr
  hexit c := by
    have hjoin := exit_arrays0 (V1 m ρ) c (V2 m ρ c) (W2_v1 m ρ c) (fun b h => W2_of_ne m ρ c b h)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1 (the quotients): entered from every unscoped buffer at `W2`, left at `W3`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := rest1 (V2 m ρ) c
  hentry c := by
    rw [Pipeline.ownSems0_none]
    have hsplit := entry_arrays1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi1_out (V2 m ρ) c (Fin.last _) (by rw [Fin.val_last]; have : cfg1.N = 256 := N_1; omega)).trans ?_
    unfold Pipeline.ΦA
    iintro ⟨Hr, Hp⟩
    isplitl [Hp]; · iexact Hp
    isplitr; · iempintro
    iexact Hr
  hexit c := by
    have hjoin := exit_arrays1 (V2 m ρ) c (V3 m ρ c) (W3_v2 m ρ c) (fun b h => W3_of_ne m ρ c b h)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    final state has each unscoped buffer at the last valuation `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl,
      fun c => show iprop(StableHlo.held (c : Thread nD τ) (Pipeline.ucRefs τ sig) (W4 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.KI.Ends.lean ====
/-
  The two ends of the run read back: the image's buffer is never written, so it ends as launched; the flattened image
  is the reshape of the launch image; the result is the reshape of what region 1 leaves in the quotients' array.
-/
import proofs.«157743_j13898514170484_1_alg».proof.Proof.KI.Run
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The flattened image is the reshape of the launch image. -/
theorem W1_v0 (c : Dev nD) :
    W1 m ρ c main_v0 = shapeCast S4x64x4096 (m ((c : Thread nD τ).loc main_arg0)) shapeCasts_S4x64x64x64_S4x64x4096 := by
  show StableHlo.after hostOps0 (W0 m ρ c) (Proc.devRef .tc main_v0) = _
  after_results; rfl

/-- The result is the reshape of the quotients' array. -/
theorem W4_v3 (c : Dev nD) :
    W4 m ρ c main_v3 = shapeCast S4x64x64x64 (W3 m ρ c main_v2) shapeCasts_S4x64x4096_S4x64x64x64 := by
  show StableHlo.after hostOps2 (W3 m ρ c) (Proc.devRef .tc main_v3) = _
  after_results; rfl

/-- No item writes the image's buffer. -/
theorem W4_arg0 (c : Dev nD) : W4 m ρ c main_arg0 = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.Forall, StableHlo.reshape_writes, Finset.mem_singleton]
          exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          exact StableHlo.devRef_ne_of_ne (by decide)))
    _ = m ((c : Thread nD τ).loc main_arg0) := rfl

/-- The run, read at the two buffers the claims speak of: the result at the last valuation, the image as launched. -/
theorem run_ends : θ_run defs (onTc (τ := τ) (main (F := F))) ⟨m, fun _ => 0, ρ⟩ (fun r => ∀ c : Dev nD,
      r.2.mem ((c.tc : Thread nD τ).loc main_v3) = W4 m ρ c main_v3
      ∧ r.2.mem ((c.tc : Thread nD τ).loc main_arg0) = m ((c.tc : Thread nD τ).loc main_arg0)) :=
  (θ_run defs _ _).mono (fun r h c => ⟨h c _ (mem_uc main_v3 (by decide)),
    (h c _ (mem_uc main_arg0 (by decide))).trans (W4_arg0 m ρ c)⟩) (run_all m ρ)

end Cert.KernelIdeal.Hand

end
-- ==== Proof.LibFinite.lean ====
/- Finite extended reals. A value of the extended reals is FINITE when it is neither infinity, that is, when it is
   the image of a real number. The float operations read at the extended reals (sum, difference, product, quotient by a
   nonzero divisor, maximum, exponential, reciprocal square root of a positive argument, a choice between two values) keep
   finite values finite; this module states each closure fact once, together with the sign facts that go with them. -/
import Idealize.ShloMosaic.PureOps.Ideal
import Mathlib.Data.EReal.Operations
import Mathlib.Data.EReal.Inv
import Mathlib.Algebra.Order.BigOperators.Group.Finset

namespace Cert.LibFinite

open Idealize.ShloMosaic
open scoped BigOperators

/-- A finite extended real: neither `⊤` nor `⊥`. -/
def IsFin (x : EReal) : Prop := x ≠ ⊤ ∧ x ≠ ⊥

/-- The finite extended reals are exactly the real numbers. -/
theorem isFin_iff {x : EReal} : IsFin x ↔ ∃ r : ℝ, x = (r : EReal) := by
  constructor
  · rintro ⟨ht, hb⟩
    exact ⟨x.toReal, (EReal.coe_toReal ht hb).symm⟩
  · rintro ⟨r, rfl⟩
    exact ⟨EReal.coe_ne_top r, EReal.coe_ne_bot r⟩

/-- A finite value is the coercion of its real part. -/
theorem IsFin.coe_toReal {x : EReal} (h : IsFin x) : ((x.toReal : ℝ) : EReal) = x :=
  EReal.coe_toReal h.1 h.2

theorem IsFin.ne_top {x : EReal} (h : IsFin x) : x ≠ ⊤ := h.1
theorem IsFin.ne_bot {x : EReal} (h : IsFin x) : x ≠ ⊥ := h.2

/-- A real number is finite. -/
theorem isFin_coe (r : ℝ) : IsFin (r : EReal) := ⟨EReal.coe_ne_top r, EReal.coe_ne_bot r⟩

theorem isFin_zero : IsFin (0 : EReal) := isFin_coe 0
theorem isFin_one : IsFin (1 : EReal) := isFin_coe 1

theorem IsFin.add {x y : EReal} (hx : IsFin x) (hy : IsFin y) : IsFin (x + y) := by
  obtain ⟨a, rfl⟩ := isFin_iff.mp hx
  obtain ⟨b, rfl⟩ := isFin_iff.mp hy
  rw [← EReal.coe_add]; exact isFin_coe _

theorem IsFin.neg {x : EReal} (hx : IsFin x) : IsFin (-x) := by
  obtain ⟨a, rfl⟩ := isFin_iff.mp hx
  rw [← EReal.coe_neg]; exact isFin_coe _

theorem IsFin.sub {x y : EReal} (hx : IsFin x) (hy : IsFin y) : IsFin (x - y) := by
  obtain ⟨a, rfl⟩ := isFin_iff.mp hx
  obtain ⟨b, rfl⟩ := isFin_iff.mp hy
  rw [← EReal.coe_sub]; exact isFin_coe _

theorem IsFin.mul {x y : EReal} (hx : IsFin x) (hy : IsFin y) : IsFin (x * y) := by
  obtain ⟨a, rfl⟩ := isFin_iff.mp hx
  obtain ⟨b, rfl⟩ := isFin_iff.mp hy
  rw [← EReal.coe_mul]; exact isFin_coe _

/-- A finite sum of finite values is finite. -/
theorem isFin_sum {ι : Type*} (s : Finset ι) (f : ι → EReal) (h : ∀ i ∈ s, IsFin (f i)) : IsFin (∑ i ∈ s, f i) :=
  Finset.sum_induction f IsFin (fun _ _ ha hb => ha.add hb) isFin_zero h

/-- The same over every index of `Fin n`. -/
theorem isFin_sum_univ {n : Nat} (f : Fin n → EReal) (h : ∀ i, IsFin (f i)) : IsFin (∑ i, f i) :=
  isFin_sum Finset.univ f fun i _ => h i

theorem IsFin.max {x y : EReal} (hx : IsFin x) (hy : IsFin y) : IsFin (max x y) := by
  rcases max_choice x y with h | h <;> rw [h] <;> assumption

theorem IsFin.min {x y : EReal} (hx : IsFin x) (hy : IsFin y) : IsFin (min x y) := by
  rcases min_choice x y with h | h <;> rw [h] <;> assumption

/-- A choice between two finite values is finite. -/
theorem IsFin.ite {c : Prop} [Decidable c] {x y : EReal} (hx : IsFin x) (hy : IsFin y) : IsFin (if c then x else y) := by
  split <;> assumption

/-- The same for a Boolean condition. -/
theorem IsFin.cond {c : Bool} {x y : EReal} (hx : IsFin x) (hy : IsFin y) : IsFin (bif c then x else y) := by
  cases c <;> assumption

/-- The exponential of a finite value is the real exponential. -/
theorem exp_coe (r : ℝ) : Ideal.exp (r : EReal) = ((Real.exp r : ℝ) : EReal) := rfl

theorem IsFin.exp {x : EReal} (hx : IsFin x) : IsFin (Ideal.exp x) := by
  obtain ⟨a, rfl⟩ := isFin_iff.mp hx
  rw [exp_coe]; exact isFin_coe _

/-- The exponential of a finite value is positive. -/
theorem IsFin.exp_pos {x : EReal} (hx : IsFin x) : 0 < Ideal.exp x := by
  obtain ⟨a, rfl⟩ := isFin_iff.mp hx
  rw [exp_coe]; exact EReal.coe_pos.mpr (Real.exp_pos a)

/-- The exponential is nonnegative at every extended real (`0` at `⊥`, `⊤` at `⊤`). -/
theorem exp_nonneg (x : EReal) : 0 ≤ Ideal.exp x := by
  induction x using EReal.rec with
  | bot => exact le_of_eq rfl
  | top => exact le_top
  | coe r => rw [exp_coe]; exact EReal.coe_nonneg.mpr (Real.exp_pos r).le

/-- The reciprocal square root of a positive real is the real reciprocal of its square root. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem IsFin.rsqrt {x : EReal} (hx : IsFin x) (hpos : 0 < x) : IsFin (Ideal.rsqrt x) := by
  obtain ⟨a, rfl⟩ := isFin_iff.mp hx
  rw [rsqrt_coe_of_pos (EReal.coe_pos.mp hpos)]; exact isFin_coe _

/-- The reciprocal square root of a positive finite value is positive. -/
theorem IsFin.rsqrt_pos {x : EReal} (hx : IsFin x) (hpos : 0 < x) : 0 < Ideal.rsqrt x := by
  obtain ⟨a, rfl⟩ := isFin_iff.mp hx
  have ha : 0 < a := EReal.coe_pos.mp hpos
  rw [rsqrt_coe_of_pos ha]
  exact EReal.coe_pos.mpr (inv_pos.mpr (Real.sqrt_pos.mpr ha))

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsFin.div {x y : EReal} (hx : IsFin x) (hy : IsFin y) (h0 : y ≠ 0) : IsFin (Ideal.div x y) := by
  obtain ⟨a, rfl⟩ := isFin_iff.mp hx
  obtain ⟨b, rfl⟩ := isFin_iff.mp hy
  have hb : b ≠ 0 := fun h => h0 (by rw [h, EReal.coe_zero])
  rw [div_coe_coe a hb]; exact isFin_coe _

/-- A square is nonnegative, at the infinities too (`⊥ * ⊥ = ⊤`). -/
theorem zero_le_mul_self (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- A finite sum of nonnegative values is nonnegative. -/
theorem zero_le_sum {ι : Type*} (s : Finset ι) (f : ι → EReal) (h : ∀ i ∈ s, 0 ≤ f i) : 0 ≤ ∑ i ∈ s, f i :=
  Finset.sum_nonneg h

theorem zero_le_sum_univ {n : Nat} (f : Fin n → EReal) (h : ∀ i, 0 ≤ f i) : 0 ≤ ∑ i, f i :=
  Finset.sum_nonneg fun i _ => h i

/-- The sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative finite value plus a positive finite value is positive (a variance plus its epsilon). -/
theorem add_pos_of_nonneg_of_pos {x y : EReal} (hx : 0 ≤ x) (hy : 0 < y) : 0 < x + y :=
  lt_of_lt_of_le hy (le_add_of_nonneg_left hx)

end Cert.LibFinite
-- ==== Proof.Spec.lean ====
/-
  The mathematics of the two programs, over the flattened image a : [4, 64, 4096] of extended reals.

  For a batch b and two positions n, m of the flattened spatial axis, the Gram entry is
      gram b n m = Σ_k a[b,k,n] · a[b,k,m],        wt b n m = exp (gram b n m),
  the batch's total is  total b = Σ_n Σ_m wt b n m,  and  numer b k m = Σ_n a[b,k,n] · wt b n m.
  The kernel divides the finished numerator by the total (quotOfSum); the reference divides every weight by the
  total and then sums (sumOfQuot). On finite inputs every weight is a positive real and so is the total, and division
  by a nonzero real distributes over a finite sum of reals: the two agree.
-/
import Idealize.ShloMosaic.PureOps.Ideal
import Idealize.ShloMosaic.Lib.ValueIdx
import proofs.«157743_j13898514170484_1_alg».proof.Proof.LibFinite

noncomputable section

namespace Cert.Spec

open Idealize.ShloMosaic Idealize.ShloMosaic.ValueIdx Cert.LibFinite
open scoped BigOperators

/-- Division by a nonzero finite value distributes over a finite sum of products of finite values:
    with real witnesses, (Σ f·g)/S = Σ f·(g/S) is distributivity of division over a finite sum, and
    associativity of product and quotient, in the reals. -/
private theorem div_sum_distrib {ι : Type*} (s : Finset ι) (f g : ι → EReal)
    (hf : ∀ i, IsFin (f i)) (hg : ∀ i, IsFin (g i)) {S : EReal} (hS : IsFin S) (hS0 : S ≠ 0) :
    Ideal.div (∑ i ∈ s, f i * g i) S = ∑ i ∈ s, f i * Ideal.div (g i) S := by
  obtain ⟨fr, rfl⟩ : ∃ fr : ι → ℝ, f = fun i => (fr i : EReal) :=
    ⟨fun i => (f i).toReal, funext fun i => (hf i).coe_toReal.symm⟩
  obtain ⟨gr, rfl⟩ : ∃ gr : ι → ℝ, g = fun i => (gr i : EReal) :=
    ⟨fun i => (g i).toReal, funext fun i => (hg i).coe_toReal.symm⟩
  obtain ⟨r, rfl⟩ := isFin_iff.mp hS
  have hr : r ≠ 0 := fun h => hS0 (by rw [h, EReal.coe_zero])
  have h1 : ∀ i, (fr i : EReal) * (gr i : EReal) = ((fr i * gr i : ℝ) : EReal) :=
    fun i => (EReal.coe_mul _ _).symm
  have h2 : ∀ i, (fr i : EReal) * Ideal.div (gr i : EReal) (r : EReal) = ((fr i * gr i / r : ℝ) : EReal) := by
    intro i
    rw [div_coe_coe _ hr, ← EReal.coe_mul, mul_div_assoc]
  show Ideal.div (∑ i ∈ s, (fr i : EReal) * (gr i : EReal)) (r : EReal)
      = ∑ i ∈ s, (fr i : EReal) * Ideal.div (gr i : EReal) (r : EReal)
  rw [Finset.sum_congr rfl fun i _ => h1 i, Finset.sum_congr rfl fun i _ => h2 i,
    ← coe_sum, ← coe_sum, div_coe_coe _ hr, Finset.sum_div]

/-- A sum over a whole nonempty index type of positive values dominates one of its terms, so is positive. -/
private theorem sum_univ_pos {n : Nat} [NeZero n] (f : Fin n → EReal) (hpos : ∀ i, 0 < f i) : 0 < ∑ i, f i :=
  lt_of_lt_of_le (hpos 0) (Finset.single_le_sum (fun i _ => (hpos i).le) (Finset.mem_univ 0))

/-- The flattened image's shape. -/
abbrev Flat : Shape := ⟨3, ![4, 64, 4096]⟩

variable (a : Flat.Idx → EReal)

def gram (b : Fin 4) (n m : Fin 4096) : EReal := ∑ k : Fin 64, a (ix3 b k n) * a (ix3 b k m)
def wt (b : Fin 4) (n m : Fin 4096) : EReal := Ideal.exp (gram a b n m)
def total (b : Fin 4) : EReal := ∑ n : Fin 4096, ∑ m : Fin 4096, wt a b n m
def numer (b : Fin 4) (k : Fin 64) (m : Fin 4096) : EReal := ∑ n : Fin 4096, a (ix3 b k n) * wt a b n m

/-- The finished numerator divided by a per-batch divisor `s`. -/
def quotOfSum (s : Fin 4 → EReal) : Flat.Idx → EReal :=
  fun i => Ideal.div (numer a (i 0) (i 1) (i 2)) (s (i 0))

/-- Every weight divided by the batch's total, then summed against the image. -/
def sumOfQuot : Flat.Idx → EReal :=
  fun i => ∑ n : Fin 4096, a (ix3 (i 0) (i 1) n) * Ideal.div (wt a (i 0) n (i 2)) (total a (i 0))

/-- On a finite image the two orders of dividing and summing agree. -/
theorem quotOfSum_eq_sumOfQuot (hfin : ∀ i, IsFin (a i)) : quotOfSum a (total a) = sumOfQuot a := by
  funext i
  -- every Gram entry is a finite sum of products of finite values; every weight is its exponential
  have hgram : ∀ b n m, IsFin (gram a b n m) := fun b n m =>
    isFin_sum_univ _ fun k => (hfin _).mul (hfin _)
  have hwt : ∀ b n m, IsFin (wt a b n m) := fun b n m => (hgram b n m).exp
  have hwpos : ∀ b n m, 0 < wt a b n m := fun b n m => (hgram b n m).exp_pos
  -- the total is a finite, positive, hence nonzero value
  have htot : IsFin (total a (i 0)) :=
    isFin_sum_univ _ fun n => isFin_sum_univ _ fun m => hwt _ n m
  have htot0 : total a (i 0) ≠ 0 :=
    (sum_univ_pos _ fun n => sum_univ_pos _ fun m => hwpos _ n m).ne'
  exact div_sum_distrib Finset.univ (fun n : Fin 4096 => a (ix3 (i 0) (i 1) n))
    (fun n : Fin 4096 => wt a (i 0) n (i 2)) (fun n => hfin _) (fun n => hwt _ n _) htot htot0

end Cert.Spec

end
-- ==== Proof.KI.Pay.lean ====
/-
  What the kernels' stores write, entry by entry, over the extended reals, and what the windows' blocks read.

  With x0 the block of columns mi and x1 the block of columns ni (each 64×512, entry [k, j]):
    tile[n, m] = exp (Σ_k x1[k, n] · x0[k, m]);
  region 0 adds Σ_n Σ_m tile[n, m] to the scratch cell; region 1 adds Σ_n x1[k, n] · tile[n, m] to scratch entry [k, m]
  and finally divides each scratch entry by the batch's total.
  The block of window 0 at point t = 64·b + 8·mi + ni is columns 512·mi … of f[b]; window 1's is columns 512·ni ….
-/
import proofs.«157743_j13898514170484_1_alg».proof.Proof.KI.Data
import proofs.«157743_j13898514170484_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-! ## The payloads at an index -/

/-- The tile's weight at row n (of the ni block) and column m (of the mi block). -/
def tileWt (x0 x1 : Vec Ideal S1x64x512 .f32) (n m : Fin 512) : EReal :=
  Ideal.exp (∑ k : Fin 64, x1 (ix3 0 k n) * x0 (ix3 0 k m))

/-! ### The first product: both operands contracted on their rows -/

private theorem gram_lhs_0 (i : S512x512.Idx) (q : dot_S64x512_S64x512_S512x512_0_0_1_1_n_n.contr.Idx) :
    (dot_S64x512_S64x512_S512x512_0_0_1_1_n_n.lhsIdx i q 0).val = (q ⟨0, by decide⟩).val :=
  dot_S64x512_S64x512_S512x512_0_0_1_1_n_n.lhsIdx_val_of_single rfl i q
private theorem gram_lhs_1 (i : S512x512.Idx) (q : dot_S64x512_S64x512_S512x512_0_0_1_1_n_n.contr.Idx) :
    (dot_S64x512_S64x512_S512x512_0_0_1_1_n_n.lhsIdx i q 1).val = (i 0).val := by
  unfold DotDims.lhsIdx
  rw [dif_neg (show ¬(1 : Fin S64x512.rank) ∈ dot_S64x512_S64x512_S512x512_0_0_1_1_n_n.lhsBatch by decide), dif_pos (show (1 : Fin S64x512.rank) ∈ dot_S64x512_S64x512_S512x512_0_0_1_1_n_n.lhsNonContracting by decide)]
  rfl
private theorem gram_rhs_0 (i : S512x512.Idx) (q : dot_S64x512_S64x512_S512x512_0_0_1_1_n_n.contr.Idx) :
    (dot_S64x512_S64x512_S512x512_0_0_1_1_n_n.rhsIdx i q 0).val = (q ⟨0, by decide⟩).val :=
  dot_S64x512_S64x512_S512x512_0_0_1_1_n_n.rhsIdx_val_of_single rfl i q
private theorem gram_rhs_1 (i : S512x512.Idx) (q : dot_S64x512_S64x512_S512x512_0_0_1_1_n_n.contr.Idx) :
    (dot_S64x512_S64x512_S512x512_0_0_1_1_n_n.rhsIdx i q 1).val = (i 1).val := by
  unfold DotDims.rhsIdx
  rw [dif_neg (show ¬(1 : Fin S64x512.rank) ∈ dot_S64x512_S64x512_S512x512_0_0_1_1_n_n.rhsBatch by decide), dif_pos (show (1 : Fin S64x512.rank) ∈ dot_S64x512_S64x512_S512x512_0_0_1_1_n_n.rhsNonContracting by decide)]
  rfl

/-- The first product into the zero splat, at (n, m): the sum over the rows k of l[k, n] · r[k, m]. -/
private theorem gram_apply (l r : FVec Ideal S64x512 .f32) (n m : Fin 512) :
    matmul dot_S64x512_S64x512_S512x512_0_0_1_1_n_n (some .fp32) l r (constant (F := Ideal) S512x512 .f32 0x00000000#32) (ix2 n m)
      = ∑ k : Fin 64, l (ix2 k n) * r (ix2 k m) := by
  simp only [matmul]
  rw [Ideal.matmul_constant_zero_apply, ← Equiv.sum_comp (ValueIdx.contrEquiv1 dot_S64x512_S64x512_S512x512_0_0_1_1_n_n 64 rfl rfl).symm]
  refine Finset.sum_congr rfl fun k _ => ?_
  have hk := ValueIdx.contrEquiv1_symm_val dot_S64x512_S64x512_S512x512_0_0_1_1_n_n 64 rfl rfl k
  have el : dot_S64x512_S64x512_S512x512_0_0_1_1_n_n.lhsIdx (ix2 n m) ((ValueIdx.contrEquiv1 dot_S64x512_S64x512_S512x512_0_0_1_1_n_n 64 rfl rfl).symm k) = ix2 k n := funext fun a => Fin.ext (by
    match a with
    | ⟨0, _⟩ => exact (gram_lhs_0 _ _).trans hk
    | ⟨1, _⟩ => exact gram_lhs_1 _ _)
  have er : dot_S64x512_S64x512_S512x512_0_0_1_1_n_n.rhsIdx (ix2 n m) ((ValueIdx.contrEquiv1 dot_S64x512_S64x512_S512x512_0_0_1_1_n_n 64 rfl rfl).symm k) = ix2 k m := funext fun a => Fin.ext (by
    match a with
    | ⟨0, _⟩ => exact (gram_rhs_0 _ _).trans hk
    | ⟨1, _⟩ => exact gram_rhs_1 _ _)
  rw [el, er]

/-! ### The second product: the left operand contracted on its columns, the right on its rows -/

private theorem num_lhs_0 (i : S64x512.Idx) (q : dot_S64x512_S512x512_S64x512_1_0_0_1_n_n.contr.Idx) :
    (dot_S64x512_S512x512_S64x512_1_0_0_1_n_n.lhsIdx i q 0).val = (i 0).val := by
  unfold DotDims.lhsIdx
  rw [dif_neg (show ¬(0 : Fin S64x512.rank) ∈ dot_S64x512_S512x512_S64x512_1_0_0_1_n_n.lhsBatch by decide), dif_pos (show (0 : Fin S64x512.rank) ∈ dot_S64x512_S512x512_S64x512_1_0_0_1_n_n.lhsNonContracting by decide)]
  rfl
private theorem num_lhs_1 (i : S64x512.Idx) (q : dot_S64x512_S512x512_S64x512_1_0_0_1_n_n.contr.Idx) :
    (dot_S64x512_S512x512_S64x512_1_0_0_1_n_n.lhsIdx i q 1).val = (q ⟨0, by decide⟩).val :=
  dot_S64x512_S512x512_S64x512_1_0_0_1_n_n.lhsIdx_val_of_single rfl i q
private theorem num_rhs_0 (i : S64x512.Idx) (q : dot_S64x512_S512x512_S64x512_1_0_0_1_n_n.contr.Idx) :
    (dot_S64x512_S512x512_S64x512_1_0_0_1_n_n.rhsIdx i q 0).val = (q ⟨0, by decide⟩).val :=
  dot_S64x512_S512x512_S64x512_1_0_0_1_n_n.rhsIdx_val_of_single rfl i q
private theorem num_rhs_1 (i : S64x512.Idx) (q : dot_S64x512_S512x512_S64x512_1_0_0_1_n_n.contr.Idx) :
    (dot_S64x512_S512x512_S64x512_1_0_0_1_n_n.rhsIdx i q 1).val = (i 1).val := by
  unfold DotDims.rhsIdx
  rw [dif_neg (show ¬(1 : Fin S512x512.rank) ∈ dot_S64x512_S512x512_S64x512_1_0_0_1_n_n.rhsBatch by decide), dif_pos (show (1 : Fin S512x512.rank) ∈ dot_S64x512_S512x512_S64x512_1_0_0_1_n_n.rhsNonContracting by decide)]
  rfl

/-- The second product into the zero splat, at (k, m): the sum over n of l[k, n] · r[n, m]. -/
private theorem num_apply (l : FVec Ideal S64x512 .f32) (r : FVec Ideal S512x512 .f32) (k : Fin 64) (m : Fin 512) :
    matmul dot_S64x512_S512x512_S64x512_1_0_0_1_n_n (some .fp32) l r (constant (F := Ideal) S64x512 .f32 0x00000000#32) (ix2 k m)
      = ∑ n : Fin 512, l (ix2 k n) * r (ix2 n m) := by
  simp only [matmul]
  rw [Ideal.matmul_constant_zero_apply, ← Equiv.sum_comp (ValueIdx.contrEquiv1 dot_S64x512_S512x512_S64x512_1_0_0_1_n_n 512 rfl rfl).symm]
  refine Finset.sum_congr rfl fun n _ => ?_
  have hn := ValueIdx.contrEquiv1_symm_val dot_S64x512_S512x512_S64x512_1_0_0_1_n_n 512 rfl rfl n
  have el : dot_S64x512_S512x512_S64x512_1_0_0_1_n_n.lhsIdx (ix2 k m) ((ValueIdx.contrEquiv1 dot_S64x512_S512x512_S64x512_1_0_0_1_n_n 512 rfl rfl).symm n) = ix2 k n := funext fun a => Fin.ext (by
    match a with
    | ⟨0, _⟩ => exact num_lhs_0 _ _
    | ⟨1, _⟩ => exact (num_lhs_1 _ _).trans hn)
  have er : dot_S64x512_S512x512_S64x512_1_0_0_1_n_n.rhsIdx (ix2 k m) ((ValueIdx.contrEquiv1 dot_S64x512_S512x512_S64x512_1_0_0_1_n_n 512 rfl rfl).symm n) = ix2 n m := funext fun a => Fin.ext (by
    match a with
    | ⟨0, _⟩ => exact (num_rhs_0 _ _).trans hn
    | ⟨1, _⟩ => exact num_rhs_1 _ _)
  rw [el, er]

/-- The exponential of the first product of the two blocks, at (n, m), is the tile's weight. -/
private theorem tile_apply (x0 x1 : FVec Ideal S1x64x512 .f32) (n m : Fin 512) :
    exp (matmul dot_S64x512_S64x512_S512x512_0_0_1_1_n_n (some .fp32)
        (shapeCast S64x512 x1 shapeCasts_S1x64x512_S64x512) (shapeCast S64x512 x0 shapeCasts_S1x64x512_S64x512)
        (constant (F := Ideal) S512x512 .f32 0x00000000#32)) (ix2 n m) = tileWt x0 x1 n m := by
  show Ideal.exp (matmul dot_S64x512_S64x512_S512x512_0_0_1_1_n_n (some .fp32)
        (shapeCast S64x512 x1 shapeCasts_S1x64x512_S64x512) (shapeCast S64x512 x0 shapeCasts_S1x64x512_S64x512)
        (constant (F := Ideal) S512x512 .f32 0x00000000#32) (ix2 n m)) = _
  rw [gram_apply]
  unfold tileWt
  refine congrArg Ideal.exp (Finset.sum_congr rfl fun k _ => ?_)
  rw [shapeCast_1ab_ab_apply, shapeCast_1ab_ab_apply]

/-! ### The two lane sums and the casts between them -/

/-- The sum along the columns of a 512×512 vector, at row n. -/
private theorem sumCols_apply (v : FVec Ideal S512x512 .f32) (hφ : FKind.Formats .f32)
    (hacc : (0x00000000#32 : BitVec 32) = 0x00000000#32) (n : Fin 512) :
    multiReduction (F := Ideal) .add [1] S512 v 0x00000000#32 reduces_S512x512_S512 hφ hacc (ix1 n)
      = ∑ m : Fin 512, v (ix2 n m) := by
  refine (Ideal.multiReduction_add_single v 0x00000000#32 reduces_S512x512_S512 hφ hacc (ix1 n)).trans ?_
  refine Finset.sum_congr rfl fun m _ => congrArg v (funext fun a => Fin.ext ?_)
  match a with
  | ⟨0, _⟩ => rfl
  | ⟨1, _⟩ => rfl

/-- The sum along the rows of a 512×1 vector, at its one column. -/
private theorem sumRows_apply (v : FVec Ideal S512x1 .f32) (hφ : FKind.Formats .f32)
    (hacc : (0x00000000#32 : BitVec 32) = 0x00000000#32) (u : Fin 1) :
    multiReduction (F := Ideal) .add [0] S1 v 0x00000000#32 reduces_S512x1_S1 hφ hacc (ix1 u)
      = ∑ n : Fin 512, v (ix2 n (0 : Fin 1)) := by
  refine (Ideal.multiReduction_add_single v 0x00000000#32 reduces_S512x1_S1 hφ hacc (ix1 u)).trans ?_
  refine Finset.sum_congr rfl fun n _ => congrArg v (funext fun a => Fin.ext ?_)
  match a with
  | ⟨0, _⟩ => rfl
  | ⟨1, _⟩ => show u.val = 0; omega

/-- A vector of 512 entries cast to one column reads, at (n, 0), the entry n. -/
private theorem col_apply {α : Type} (x : S512.Idx → α) (n : Fin 512) (u : Fin 1) :
    shapeCast S512x1 x shapeCasts_S512_S512x1 (ix2 n u) = x (ix1 n) :=
  shapeCast_apply x shapeCasts_S512_S512x1 _ _ (by
    have hu : u.val = 0 := by omega
    rw [Shape.rowMajor_val_one, Shape.rowMajor_val_two]
    show n.val = n.val * 1 + u.val
    omega)

/-- Every index of the one-cell shape is its origin. -/
private theorem eq_origin (j : S1x1x1.Idx) : j = ix3 (0 : Fin 1) (0 : Fin 1) (0 : Fin 1) := by
  funext a; refine Fin.ext ?_
  match a with
  | ⟨0, _⟩ => show (j 0).val = 0; have h : (j 0).val < 1 := (j 0).isLt; omega
  | ⟨1, _⟩ => show (j 1).val = 0; have h : (j 1).val < 1 := (j 1).isLt; omega
  | ⟨2, _⟩ => show (j 2).val = 0; have h : (j 2).val < 1 := (j 2).isLt; omega

/-! ### The five payloads -/

private theorem pay0_zero' (j : S1x1x1.Idx) : k0_pay1 (F := Ideal) j = 0 := by
  unfold k0_pay1
  show shapeCast S1x1x1 (broadcast S1x1x1 (Scalar.ofBits (F := Ideal) .f32 0x00000000#32)) shapeCasts_S1x1x1_S1x1x1 j = 0
  rw [shapeCast_self]
  exact Ideal.ofBits_zero_f32

private theorem pay1_zero' (j : S64x512.Idx) : k1_pay1 (F := Ideal) j = 0 := by
  unfold k1_pay1
  show shapeCast S64x512 (broadcast S64x512 (Scalar.ofBits (F := Ideal) .f32 0x00000000#32)) shapeCasts_S64x512_S64x512 j = 0
  rw [shapeCast_self]
  exact Ideal.ofBits_zero_f32

/-- The total of the tile, as region 0's payload adds it to the cell. -/
private theorem pay0_acc' (x0 x1 : FVec Ideal S1x64x512 .f32) (acc : FVec Ideal S1x1x1 .f32) (j : S1x1x1.Idx) :
    k0_pay2 (F := Ideal) x0 x1 acc j = acc j + ∑ n : Fin 512, ∑ m : Fin 512, tileWt x0 x1 n m := by
  rw [eq_origin j]
  unfold k0_pay2
  show shapeCast S1x1x1 (addf acc (shapeCast S1x1x1 (shapeCast S1x1 (multiReduction (F := Ideal) .add [0] S1
      (shapeCast S512x1 (multiReduction (F := Ideal) .add [1] S512
        (exp (matmul dot_S64x512_S64x512_S512x512_0_0_1_1_n_n (some .fp32)
          (shapeCast S64x512 x1 shapeCasts_S1x64x512_S64x512) (shapeCast S64x512 x0 shapeCasts_S1x64x512_S64x512)
          (constant (F := Ideal) S512x512 .f32 0x00000000#32)))
        0x00000000#32 reduces_S512x512_S512 (.inl rfl) rfl) shapeCasts_S512_S512x1)
      0x00000000#32 reduces_S512x1_S1 (.inl rfl) rfl) shapeCasts_S1_S1x1) shapeCasts_S1x1_S1x1x1)) shapeCasts_S1x1x1_S1x1x1
      (ix3 (0 : Fin 1) (0 : Fin 1) (0 : Fin 1)) = _
  rw [shapeCast_self, addf_apply]
  refine congrArg (acc _ + ·) ?_
  rw [shapeCast_ab_1ab_apply, shapeCast_a_1a_apply]
  refine (sumRows_apply _ _ _ _).trans (Finset.sum_congr rfl fun n _ => ?_)
  rw [col_apply]
  refine (sumCols_apply _ _ _ _).trans (Finset.sum_congr rfl fun m _ => ?_)
  exact tile_apply x0 x1 n m

/-- Region 1's payload adds, at (k, m), the tile's weights summed against the rows' block. -/
private theorem pay1_acc' (x0 x1 : FVec Ideal S1x64x512 .f32) (acc : FVec Ideal S64x512 .f32) (k : Fin 64) (m : Fin 512) :
    k1_pay2 (F := Ideal) x0 x1 acc (ix2 k m) = acc (ix2 k m) + ∑ n : Fin 512, x1 (ix3 0 k n) * tileWt x0 x1 n m := by
  unfold k1_pay2
  show shapeCast S64x512 (addf acc (matmul dot_S64x512_S512x512_S64x512_1_0_0_1_n_n (some .fp32)
      (shapeCast S64x512 x1 shapeCasts_S1x64x512_S64x512)
      (exp (matmul dot_S64x512_S64x512_S512x512_0_0_1_1_n_n (some .fp32)
          (shapeCast S64x512 x1 shapeCasts_S1x64x512_S64x512) (shapeCast S64x512 x0 shapeCasts_S1x64x512_S64x512)
          (constant (F := Ideal) S512x512 .f32 0x00000000#32)))
      (constant (F := Ideal) S64x512 .f32 0x00000000#32))) shapeCasts_S64x512_S64x512 (ix2 k m) = _
  rw [shapeCast_self, addf_apply]
  refine congrArg (acc _ + ·) ?_
  rw [num_apply]
  refine Finset.sum_congr rfl fun n _ => ?_
  rw [shapeCast_1ab_ab_apply, tile_apply]

/-- Region 1's last payload: the scratch entry divided by the batch's total. -/
private theorem pay1_div' (s : FVec Ideal S1x1x1 .f32) (acc : FVec Ideal S64x512 .f32) (k : Fin 64) (m : Fin 512) :
    k1_pay3 (F := Ideal) s acc (ix3 0 k m) = Ideal.div (acc (ix2 k m)) (s (ix3 0 0 0)) := by
  unfold k1_pay3
  show shapeCast S1x64x512 (divf acc (broadcast S64x512 (extractAt ![0, 0, 0] s inpos_S1x1x1_p0_0_0))) shapeCasts_S64x512_S1x64x512
      (ix3 (0 : Fin 1) k m) = _
  rw [shapeCast_ab_1ab_apply, divf_apply, broadcast_apply]
  refine congrArg (Ideal.div (acc (ix2 k m))) ?_
  unfold extractAt
  refine congrArg s (funext fun a => Fin.ext ?_)
  match a with
  | ⟨0, _⟩ => rfl
  | ⟨1, _⟩ => rfl
  | ⟨2, _⟩ => rfl

theorem pay0_zero (j : S1x1x1.Idx) : k0_pay1 (F := Ideal) j = 0 := by
  exact pay0_zero' j

theorem pay0_acc (x0 x1 : Vec Ideal S1x64x512 .f32) (acc : Vec Ideal S1x1x1 .f32) (j : S1x1x1.Idx) :
    k0_pay2 (F := Ideal) x0 x1 acc j = acc j + ∑ n : Fin 512, ∑ m : Fin 512, tileWt x0 x1 n m := by
  exact pay0_acc' x0 x1 acc j

theorem pay1_zero (j : S64x512.Idx) : k1_pay1 (F := Ideal) j = 0 := by
  exact pay1_zero' j

theorem pay1_acc (x0 x1 : Vec Ideal S1x64x512 .f32) (acc : Vec Ideal S64x512 .f32) (k : Fin 64) (m : Fin 512) :
    k1_pay2 (F := Ideal) x0 x1 acc (ix2 k m) = acc (ix2 k m) + ∑ n : Fin 512, x1 (ix3 0 k n) * tileWt x0 x1 n m := by
  exact pay1_acc' x0 x1 acc k m

theorem pay1_div (s : Vec Ideal S1x1x1 .f32) (acc : Vec Ideal S64x512 .f32) (k : Fin 64) (m : Fin 512) :
    k1_pay3 (F := Ideal) s acc (ix3 0 k m) = Ideal.div (acc (ix2 k m)) (s (ix3 0 0 0)) := by
  exact pay1_div' s acc k m

/-! ## The blocks at an index: point t = 64·b + 8·mi + ni -/

variable (V : (c : Dev nD) → (b : Ref sig .tc) → Buf (Elt Ideal) ((c : Thread nD τ).loc b))

/-- The flattened image as region 0 and region 1 find it. -/
abbrev img (c : Dev nD) : Cert.Spec.Flat.Idx → EReal := V c main_v0

/-- Region 0's index maps at point t: the batch t / 64 on the first axis, nothing on the second, and on the
    third the column block (t / 8) mod 8 for window 0, the row block t mod 8 for window 1. -/
private theorem idx_facts0 : ∀ t : Fin cfg0.N,
    win0_0.index t (0 : Fin 3) = t.val / 64 ∧ win0_0.index t (1 : Fin 3) = 0 ∧ win0_0.index t (2 : Fin 3) = t.val / 8 % 8
    ∧ win0_1.index t (0 : Fin 3) = t.val / 64 ∧ win0_1.index t (1 : Fin 3) = 0 ∧ win0_1.index t (2 : Fin 3) = t.val % 8 :=
  (by decide +kernel : ∀ t : Fin grid0.N, _)

/-- Region 1's index maps at point t: as region 0's for windows 0 and 1; window 2 is the batch's one cell. -/
private theorem idx_facts1 : ∀ t : Fin cfg1.N,
    win1_0.index t (0 : Fin 3) = t.val / 64 ∧ win1_0.index t (1 : Fin 3) = 0 ∧ win1_0.index t (2 : Fin 3) = t.val / 8 % 8
    ∧ win1_1.index t (0 : Fin 3) = t.val / 64 ∧ win1_1.index t (1 : Fin 3) = 0 ∧ win1_1.index t (2 : Fin 3) = t.val % 8
    ∧ win1_2.index t (0 : Fin 3) = t.val / 64 ∧ win1_2.index t (1 : Fin 3) = 0 ∧ win1_2.index t (2 : Fin 3) = 0 :=
  (by decide +kernel : ∀ t : Fin grid1.N, _)

theorem iblk0_col (c : Dev nD) (t : Fin cfg0.N) (k : Fin 64) (j : Fin 512) :
    colBlk0 V c t (ix3 0 k j) = img V c (ix3 ⟨t.val / 64, by have := t.isLt; have : cfg0.N = 256 := N_0; omega⟩ k ⟨512 * (t.val / 8 % 8) + j.val, by omega⟩) := by
  obtain ⟨e0, e1, e2, -, -, -⟩ := idx_facts0 t
  show V c main_v0 (((cfg0.win 0).blk t).view.emb (ix3 (0 : Fin 1) k j)) = V c main_v0 _
  refine congrArg (V c main_v0) (funext fun a => Fin.ext ?_)
  match a with
  | ⟨0, _⟩ => show win0_0.index t (0 : Fin 3) * 1 + 1 * (0 : Fin 1).val = t.val / 64; rw [e0]; simp
  | ⟨1, _⟩ => show win0_0.index t (1 : Fin 3) * 64 + 1 * k.val = k.val; omega
  | ⟨2, _⟩ => show win0_0.index t (2 : Fin 3) * 512 + 1 * j.val = 512 * (t.val / 8 % 8) + j.val; omega

theorem iblk0_row (c : Dev nD) (t : Fin cfg0.N) (k : Fin 64) (j : Fin 512) :
    rowBlk0 V c t (ix3 0 k j) = img V c (ix3 ⟨t.val / 64, by have := t.isLt; have : cfg0.N = 256 := N_0; omega⟩ k ⟨512 * (t.val % 8) + j.val, by omega⟩) := by
  obtain ⟨-, -, -, e0, e1, e2⟩ := idx_facts0 t
  show V c main_v0 (((cfg0.win 1).blk t).view.emb (ix3 (0 : Fin 1) k j)) = V c main_v0 _
  refine congrArg (V c main_v0) (funext fun a => Fin.ext ?_)
  match a with
  | ⟨0, _⟩ => show win0_1.index t (0 : Fin 3) * 1 + 1 * (0 : Fin 1).val = t.val / 64; rw [e0]; simp
  | ⟨1, _⟩ => show win0_1.index t (1 : Fin 3) * 64 + 1 * k.val = k.val; omega
  | ⟨2, _⟩ => show win0_1.index t (2 : Fin 3) * 512 + 1 * j.val = 512 * (t.val % 8) + j.val; omega

theorem iblk1_col (c : Dev nD) (t : Fin cfg1.N) (k : Fin 64) (j : Fin 512) :
    colBlk1 V c t (ix3 0 k j) = img V c (ix3 ⟨t.val / 64, by have := t.isLt; have : cfg1.N = 256 := N_1; omega⟩ k ⟨512 * (t.val / 8 % 8) + j.val, by omega⟩) := by
  obtain ⟨e0, e1, e2, -, -, -, -, -, -⟩ := idx_facts1 t
  show V c main_v0 (((cfg1.win 0).blk t).view.emb (ix3 (0 : Fin 1) k j)) = V c main_v0 _
  refine congrArg (V c main_v0) (funext fun a => Fin.ext ?_)
  match a with
  | ⟨0, _⟩ => show win1_0.index t (0 : Fin 3) * 1 + 1 * (0 : Fin 1).val = t.val / 64; rw [e0]; simp
  | ⟨1, _⟩ => show win1_0.index t (1 : Fin 3) * 64 + 1 * k.val = k.val; omega
  | ⟨2, _⟩ => show win1_0.index t (2 : Fin 3) * 512 + 1 * j.val = 512 * (t.val / 8 % 8) + j.val; omega

theorem iblk1_row (c : Dev nD) (t : Fin cfg1.N) (k : Fin 64) (j : Fin 512) :
    rowBlk1 V c t (ix3 0 k j) = img V c (ix3 ⟨t.val / 64, by have := t.isLt; have : cfg1.N = 256 := N_1; omega⟩ k ⟨512 * (t.val % 8) + j.val, by omega⟩) := by
  obtain ⟨-, -, -, e0, e1, e2, -, -, -⟩ := idx_facts1 t
  show V c main_v0 (((cfg1.win 1).blk t).view.emb (ix3 (0 : Fin 1) k j)) = V c main_v0 _
  refine congrArg (V c main_v0) (funext fun a => Fin.ext ?_)
  match a with
  | ⟨0, _⟩ => show win1_1.index t (0 : Fin 3) * 1 + 1 * (0 : Fin 1).val = t.val / 64; rw [e0]; simp
  | ⟨1, _⟩ => show win1_1.index t (1 : Fin 3) * 64 + 1 * k.val = k.val; omega
  | ⟨2, _⟩ => show win1_1.index t (2 : Fin 3) * 512 + 1 * j.val = 512 * (t.val % 8) + j.val; omega

theorem iblk1_tot (c : Dev nD) (t : Fin cfg1.N) :
    totBlk1 V c t (ix3 0 0 0) = V c main_v1 (ix3 ⟨t.val / 64, by have := t.isLt; have : cfg1.N = 256 := N_1; omega⟩ 0 0) := by
  obtain ⟨-, -, -, -, -, -, e0, e1, e2⟩ := idx_facts1 t
  show V c main_v1 (((cfg1.win 2).blk t).view.emb (ix3 (0 : Fin 1) (0 : Fin 1) (0 : Fin 1))) = V c main_v1 _
  refine congrArg (V c main_v1) (funext fun a => Fin.ext ?_)
  match a with
  | ⟨0, _⟩ => show win1_2.index t (0 : Fin 3) * 1 + 1 * (0 : Fin 1).val = t.val / 64; rw [e0]; simp
  | ⟨1, _⟩ => show win1_2.index t (1 : Fin 3) * 1 + 1 * (0 : Fin 1).val = (0 : Fin 1).val; rw [e1]; simp
  | ⟨2, _⟩ => show win1_2.index t (2 : Fin 3) * 1 + 1 * (0 : Fin 1).val = (0 : Fin 1).val; rw [e2]; simp

end Cert.KernelIdeal.Hand

end
-- ==== Proof.LibRunSums.lean ====
/-
  Two ways of regrouping a finite sum, in any commutative additive monoid (so on the extended reals, where addition is
  commutative and associative at the infinities too, neither needs a finiteness hypothesis).
    * A sum over n = B·C consecutive terms is the sum over its B runs of C terms: term x = b·C + c belongs to run b.
    * Runs added one after another starting from the first, ((g 0 + g 1) + g 2) + …, are the sum of the runs.
  The terms are indexed by natural numbers, so that no statement carries a bound inside an index.
-/
import Mathlib.Data.Fintype.BigOperators
import Mathlib.Logic.Equiv.Fin.Basic
import Mathlib.Algebra.BigOperators.Fin

namespace Cert.Lib

variable {β : Type} [AddCommMonoid β]

/-- A sum over n = B·C terms is the sum over the B runs of the sum of the C terms of each run. -/
theorem sum_eq_sum_runs (B C n : ℕ) (hn : n = B * C) (f : ℕ → β) :
    ∑ x : Fin n, f x.val = ∑ b : Fin B, ∑ c : Fin C, f (b.val * C + c.val) := by
  subst hn
  rw [← Fintype.sum_prod_type' (fun (b : Fin B) (c : Fin C) => f (b.val * C + c.val))]
  refine (Fintype.sum_equiv finProdFinEquiv (fun p : Fin B × Fin C => f (p.1.val * C + p.2.val)) (fun x => f x.val)
    fun p => ?_).symm
  show f (p.1.val * C + p.2.val) = f (p.2.val + C * p.1.val)
  rw [Nat.add_comm, Nat.mul_comm]

/-- The runs added one after another, from the first: g 0, then + g 1, then + g 2, … -/
def accRuns (g : ℕ → β) : ℕ → β
  | 0 => g 0
  | k + 1 => accRuns g k + g (k + 1)

theorem accRuns_zero (g : ℕ → β) : accRuns g 0 = g 0 := rfl

theorem accRuns_succ (g : ℕ → β) (k : ℕ) : accRuns g (k + 1) = accRuns g k + g (k + 1) := rfl

/-- After run k the accumulated value is the sum of runs 0 … k. -/
theorem accRuns_eq_sum_range (g : ℕ → β) : ∀ k : ℕ, accRuns g k = ∑ b ∈ Finset.range (k + 1), g b
  | 0 => by rw [accRuns_zero, Finset.sum_range_one]
  | k + 1 => by rw [accRuns_succ, accRuns_eq_sum_range g k, Finset.sum_range_succ g (k + 1)]

theorem accRuns_eq_sum_fin (g : ℕ → β) (k : ℕ) : accRuns g k = ∑ b : Fin (k + 1), g b.val := by
  rw [accRuns_eq_sum_range, Fin.sum_univ_eq_sum_range (fun i => g i)]

/-- A sum over n = (k+1)·C terms accumulated run by run: after the last run it is the whole sum. -/
theorem accRuns_runs_eq_sum (k C n : ℕ) (hn : n = (k + 1) * C) (f : ℕ → β) :
    accRuns (fun b => ∑ c : Fin C, f (b * C + c.val)) k = ∑ x : Fin n, f x.val := by
  rw [accRuns_eq_sum_fin, sum_eq_sum_runs (k + 1) C n hn f]

end Cert.Lib
-- ==== Proof.KI.Val0.lean ====
/-
  What region 0 leaves in its output array: entry b of the [4,1,1] array is the batch's total
  Σ_n Σ_m exp (Σ_k f[b,k,n] · f[b,k,m]), the 64 tiles' sums added one after another into the scratch cell from zero and
  the cell written back after the batch's last tile. Over the extended reals addition is commutative and associative
  without any finiteness, so the tiles' sums regroup into the whole double sum.
-/
import proofs.«157743_j13898514170484_1_alg».proof.Proof.KI.Pay
import proofs.«157743_j13898514170484_1_alg».proof.Proof.LibRunSums
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-! ## The batch's total as the sum of its 64 tiles' sums

Positions are natural numbers here, so that no sum carries a bound inside an index: position N = 512·ni + n lies in
block ni, and tile u = 8·mi + ni pairs the rows of block ni with the columns of block mi. -/

/-- The weight at two natural-number positions: the image's weight inside the 4096 positions, zero outside. -/
private def wtN (a : Cert.Spec.Flat.Idx → EReal) (b : Fin 4) (N M : ℕ) : EReal :=
  if h : N < 4096 ∧ M < 4096 then Cert.Spec.wt a b ⟨N, h.1⟩ ⟨M, h.2⟩ else 0

private theorem wtN_fin (a : Cert.Spec.Flat.Idx → EReal) (b : Fin 4) (N M : Fin 4096) :
    wtN a b N.val M.val = Cert.Spec.wt a b N M := by
  unfold wtN; rw [dif_pos ⟨N.isLt, M.isLt⟩]

/-- The sum of the weights over tile u = 8·mi + ni of batch b: rows 512·ni + n, columns 512·mi + m. -/
private def tileN (a : Cert.Spec.Flat.Idx → EReal) (b : Fin 4) (u : ℕ) : EReal :=
  ∑ n : Fin 512, ∑ m : Fin 512, wtN a b (u % 8 * 512 + n.val) (u / 8 * 512 + m.val)

/-- The batch's total is the sum of its 64 tiles' sums: each of the two sums over 4096 positions is cut into its
    8 blocks of 512, and the four sums are reordered (addition of extended reals is commutative and associative). -/
private theorem total_eq_tiles (a : Cert.Spec.Flat.Idx → EReal) (b : Fin 4) :
    Cert.Spec.total a b = ∑ u : Fin 64, tileN a b u.val := by
  have hcols : ∀ N : ℕ, (∑ M : Fin 4096, wtN a b N M.val)
      = ∑ mi : Fin 8, ∑ m : Fin 512, wtN a b N (mi.val * 512 + m.val) :=
    fun N => Cert.Lib.sum_eq_sum_runs 8 512 4096 rfl (fun M => wtN a b N M)
  have htile : ∀ (mi ni : Fin 8), tileN a b (mi.val * 8 + ni.val)
      = ∑ n : Fin 512, ∑ m : Fin 512, wtN a b (ni.val * 512 + n.val) (mi.val * 512 + m.val) := by
    intro mi ni
    have e1 : (mi.val * 8 + ni.val) % 8 = ni.val := by have := ni.isLt; omega
    have e2 : (mi.val * 8 + ni.val) / 8 = mi.val := by have := ni.isLt; omega
    unfold tileN; rw [e1, e2]
  calc Cert.Spec.total a b
      = ∑ N : Fin 4096, ∑ M : Fin 4096, wtN a b N.val M.val := by
        unfold Cert.Spec.total
        exact Finset.sum_congr rfl fun N _ => Finset.sum_congr rfl fun M _ => (wtN_fin a b N M).symm
    _ = ∑ N : Fin 4096, ∑ mi : Fin 8, ∑ m : Fin 512, wtN a b N.val (mi.val * 512 + m.val) :=
        Finset.sum_congr rfl fun N _ => hcols N.val
    _ = ∑ ni : Fin 8, ∑ n : Fin 512, ∑ mi : Fin 8, ∑ m : Fin 512,
          wtN a b (ni.val * 512 + n.val) (mi.val * 512 + m.val) :=
        Cert.Lib.sum_eq_sum_runs 8 512 4096 rfl
          (fun N => ∑ mi : Fin 8, ∑ m : Fin 512, wtN a b N (mi.val * 512 + m.val))
    _ = ∑ ni : Fin 8, ∑ mi : Fin 8, ∑ n : Fin 512, ∑ m : Fin 512,
          wtN a b (ni.val * 512 + n.val) (mi.val * 512 + m.val) :=
        Finset.sum_congr rfl fun ni _ => Finset.sum_comm
    _ = ∑ mi : Fin 8, ∑ ni : Fin 8, ∑ n : Fin 512, ∑ m : Fin 512,
          wtN a b (ni.val * 512 + n.val) (mi.val * 512 + m.val) := Finset.sum_comm
    _ = ∑ mi : Fin 8, ∑ ni : Fin 8, tileN a b (mi.val * 8 + ni.val) :=
        Finset.sum_congr rfl fun mi _ => Finset.sum_congr rfl fun ni _ => (htile mi ni).symm
    _ = ∑ u : Fin 64, tileN a b u.val := (Cert.Lib.sum_eq_sum_runs 8 8 64 rfl (tileN a b)).symm

variable (V : (c : Dev nD) → (b : Ref sig .tc) → Buf (Elt Ideal) ((c : Thread nD τ).loc b))

/-! ## The scratch cell after each point of a batch's run -/

/-- The weight of the tile at point t = 64·b + 8·mi + ni, at row n and column m, is the image's weight of batch b
    at positions 512·ni + n and 512·mi + m: the two blocks' entries are the image's, and the contraction over the
    64 channels is the Gram entry. -/
private theorem tileWt_eq (c : Dev nD) (t : Fin cfg0.N) (n m : Fin 512) :
    tileWt (colBlk0 V c t) (rowBlk0 V c t) n m
      = Cert.Spec.wt (img V c) ⟨t.val / 64, by have := t.isLt; have : cfg0.N = 256 := N_0; omega⟩
          ⟨512 * (t.val % 8) + n.val, by omega⟩ ⟨512 * (t.val / 8 % 8) + m.val, by omega⟩ := by
  unfold tileWt Cert.Spec.wt Cert.Spec.gram
  refine congrArg Ideal.exp (Finset.sum_congr rfl fun k _ => ?_)
  exact congrArg₂ (· * ·) (iblk0_row V c t k n) (iblk0_col V c t k m)

/-- The sum over the tile of point 64·b + j is the j-th tile sum of batch b. -/
private theorem tile_point (c : Dev nD) (b : Fin 4) (j : ℕ) (hj : j < 64) (ht : 64 * b.val + j < cfg0.N) :
    (∑ n : Fin 512, ∑ m : Fin 512,
        tileWt (colBlk0 V c ⟨64 * b.val + j, ht⟩) (rowBlk0 V c ⟨64 * b.val + j, ht⟩) n m)
      = tileN (img V c) b j := by
  unfold tileN
  refine Finset.sum_congr rfl fun n _ => Finset.sum_congr rfl fun m _ => ?_
  have hn := n.isLt
  have hm := m.isLt
  have hb := b.isLt
  rw [tileWt_eq, ← wtN_fin]
  show wtN (img V c) ⟨(64 * b.val + j) / 64, _⟩ (512 * ((64 * b.val + j) % 8) + n.val)
      (512 * ((64 * b.val + j) / 8 % 8) + m.val) = _
  have eb : (⟨(64 * b.val + j) / 64, by omega⟩ : Fin 4) = b := Fin.ext (by show (64 * b.val + j) / 64 = b.val; omega)
  have eN : 512 * ((64 * b.val + j) % 8) + n.val = j % 8 * 512 + n.val := by omega
  have eM : 512 * ((64 * b.val + j) / 8 % 8) + m.val = j / 8 * 512 + m.val := by omega
  rw [eb, eN, eM]

/-- The scratch cell does not depend on how its point's bound is proved, nor on how the point is written. -/
private theorem sc0_congr (c : Dev nD) {n n' : ℕ} (e : n = n') (h : n < cfg0.N) (h' : n' < cfg0.N) :
    sc0 V c n h = sc0 V c n' h' := by
  subst e; rfl

/-- After point 64·b + j the scratch cell holds the tile sums 0 … j of batch b added one after another from the
    first: the run starts from zero at j = 0 and every later point adds its tile's sum to what the point before left. -/
private theorem sc0_run (c : Dev nD) (b : Fin 4) : ∀ (j : ℕ) (hj : j < 64) (ht : 64 * b.val + j < cfg0.N)
    (y : S1x1x1.Idx), sc0 V c (64 * b.val + j) ht y = Cert.Lib.accRuns (tileN (img V c) b) j
  | 0, hj, ht, y => by
    have e := sc0_reset V c ⟨64 * b.val + 0, ht⟩ (by show (64 * b.val + 0) % 64 = 0; omega)
    rw [Cert.Lib.accRuns_zero, ← tile_point V c b 0 hj ht]
    refine (congrFun e y).trans ?_
    rw [pay0_acc, pay0_zero, zero_add]
  | j + 1, hj, ht, y => by
    have e := sc0_step V c ⟨64 * b.val + (j + 1), ht⟩ (by show ¬ (64 * b.val + (j + 1)) % 64 = 0; omega)
    have ih := sc0_run c b j (by omega) (by omega) y
    rw [Cert.Lib.accRuns_succ, ← tile_point V c b (j + 1) hj ht, ← ih]
    refine (congrFun e y).trans ?_
    rw [pay0_acc]
    exact congrArg (· + _) (congrFun (sc0_congr V c (by show 64 * b.val + (j + 1) - 1 = 64 * b.val + j; omega) _ _) y)

/-- After a batch's last point (t ≡ 63 mod 64) the scratch cell holds the batch's total. -/
private theorem sc0_last (c : Dev nD) (t : Fin cfg0.N) (h63 : t.val % 64 = 63) (y : S1x1x1.Idx) :
    sc0 V c t.val t.isLt y
      = Cert.Spec.total (img V c) ⟨t.val / 64, by have := t.isLt; have : cfg0.N = 256 := N_0; omega⟩ := by
  have hN : cfg0.N = 256 := N_0
  have ht := t.isLt
  have e : t.val = 64 * (⟨t.val / 64, by omega⟩ : Fin 4).val + 63 := by show t.val = 64 * (t.val / 64) + 63; omega
  rw [congrFun (sc0_congr V c e t.isLt (by omega)) y, sc0_run V c ⟨t.val / 64, by omega⟩ 63 (by omega) (by omega) y,
    Cert.Lib.accRuns_eq_sum_fin, total_eq_tiles]

/-! ## From the flushed blocks to the array -/

/-- The output's block at point t, decided over the grid: block t / 64 on the batch axis, block 0 on the two unit axes. -/
private theorem outIdx : ∀ t : Fin cfg0.N, win0_2.index t (0 : Fin 3) = t.val / 64
    ∧ win0_2.index t (1 : Fin 3) = 0 ∧ win0_2.index t (2 : Fin 3) = 0 :=
  (by decide +kernel : ∀ t : Fin grid0.N, _)

/-- What the array ends holding: the per-batch totals of the image. -/
private abbrev totals (c : Dev nD) : S4x1x1.Idx → EReal := fun i => Cert.Spec.total (img V c) (i 0)

/-- What a batch's last point writes back is the block of the totals at its batch: the scratch cell then holds the
    batch's total, and the block's one entry sits at position t / 64 of the array. -/
private theorem flushed_tot (c : Dev nD) (t : Fin cfg0.N) (hf : (cfg0.win 2).flush t = true) :
    (dat0 (F := Ideal) V c).flushed 2 t = ((cfg0.win 2).blk t).view.read (Elt Ideal) (totals V c) := by
  have hN : cfg0.N = 256 := N_0
  have ht := t.isLt
  have h63 : t.val % 64 = 63 := (flush0_2 t).mp hf
  obtain ⟨e0, e1, e2⟩ := outIdx t
  show (cfg0.win 2).cut (grid0.coords t) ((dat0 (F := Ideal) V c).after 2 t) = _
  rw [after0_2]
  funext y
  rw [View.read_apply]
  show sc0 V c t.val t.isLt ((cfg0.win 2).xinj (grid0.coords t) y)
      = Cert.Spec.total (img V c) ((((cfg0.win 2).blk t).view.emb y) 0)
  refine (sc0_last V c t h63 _).trans (congrArg (Cert.Spec.total (img V c)) (Fin.ext ?_))
  have hy : (y 0).val < 1 := (y 0).isLt
  show t.val / 64 = win0_2.index t (0 : Fin 3) * 1 + 1 * (y 0).val
  omega

/-- An index of the array is in point t's block iff each coordinate is in the block's range on its axis. -/
private theorem mem_outBlk (t : Fin cfg0.N) (i : S4x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v1).slice (win0_2.rect t)).set ↔ _
  rw [View.set_slice_whole, Rect.mem_set_unit]
  exact Iff.rfl

/-- Every entry of the array is written back: entry b by the last point 64·b + 63 of batch b. -/
private theorem covered (i : S4x1x1.Idx) :
    ∃ t : Fin cfg0.N, (cfg0.win 2).flush t = true ∧ i ∈ ((cfg0.win 2).blk t).view.set := by
  have hN : cfg0.N = 256 := N_0
  have h0 : (i 0).val < 4 := (i 0).isLt
  have h1 : (i 1).val < 1 := (i 1).isLt
  have h2 : (i 2).val < 1 := (i 2).isLt
  have hlt : 64 * (i 0).val + 63 < cfg0.N := by omega
  obtain ⟨e0, e1, e2⟩ := outIdx ⟨64 * (i 0).val + 63, hlt⟩
  have e0' : win0_2.index ⟨64 * (i 0).val + 63, hlt⟩ (0 : Fin 3) = (i 0).val := by
    rw [e0]; show (64 * (i 0).val + 63) / 64 = (i 0).val; omega
  refine ⟨⟨64 * (i 0).val + 63, hlt⟩, (flush0_2 _).mpr (by show (64 * (i 0).val + 63) % 64 = 63; omega), ?_⟩
  rw [mem_outBlk]
  intro a
  match a with
  | ⟨0, _⟩ =>
    show win0_2.index ⟨64 * (i 0).val + 63, hlt⟩ (0 : Fin 3) * 1 ≤ (i 0).val
      ∧ (i 0).val < win0_2.index ⟨64 * (i 0).val + 63, hlt⟩ (0 : Fin 3) * 1 + 1
    omega
  | ⟨1, _⟩ =>
    show win0_2.index ⟨64 * (i 0).val + 63, hlt⟩ (1 : Fin 3) * 1 ≤ (i 1).val
      ∧ (i 1).val < win0_2.index ⟨64 * (i 0).val + 63, hlt⟩ (1 : Fin 3) * 1 + 1
    omega
  | ⟨2, _⟩ =>
    show win0_2.index ⟨64 * (i 0).val + 63, hlt⟩ (2 : Fin 3) * 1 ≤ (i 2).val
      ∧ (i 2).val < win0_2.index ⟨64 * (i 0).val + 63, hlt⟩ (2 : Fin 3) * 1 + 1
    omega

/-- Region 0's output array after the run: the per-batch totals of the image the region found. -/
theorem total_arr (c : Dev nD) (i : S4x1x1.Idx) :
    (dat0 (F := Ideal) V c).arrAt 2 cfg0.N i = Cert.Spec.total (img V c) (i 0) :=
  congrFun ((dat0 (F := Ideal) V c).arrAt_eq_of_cover 2 (totals V c) (flushed_tot V c) covered) i

end Cert.KernelIdeal.Hand

end
-- ==== Proof.KI.Val1.lean ====
/-
  What region 1 leaves in its output array: entry (b, k, m) of the [4,64,4096] array is
  (Σ_n f[b,k,n] · exp (Σ_k' f[b,k',n] · f[b,k',m])) divided by what the region found in entry b of the totals' array —
  the eight row blocks' contributions added one after another into the scratch from zero, the quotient stored after
  the eighth. Addition over the extended reals regroups without any finiteness.
-/
import proofs.«157743_j13898514170484_1_alg».proof.Proof.KI.Pay
import proofs.«157743_j13898514170484_1_alg».proof.Proof.LibRunSums
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-! ## The numerator as eight runs of 512 terms -/

/-- Position N of the flattened axis, for a natural number (read modulo 4096, so that it is defined everywhere). -/
private def pos (N : ℕ) : Fin 4096 := ⟨N % 4096, Nat.mod_lt _ (by norm_num)⟩

private theorem pos_val (x : Fin 4096) : pos x.val = x := Fin.ext (Nat.mod_eq_of_lt x.isLt)

private theorem pos_of_lt (N : ℕ) (h : N < 4096) : pos N = ⟨N, h⟩ := Fin.ext (Nat.mod_eq_of_lt h)

/-- The numerator's term at position N: a[b,k,N] · wt b N M. -/
private def numTerm (a : Cert.Spec.Flat.Idx → EReal) (b : Fin 4) (k : Fin 64) (M : Fin 4096) (N : ℕ) : EReal :=
  a (ix3 b k (pos N)) * Cert.Spec.wt a b (pos N) M

/-- Run r of the numerator: its terms at positions 512·r … 512·r + 511. -/
private def numRun (a : Cert.Spec.Flat.Idx → EReal) (b : Fin 4) (k : Fin 64) (M : Fin 4096) (r : ℕ) : EReal :=
  ∑ n : Fin 512, numTerm a b k M (r * 512 + n.val)

/-- The numerator is its eight runs added one after another from the first. -/
private theorem numer_eq_accRuns (a : Cert.Spec.Flat.Idx → EReal) (b : Fin 4) (k : Fin 64) (M : Fin 4096) :
    Cert.Spec.numer a b k M = Cert.Lib.accRuns (numRun a b k M) 7 := by
  show _ = Cert.Lib.accRuns (fun r => ∑ n : Fin 512, numTerm a b k M (r * 512 + n.val)) 7
  rw [Cert.Lib.accRuns_runs_eq_sum 7 512 4096 (by norm_num) (numTerm a b k M)]
  unfold Cert.Spec.numer numTerm
  exact Finset.sum_congr rfl fun x _ => by rw [pos_val]

variable (V : (c : Dev nD) → (b : Ref sig .tc) → Buf (Elt Ideal) ((c : Thread nD τ).loc b))

/-! ## The blocks at a point of batch b: entries of the image -/

private theorem row_at (c : Dev nD) (t : Fin cfg1.N) (b : Fin 4) (k : Fin 64) (n : Fin 512) (N : Fin 4096)
    (hb : t.val / 64 = b.val) (hN : 512 * (t.val % 8) + n.val = N.val) :
    rowBlk1 V c t (ix3 0 k n) = img V c (ix3 b k N) := by
  rw [iblk1_row]
  exact congrArg₂ (fun x y => img V c (ix3 x k y)) (Fin.ext hb) (Fin.ext hN)

private theorem col_at (c : Dev nD) (t : Fin cfg1.N) (b : Fin 4) (k : Fin 64) (m : Fin 512) (M : Fin 4096)
    (hb : t.val / 64 = b.val) (hM : 512 * (t.val / 8 % 8) + m.val = M.val) :
    colBlk1 V c t (ix3 0 k m) = img V c (ix3 b k M) := by
  rw [iblk1_col]
  exact congrArg₂ (fun x y => img V c (ix3 x k y)) (Fin.ext hb) (Fin.ext hM)

private theorem tot_at (c : Dev nD) (t : Fin cfg1.N) (b : Fin 4) (hb : t.val / 64 = b.val) :
    totBlk1 V c t (ix3 0 0 0) = V c main_v1 (ix3 b 0 0) := by
  rw [iblk1_tot]
  exact congrArg (fun x => V c main_v1 (ix3 x 0 0)) (Fin.ext hb)

/-- The tile's weight at a point is the weight of the two positions its row and column stand for. -/
private theorem tile_at (c : Dev nD) (t : Fin cfg1.N) (b : Fin 4) (n m : Fin 512) (N M : Fin 4096)
    (hb : t.val / 64 = b.val) (hN : 512 * (t.val % 8) + n.val = N.val) (hM : 512 * (t.val / 8 % 8) + m.val = M.val) :
    tileWt (colBlk1 V c t) (rowBlk1 V c t) n m = Cert.Spec.wt (img V c) b N M := by
  unfold tileWt Cert.Spec.wt Cert.Spec.gram
  exact congrArg Ideal.exp (Finset.sum_congr rfl fun k _ => by
    rw [row_at V c t b k n N hb hN, col_at V c t b k m M hb hM])

/-- What point t = 64·b + 8·mi + j adds to scratch entry (k, m): run j of the numerator at (b, k, 512·mi + m). -/
private theorem contrib_eq (c : Dev nD) (t : Fin cfg1.N) (b : Fin 4) (mi : Fin 8) (j : ℕ) (k : Fin 64) (m : Fin 512)
    (M : Fin 4096) (hb : t.val / 64 = b.val) (hmi : t.val / 8 % 8 = mi.val) (hj : t.val % 8 = j)
    (hM : 512 * mi.val + m.val = M.val) :
    ∑ n : Fin 512, rowBlk1 V c t (ix3 0 k n) * tileWt (colBlk1 V c t) (rowBlk1 V c t) n m
      = numRun (img V c) b k M j := by
  unfold numRun numTerm
  refine Finset.sum_congr rfl fun n _ => ?_
  have hlt : j * 512 + n.val < 4096 := by have := n.isLt; omega
  rw [pos_of_lt _ hlt, row_at V c t b k n ⟨j * 512 + n.val, hlt⟩ hb (by show _ = j * 512 + n.val; omega),
    tile_at V c t b n m ⟨j * 512 + n.val, hlt⟩ M hb (by show _ = j * 512 + n.val; omega) (by rw [hmi]; exact hM)]

/-! ## The scratch within a run of eight points -/

private theorem sc1_succ (c : Dev nD) (n : ℕ) (hn : n + 1 < cfg1.N) (h : ¬ (n + 1) % 8 = 0) :
    sc1 V c (n + 1) hn = k1_pay2 (colBlk1 V c ⟨n + 1, hn⟩) (rowBlk1 V c ⟨n + 1, hn⟩) (sc1 V c n (Nat.lt_of_succ_lt hn)) :=
  sc1_step V c ⟨n + 1, hn⟩ h

/-- After point 64·b + 8·mi + j the scratch entry (k, m) holds runs 0 … j of the numerator at (b, k, 512·mi + m),
    added one after another. -/
private theorem sc1_run (c : Dev nD) (b : Fin 4) (mi : Fin 8) (k : Fin 64) (m : Fin 512) (M : Fin 4096)
    (hM : 512 * mi.val + m.val = M.val) :
    ∀ (j : ℕ) (hj : j < 8) (ht : 64 * b.val + 8 * mi.val + j < cfg1.N),
      sc1 V c (64 * b.val + 8 * mi.val + j) ht (ix2 k m) = Cert.Lib.accRuns (numRun (img V c) b k M) j
  | 0, hj, ht => by
    have e := sc1_reset V c ⟨64 * b.val + 8 * mi.val + 0, ht⟩ (by show (64 * b.val + 8 * mi.val + 0) % 8 = 0; omega)
    refine (congrFun e (ix2 k m)).trans ?_
    refine (pay1_acc (colBlk1 V c ⟨64 * b.val + 8 * mi.val + 0, ht⟩) (rowBlk1 V c ⟨64 * b.val + 8 * mi.val + 0, ht⟩) (k1_pay1 (F := Ideal)) k m).trans ?_
    rw [pay1_zero, zero_add, Cert.Lib.accRuns_zero]
    have hb := b.isLt; have hmi := mi.isLt
    exact contrib_eq V c ⟨64 * b.val + 8 * mi.val + 0, ht⟩ b mi 0 k m M (by show (64 * b.val + 8 * mi.val + 0) / 64 = _; omega)
      (by show (64 * b.val + 8 * mi.val + 0) / 8 % 8 = _; omega) (by show (64 * b.val + 8 * mi.val + 0) % 8 = _; omega) hM
  | j + 1, hj, ht => by
    have hb := b.isLt; have hmi := mi.isLt
    have e := sc1_succ V c (64 * b.val + 8 * mi.val + j) ht (by omega)
    refine (congrFun e (ix2 k m)).trans ?_
    refine (pay1_acc (colBlk1 V c ⟨64 * b.val + 8 * mi.val + j + 1, ht⟩) (rowBlk1 V c ⟨64 * b.val + 8 * mi.val + j + 1, ht⟩) _ k m).trans ?_
    rw [Cert.Lib.accRuns_succ, sc1_run c b mi k m M hM j (by omega) (Nat.lt_of_succ_lt ht)]
    exact congrArg _ (contrib_eq V c ⟨64 * b.val + 8 * mi.val + j + 1, ht⟩ b mi (j + 1) k m M
      (by show (64 * b.val + 8 * mi.val + j + 1) / 64 = _; omega)
      (by show (64 * b.val + 8 * mi.val + j + 1) / 8 % 8 = _; omega) (by show (64 * b.val + 8 * mi.val + j + 1) % 8 = _; omega) hM)

/-! ## From the stored blocks to the array -/

/-- What the region's output array ends holding. -/
private abbrev quotArr (c : Dev nD) : S4x64x4096.Idx → EReal :=
  Cert.Spec.quotOfSum (img V c) (fun b => V c main_v1 (ix3 b 0 0))

/-- The output window's block at point t: batch t / 64, all 64 rows, column block t / 8 % 8. -/
private theorem outIdx : ∀ t : Fin cfg1.N, win1_3.index t (0 : Fin 3) = t.val / 64 ∧ win1_3.index t (1 : Fin 3) = 0
    ∧ win1_3.index t (2 : Fin 3) = t.val / 8 % 8 :=
  (by decide +kernel : ∀ t : Fin grid1.N, win1_3.index t (0 : Fin 3) = t.val / 64 ∧ win1_3.index t (1 : Fin 3) = 0
    ∧ win1_3.index t (2 : Fin 3) = t.val / 8 % 8)

/-- What the last point of a run stores at (0, k, m): the numerator at (b, k, 512·mi + m) over the batch's total. -/
private theorem stored_at (c : Dev nD) (t : Fin cfg1.N) (b : Fin 4) (mi : Fin 8) (k : Fin 64) (m : Fin 512) (M : Fin 4096)
    (h7 : t.val % 8 = 7) (hb : t.val / 64 = b.val) (hmi : t.val / 8 % 8 = mi.val) (hM : 512 * mi.val + m.val = M.val) :
    k1_pay3 (totBlk1 V c t) (sc1 V c t.val t.isLt) (ix3 0 k m) = quotArr V c (ix3 b k M) := by
  rw [pay1_div, tot_at V c t b hb]
  show _ = Ideal.div (Cert.Spec.numer (img V c) b k M) (V c main_v1 (ix3 b 0 0))
  rw [numer_eq_accRuns]
  have key : ∀ (n : ℕ) (hn : n < cfg1.N), n = 64 * b.val + 8 * mi.val + 7 →
      sc1 V c n hn (ix2 k m) = Cert.Lib.accRuns (numRun (img V c) b k M) 7 := by
    intro n hn e; subst e; exact sc1_run V c b mi k m M hM 7 (by norm_num) hn
  rw [key t.val t.isLt (by omega)]

/-- What a point that writes back writes is its block of the quotient array. -/
private theorem stored_eq (c : Dev nD) (t : Fin cfg1.N) (hf : (cfg1.win 3).flush t = true) :
    (dat1 (F := Ideal) V c).flushed 3 t = ((cfg1.win 3).blk t).view.read (Elt Ideal) (quotArr V c) := by
  have h7 : t.val % 8 = 7 := (flush1_3 t).mp hf
  have hN : cfg1.N = 256 := N_1
  have hlt : t.val < cfg1.N := t.isLt
  obtain ⟨e0, e1, e2⟩ := outIdx t
  show (cfg1.win 3).cut (grid1.coords t) ((dat1 V c).after 3 t) = _
  rw [after1_3]
  refine funext fun (y : S1x64x512.Idx) => ?_
  have hy : y = ix3 0 (y 1) (y 2) := by
    funext a
    match a with
    | ⟨0, _⟩ => exact Fin.ext (by have : (y 0).val < 1 := (y 0).isLt; show (y 0).val = 0; omega)
    | ⟨1, _⟩ => rfl
    | ⟨2, _⟩ => rfl
  obtain ⟨k, m, rfl⟩ : ∃ (k : Fin 64) (m : Fin 512), y = ix3 0 k m := ⟨y 1, y 2, hy⟩
  have hm : m.val < 512 := m.isLt
  have hemb : ((cfg1.win 3).blk t).view.emb (ix3 0 k m)
      = ix3 (⟨t.val / 64, by omega⟩ : Fin 4) k (⟨512 * (t.val / 8 % 8) + m.val, by omega⟩ : Fin 4096) := by
    funext a; apply Fin.ext
    match a with
    | ⟨0, _⟩ => show win1_3.index t (0 : Fin 3) * 1 + 1 * (0 : Fin 1).val = t.val / 64; rw [e0]; simp
    | ⟨1, _⟩ => show win1_3.index t (1 : Fin 3) * 64 + 1 * k.val = k.val; rw [e1]; omega
    | ⟨2, _⟩ => show win1_3.index t (2 : Fin 3) * 512 + 1 * m.val = 512 * (t.val / 8 % 8) + m.val; rw [e2]; omega
  show k1_pay3 (totBlk1 V c t) (sc1 V c t.val t.isLt) (ix3 0 k m) = quotArr V c (((cfg1.win 3).blk t).view.emb (ix3 0 k m))
  rw [hemb]
  exact stored_at V c t ⟨t.val / 64, by omega⟩ ⟨t.val / 8 % 8, by omega⟩ k m ⟨512 * (t.val / 8 % 8) + m.val, by omega⟩ h7 rfl rfl rfl

/-- An index of the array is in point t's block iff each coordinate is in the block's range on its axis. -/
private theorem mem_outBlk (t : Fin cfg1.N) (i : S4x64x4096.Idx) :
    i ∈ ((cfg1.win 3).blk t).view.set ↔ ∀ a : Fin 3, win1_3.index t a * S1x64x512.size a ≤ (i a).val
      ∧ (i a).val < win1_3.index t a * S1x64x512.size a + S1x64x512.size a := by
  show i ∈ ((View.whole main_v2).slice (win1_3.rect t)).set ↔ _
  rw [View.set_slice_whole, Rect.mem_set_unit]
  exact Iff.rfl

/-- Entry (b, k, m) of the array is stored by the last point of the run of (b, m / 512). -/
private theorem covered (i : S4x64x4096.Idx) :
    ∃ t : Fin cfg1.N, (cfg1.win 3).flush t = true ∧ i ∈ ((cfg1.win 3).blk t).view.set := by
  have h0 : (i 0).val < 4 := (i 0).isLt
  have h1 : (i 1).val < 64 := (i 1).isLt
  have h2 : (i 2).val < 4096 := (i 2).isLt
  have hN : cfg1.N = 256 := N_1
  obtain ⟨t, ht⟩ : ∃ t : Fin cfg1.N, t.val = 64 * (i 0).val + 8 * ((i 2).val / 512) + 7 := ⟨⟨_, by omega⟩, rfl⟩
  obtain ⟨e0, e1, e2⟩ := outIdx t
  refine ⟨t, (flush1_3 t).mpr (by omega), ?_⟩
  rw [mem_outBlk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 64 ≤ (i 1).val ∧ (i 1).val < win1_3.index t (1 : Fin 3) * 64 + 64; omega
  | ⟨2, _⟩ => show win1_3.index t (2 : Fin 3) * 512 ≤ (i 2).val ∧ (i 2).val < win1_3.index t (2 : Fin 3) * 512 + 512; omega

/-- Region 1's output array after the run: the numerators over the totals the region found. -/
theorem quot_arr (c : Dev nD) (i : S4x64x4096.Idx) :
    (dat1 (F := Ideal) V c).arrAt 3 cfg1.N i
      = Cert.Spec.quotOfSum (img V c) (fun b => V c main_v1 (ix3 b 0 0)) i := by
  exact congrFun ((dat1 (F := Ideal) V c).arrAt_eq_of_cover 3 (quotArr V c) (fun t hf => stored_eq V c t hf) covered) i

end Cert.KernelIdeal.Hand

end
-- ==== Proof.KI.Bridge.lean ====
/-
  The kernel's result over the extended reals, as one function of the launch image: region 0 leaves the per-batch
  totals of the flattened image, region 1 leaves the numerators divided by those totals, and the last item reshapes.
-/
import proofs.«157743_j13898514170484_1_alg».proof.Proof.KI.Ends
import proofs.«157743_j13898514170484_1_alg».proof.Proof.KI.Val0
import proofs.«157743_j13898514170484_1_alg».proof.Proof.KI.Val1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The launch image flattened to [4, 64, 4096]. -/
abbrev flat (c : Dev nD) : Cert.Spec.Flat.Idx → EReal :=
  shapeCast S4x64x4096 (m ((c : Thread nD τ).loc main_arg0)) shapeCasts_S4x64x64x64_S4x64x4096

/-- Both regions find the flattened image in the image's flat buffer. -/
theorem img1 (c : Dev nD) : img (V1 m ρ) c = flat m c := W1_v0 m ρ c
theorem img2 (c : Dev nD) : img (V2 m ρ) c = flat m c := (W2_of_ne m ρ c main_v0 (by decide)).trans (W1_v0 m ρ c)

/-- Region 1 finds the totals of the flattened image in the totals' array. -/
theorem tot2 (c : Dev nD) (b : Fin 4) : V2 m ρ c main_v1 (ix3 b 0 0) = Cert.Spec.total (flat m c) b := by
  rw [show V2 m ρ c main_v1 = (dat0 (V1 m ρ) c).arrAt 2 cfg0.N from W2_v1 m ρ c, total_arr, img1]

/-- The kernel's result: the numerators over the totals, reshaped. -/
theorem kernel_result (c : Dev nD) :
    W4 m ρ c main_v3 = shapeCast S4x64x64x64 (Cert.Spec.quotOfSum (flat m c) (Cert.Spec.total (flat m c))) shapeCasts_S4x64x4096_S4x64x64x64 := by
  rw [W4_v3]
  congr 1
  rw [show W3 m ρ c main_v2 = (dat1 (V2 m ρ) c).arrAt 3 cfg1.N from W3_v2 m ρ c]
  funext i
  rw [quot_arr, img2]
  congr 1
  funext b
  exact tot2 m ρ c b

end Cert.KernelIdeal.Hand

end
-- ==== Proof.K.Data.lean ====
/-
  The proof data of the two kernel regions, at any float instance and at any contents `V` of the core's
  buffers when a region is entered.

  Both kernels tile the flattened spatial axis (4096 = 8 blocks of 512) and run over the grid (b, mi, ni),
  point t = 64·b + 8·mi + ni. Window 0 of each holds the block of columns mi of f[b] (64×512), window 1 the
  block of columns ni of f[b].

  Region 0 keeps one number in a scratch cell: it is set to zero where mi = ni = 0 (t ≡ 0 mod 64), every point
  adds to it the sum of exp over its 512×512 tile of f[b]ᵀf[b], and where mi = ni = 7 (t ≡ 63 mod 64) it is copied
  to the output block b. `sc0 n` is what the scratch holds after point n.

  Region 1 keeps a 64×512 scratch: it is set to zero where ni = 0 (t ≡ 0 mod 8), every point adds
  f[b][:, ni-block] · exp(tile), and where ni = 7 (t ≡ 7 mod 8) the scratch divided by the per-batch total (window 2)
  is stored into the output block (b, mi). `sc1 n` is what the scratch holds after point n.
-/
import proofs.«157743_j13898514170484_1_alg».proof.Proof.Gen.Kernel.Launch
import proofs.«157743_j13898514170484_1_alg».proof.Proof.Gen.Kernel.Skeleton
import proofs.«157743_j13898514170484_1_alg».proof.Proof.Gen.Kernel.Points
import Idealize.ShloMosaic.Lib.Pipeline.FrameBody
import Idealize.ShloMosaic.Lib.Pipeline.Frame
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the per-batch total -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of columns `mi` of `f[b]` at point `t` (window 0), and the block of columns `ni` (window 1). -/
abbrev colBlk0 (c : Dev nD) (t : Fin cfg0.N) : Vec F S1x64x512 .f32 := iblk0 V c 0 t
abbrev rowBlk0 (c : Dev nD) (t : Fin cfg0.N) : Vec F S1x64x512 .f32 := iblk0 V c 1 t

/-- The scratch cell after point `n`: the tile's sum added to zero where the batch's run starts, else to what the
    point before left. -/
def sc0 (c : Dev nD) : (n : ℕ) → n < cfg0.N → Vec F S1x1x1 .f32
  | 0, hn => k0_pay2 (colBlk0 V c ⟨0, hn⟩) (rowBlk0 V c ⟨0, hn⟩) k0_pay1
  | n + 1, hn => k0_pay2 (colBlk0 V c ⟨n + 1, hn⟩) (rowBlk0 V c ⟨n + 1, hn⟩)
      (if (n + 1) % 64 = 0 then k0_pay1 else sc0 c n (Nat.lt_of_succ_lt hn))

theorem sc0_reset (c : Dev nD) (t : Fin cfg0.N) (h : t.val % 64 = 0) :
    sc0 V c t.val t.isLt = k0_pay2 (colBlk0 V c t) (rowBlk0 V c t) k0_pay1 := by
  obtain ⟨n, hn⟩ := t
  cases n with
  | zero => rfl
  | succ n => exact congrArg (k0_pay2 (colBlk0 V c ⟨n + 1, hn⟩) (rowBlk0 V c ⟨n + 1, hn⟩)) (if_pos h)

theorem sc0_step (c : Dev nD) (t : Fin cfg0.N) (h : ¬ t.val % 64 = 0) :
    sc0 V c t.val t.isLt = k0_pay2 (colBlk0 V c t) (rowBlk0 V c t)
      (sc0 V c (t.val - 1) (Nat.lt_of_le_of_lt (Nat.sub_le _ _) t.isLt)) := by
  obtain ⟨n, hn⟩ := t
  cases n with
  | zero => exact absurd (Nat.zero_mod _) h
  | succ n => exact congrArg (k0_pay2 (colBlk0 V c ⟨n + 1, hn⟩) (rowBlk0 V c ⟨n + 1, hn⟩)) (if_neg h)

/-- The scratch cell of region 0, as a memref. -/
abbrev scM0 : Memref sig .tc .vmem S1x1x1 .f32 := Memref.whole cc0_scratch0

/-- The core's scoped buffers that region 0 does not stage: its scratch cell at `X`, the others at some contents. -/
def scoped0 (c : Dev nD) (X : sProp 𝕄) : sProp 𝕄 :=
  iprop(X ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The region's invariant before position `n`: at the start the scoped rest at anything; afterwards the scratch
    cell at what the point before left. The generator register rides along. -/
def PhiS0 (c : Dev nD) : (n : ℕ) → n ≤ cfg0.N → sProp 𝕄
  | 0, _ => Pipeline.ΦA spec0 c
  | n + 1, hn => iprop(scoped0 c (owns (c : Thread nD τ) scM0 fullShare (sc0 V c n hn)) ∗ (∃ r, prngReg c r))

theorem PhiA0_eq (c : Dev nD) :
    (Pipeline.ΦA spec0 c : sProp 𝕄) = iprop(scoped0 c iprop(∃ d, owns (c : Thread nD τ) scM0 fullShare d) ∗ (∃ r, prngReg c r)) := by
  unfold Pipeline.ΦA scoped0; rw [scopedRest0_eq]; simp only [scM0, owns_whole]; try rfl

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(scoped0 c (owns (c : Thread nD τ) scM0 fullShare (sc0 V c n hn)) ∗ (∃ r, prngReg c r)) := rfl
theorem PhiS0_pos (c : Dev nD) (n : ℕ) (h : n ≤ cfg0.N) (hz : n ≠ 0) :
    PhiS0 V c n h = iprop(scoped0 c (owns (c : Thread nD τ) scM0 fullShare (sc0 V c (n - 1) (by omega))) ∗ (∃ r, prngReg c r)) := by
  cases n with
  | zero => exact absurd rfl hz
  | succ n => rfl

/-- The proof data of region 0 on core `c`. The two input windows read one array, so each holds half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => sc0 V c t.val t.isLt
  Φ t := PhiS0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = sc0 V c t.val t.isLt := by dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! # Region 1: the numerator and the quotient -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Columns `mi` of `f[b]` (window 0), columns `ni` (window 1), the batch's total (window 2), at point `t`. -/
abbrev colBlk1 (c : Dev nD) (t : Fin cfg1.N) : Vec F S1x64x512 .f32 := iblk1 V c 0 t
abbrev rowBlk1 (c : Dev nD) (t : Fin cfg1.N) : Vec F S1x64x512 .f32 := iblk1 V c 1 t
abbrev totBlk1 (c : Dev nD) (t : Fin cfg1.N) : Vec F S1x1x1 .f32 := iblk1 V c 2 t

/-- The 64×512 scratch after point `n`. -/
def sc1 (c : Dev nD) : (n : ℕ) → n < cfg1.N → Vec F S64x512 .f32
  | 0, hn => k1_pay2 (colBlk1 V c ⟨0, hn⟩) (rowBlk1 V c ⟨0, hn⟩) k1_pay1
  | n + 1, hn => k1_pay2 (colBlk1 V c ⟨n + 1, hn⟩) (rowBlk1 V c ⟨n + 1, hn⟩)
      (if (n + 1) % 8 = 0 then k1_pay1 else sc1 c n (Nat.lt_of_succ_lt hn))

theorem sc1_reset (c : Dev nD) (t : Fin cfg1.N) (h : t.val % 8 = 0) :
    sc1 V c t.val t.isLt = k1_pay2 (colBlk1 V c t) (rowBlk1 V c t) k1_pay1 := by
  obtain ⟨n, hn⟩ := t
  cases n with
  | zero => rfl
  | succ n => exact congrArg (k1_pay2 (colBlk1 V c ⟨n + 1, hn⟩) (rowBlk1 V c ⟨n + 1, hn⟩)) (if_pos h)

theorem sc1_step (c : Dev nD) (t : Fin cfg1.N) (h : ¬ t.val % 8 = 0) :
    sc1 V c t.val t.isLt = k1_pay2 (colBlk1 V c t) (rowBlk1 V c t)
      (sc1 V c (t.val - 1) (Nat.lt_of_le_of_lt (Nat.sub_le _ _) t.isLt)) := by
  obtain ⟨n, hn⟩ := t
  cases n with
  | zero => exact absurd (Nat.zero_mod _) h
  | succ n => exact congrArg (k1_pay2 (colBlk1 V c ⟨n + 1, hn⟩) (rowBlk1 V c ⟨n + 1, hn⟩)) (if_neg h)

abbrev scM1 : Memref sig .tc .vmem S64x512 .f32 := Memref.whole cc1_scratch0

/-- The core's scoped buffers that region 1 does not stage: region 0's at some contents, its own scratch at `X`. -/
def scoped1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ X)

def PhiS1 (c : Dev nD) : (n : ℕ) → n ≤ cfg1.N → sProp 𝕄
  | 0, _ => Pipeline.ΦA spec1 c
  | n + 1, hn => iprop(scoped1 c (owns (c : Thread nD τ) scM1 fullShare (sc1 V c n hn)) ∗ (∃ r, prngReg c r))

theorem PhiA1_eq (c : Dev nD) :
    (Pipeline.ΦA spec1 c : sProp 𝕄) = iprop(scoped1 c iprop(∃ d, owns (c : Thread nD τ) scM1 fullShare d) ∗ (∃ r, prngReg c r)) := by
  unfold Pipeline.ΦA scoped1; rw [scopedRest1_eq]; simp only [scM1, owns_whole]; try rfl

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(scoped1 c (owns (c : Thread nD τ) scM1 fullShare (sc1 V c n hn)) ∗ (∃ r, prngReg c r)) := rfl
theorem PhiS1_pos (c : Dev nD) (n : ℕ) (h : n ≤ cfg1.N) (hz : n ≠ 0) :
    PhiS1 V c n h = iprop(scoped1 c (owns (c : Thread nD τ) scM1 fullShare (sc1 V c (n - 1) (by omega))) ∗ (∃ r, prngReg c r)) := by
  cases n with
  | zero => exact absurd rfl hz
  | succ n => rfl

/-- The proof data of region 1 on core `c`. Windows 0 and 1 read one array, half each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (totBlk1 V c t) (sc1 V c t.val t.isLt)
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (totBlk1 V c t) (sc1 V c t.val t.isLt) := by dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

end Cert.Kernel.Hand

end
-- ==== Proof.K.Body0.lean ====
/-
  The body of region 0 at a grid point. The body first clears the scratch cell where the batch's run starts
  (mi = ni = 0), then loads the two column blocks and the scratch cell, stores the cell plus the tile's sum back,
  and where the batch's run ends (mi = ni = 7) copies the cell into the output block. So after point t the scratch
  cell holds `sc0 t`, the input blocks are as found, and the output buffer holds the cell at the run's last
  point and is untouched elsewhere.
-/
import proofs.«157743_j13898514170484_1_alg».proof.Proof.K.Data
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three control cases

  On the grid (t = 64·b + 8·mi + ni) the first conditional is taken exactly where a batch's run starts (t ≡ 0 mod 64),
  the second exactly where it ends (t ≡ 63 mod 64), never both. Each case is first run on ANY whole memrefs at ANY
  contents; every load and store of the body goes through the whole-shape rectangle at zero offsets, so a buffer reads
  back as the payload of the last store into it. -/

/-- The first conditional's test (the run of a batch starts: mi = ni = 0), from the grid coordinates. -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds exactly at the points ≡ 0 (mod 64). -/
theorem hcond0_0 : ∀ t : Fin cfg0.N, cond0_0 (grid0.coords t) ↔ t.val % 64 = 0 :=
  (by decide +kernel : ∀ t : Fin grid0.N, cond0_0 (grid0.coords t) ↔ t.val % 64 = 0)

/-- The second conditional's test (the run of a batch ends: mi = ni = 7). -/
abbrev cond0_1 (i : grid0.Coords) : Prop := k0_cond2 i = 1#1
/-- It holds exactly at the points ≡ 63 (mod 64). -/
theorem hcond0_1 : ∀ t : Fin cfg0.N, cond0_1 (grid0.coords t) ↔ t.val % 64 = 63 :=
  (by decide +kernel : ∀ t : Fin grid0.N, cond0_1 (grid0.coords t) ↔ t.val % 64 = 63)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Off the last point of a batch's run the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last point of a batch's run the output window is live. -/
theorem liveAt0_2 : ∀ t : Fin cfg0.N, cond0_1 (grid0.coords t) → cfg0.idle 2 (grid0.coords t) = false := by decide +kernel

/-- The zero offsets, spelt as a vector literal. -/
theorem hz3 : (![0, 0, 0] : Fin 3 → ℕ) = fun _ => 0 := funext fun a => by fin_cases a <;> rfl

/-- A buffer whose LAST store went through the whole-shape rectangle at zero offsets reads back that store's payload,
    whatever it held and whatever was stored before. -/
theorem read_writes_last_whole {sg : RefSig} {κ : Kind} {sp : Space} {S : Shape} {e : EltTy}
    (v : View sg κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb w L]

set_option maxHeartbeats 1000000 in
/-- The body where a batch's run neither starts nor ends: the inputs' and the output's buffers come back as found, the
    scratch cell with the tile's sum added to what it held. -/
theorem run0_plain (c : Dev nD) (i : grid0.Coords)
    (arg3 : Memref sig .tc .vmem S1x64x512 .f32) (harg3 : arg3.IsWhole) (arg4 : Memref sig .tc .vmem S1x64x512 .f32) (harg4 : arg4.IsWhole)
    (arg5 : Memref sig .tc .vmem S1x1x1 .f32) (harg5 : arg5.IsWhole) (arg6 : Memref sig .tc .vmem S1x1x1 .f32) (harg6 : arg6.IsWhole)
    (hc0 : ¬cond0_0 i) (hc1 : ¬cond0_1 i)
    (x0 x1 : Vec F S1x64x512 .f32) (xi xs : Vec F S1x1x1 .f32) (E : Set ℕ) (K : PUnit → sProp 𝕄) :
    iprop(owns (c : Thread nD τ) arg3 fullShare x0 ∗ owns (c : Thread nD τ) arg4 fullShare x1 ∗ owns (c : Thread nD τ) arg5 fullShare xi
        ∗ owns (c : Thread nD τ) arg6 fullShare xs
        ∗ (iprop(owns (c : Thread nD τ) arg3 fullShare x0 ∗ owns (c : Thread nD τ) arg4 fullShare x1 ∗ owns (c : Thread nD τ) arg5 fullShare xi
            ∗ owns (c : Thread nD τ) arg6 fullShare (k0_pay2 x0 x1 xs)) -∗ K ⟨⟩))
      ⊢ wp frame (wpE (defs₀ (F := F)) Variants.none c none) E (cc0__sum_kernel i arg3 harg3 arg4 harg4 arg5 harg5 arg6 harg6) K := by
  simp only [cc0__sum_kernel_eq_skeleton]; unfold cc0__sum_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [read_writes_last_whole _ _ hz3]
  simp only [View.readAt_eq_ld, harg3.read_unread, harg4.read_unread, harg6.read_unread,
    View.ld_unit_zero (S := S1x64x512) hz3, View.ld_unit_zero (S := S1x1x1) hz3]

set_option maxHeartbeats 1000000 in
/-- The body where a batch's run starts: the scratch cell, whatever it held, ends with the tile's sum added to zero;
    the inputs' and the output's buffers come back as found. -/
theorem run0_reset (c : Dev nD) (i : grid0.Coords)
    (arg3 : Memref sig .tc .vmem S1x64x512 .f32) (harg3 : arg3.IsWhole) (arg4 : Memref sig .tc .vmem S1x64x512 .f32) (harg4 : arg4.IsWhole)
    (arg5 : Memref sig .tc .vmem S1x1x1 .f32) (harg5 : arg5.IsWhole) (arg6 : Memref sig .tc .vmem S1x1x1 .f32) (harg6 : arg6.IsWhole)
    (hc0 : cond0_0 i) (hc1 : ¬cond0_1 i)
    (x0 x1 : Vec F S1x64x512 .f32) (xi : Vec F S1x1x1 .f32) (E : Set ℕ) (K : PUnit → sProp 𝕄) :
    iprop(owns (c : Thread nD τ) arg3 fullShare x0 ∗ owns (c : Thread nD τ) arg4 fullShare x1 ∗ owns (c : Thread nD τ) arg5 fullShare xi
        ∗ (∃ d, owns (c : Thread nD τ) arg6 fullShare d)
        ∗ (iprop(owns (c : Thread nD τ) arg3 fullShare x0 ∗ owns (c : Thread nD τ) arg4 fullShare x1 ∗ owns (c : Thread nD τ) arg5 fullShare xi
            ∗ owns (c : Thread nD τ) arg6 fullShare (k0_pay2 x0 x1 k0_pay1)) -∗ K ⟨⟩))
      ⊢ wp frame (wpE (defs₀ (F := F)) Variants.none c none) E (cc0__sum_kernel i arg3 harg3 arg4 harg4 arg5 harg5 arg6 harg6) K := by
  simp only [cc0__sum_kernel_eq_skeleton]; unfold cc0__sum_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  -- the last store into the cell covers it; its payload read the cell back after the clearing store
  rw [read_writes_last_whole _ _ hz3]
  sl_unfold_words
  simp only [View.readAt_eq_ld, harg3.read_unread, harg4.read_unread,
    View.ld_unit_zero (S := S1x64x512) hz3, View.readCov_unit_zero (S := S1x1x1) _ hz3]

set_option maxHeartbeats 1000000 in
/-- The body where a batch's run ends: the scratch cell ends with the tile's sum added to what it held, and the
    output's buffer, whatever it held, ends with a copy of the cell. -/
theorem run0_store (c : Dev nD) (i : grid0.Coords)
    (arg3 : Memref sig .tc .vmem S1x64x512 .f32) (harg3 : arg3.IsWhole) (arg4 : Memref sig .tc .vmem S1x64x512 .f32) (harg4 : arg4.IsWhole)
    (arg5 : Memref sig .tc .vmem S1x1x1 .f32) (harg5 : arg5.IsWhole) (arg6 : Memref sig .tc .vmem S1x1x1 .f32) (harg6 : arg6.IsWhole)
    (hc0 : ¬cond0_0 i) (hc1 : cond0_1 i)
    (x0 x1 : Vec F S1x64x512 .f32) (xs : Vec F S1x1x1 .f32) (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1 ∗ owns (c : Thread nD τ) arg5 fullShare (k0_pay2 x0 x1 xs)
            ∗ owns (c : Thread nD τ) arg6 fullShare (k0_pay2 x0 x1 xs)) -∗ K ⟨⟩))
      ⊢ wp frame (wpE (defs₀ (F := F)) Variants.none c none) E (cc0__sum_kernel i arg3 harg3 arg4 harg4 arg5 harg5 arg6 harg6) K := by
  simp only [cc0__sum_kernel_eq_skeleton]; unfold cc0__sum_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    -- the one store into the output's buffer covers it; its payload is the cell read back after the cell's store
    rw [read_writes_last_whole _ _ hz3]
    sl_unfold_words
    simp only [View.readAt_eq_ld, harg3.read_unread, harg4.read_unread, harg6.read_unread,
      View.ld_unit_zero (S := S1x64x512) hz3, View.ld_unit_zero (S := S1x1x1) hz3, View.readCov_unit_zero (S := S1x1x1) _ hz3]
  iexists _; isplitr
  swap; · iexact HS
  ipureintro
  sl_unfold_words
  rw [read_writes_last_whole _ _ hz3]
  simp only [View.readAt_eq_ld, harg3.read_unread, harg4.read_unread, harg6.read_unread,
    View.ld_unit_zero (S := S1x64x512) hz3, View.ld_unit_zero (S := S1x1x1) hz3]

/-! ## The body obligation, at a generic point -/

/-- Each window's current staging memref at point `t`, spelt as the pipeline passes it to the body, and its wholeness. -/
abbrev ms0_0 (t : Fin cfg0.N) : Memref sig .tc .vmem S1x64x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1 .f32 := win0_2.stage (cfg0.slots t 2)
abbrev hs0_2 (t : Fin cfg0.N) : (ms0_2 t).IsWhole := hstage0_2 ((cfg0.slots t 2).cast nbuf0_2)

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the closed forms say which case the point is in;
    the invariant hands the body the scratch cell at what the point before left (at anything before the first point,
    and a point where a run starts overwrites it anyway) and takes it back at `sc0 t`; off a run's last point the
    output's buffer goes back as it came, and at a run's last point it is left at `sc0 t`. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 256 := lt_of_lt_of_eq t.isLt (show cfg0.N = 256 from N_0)
  by_cases h0 : t.val % 64 = 0
  · -- a run starts here
    have h1 : ¬t.val % 64 = 63 := by omega
    rw [Dat.leavesExact_idle (dat0 V c) 2 t (idleAt0_2 t (fun h => h1 ((hcond0_1 t).mp h))) (noFlush0_2 t (fun h => h1 ((hcond0_1 t).mp h)))]
    rw [sc0_reset V c t h0]
    by_cases hz : t.val = 0
    · rw [PhiS0_castSucc V c t, PhiS0_zero V c _ _ hz, PhiA0_eq]
      unfold scoped0
      iintro ⟨⟨⟨HS, Hrest⟩, Hg⟩, Ho, ⟨%d0, H0⟩, ⟨%d1, H1⟩, ⟨%d2, H2⟩⟩
      iapply (run0_reset c (grid0.coords t) _ (hs0_0 t) _ (hs0_1 t) _ (hs0_2 t) _ (Memref.isWhole_whole _) ((hcond0_0 t).mpr h0) (fun h => h1 ((hcond0_1 t).mp h)) (colBlk0 V c t) (rowBlk0 V c t) _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiS0_castSucc V c t, PhiS0_pos V c _ _ hz]
      unfold scoped0
      iintro ⟨⟨⟨HS, Hrest⟩, Hg⟩, Ho, ⟨%d0, H0⟩, ⟨%d1, H1⟩, ⟨%d2, H2⟩⟩
      iapply (run0_reset c (grid0.coords t) _ (hs0_0 t) _ (hs0_1 t) _ (hs0_2 t) _ (Memref.isWhole_whole _) ((hcond0_0 t).mpr h0) (fun h => h1 ((hcond0_1 t).mp h)) (colBlk0 V c t) (rowBlk0 V c t) _ Set.univ _)
      isplitl [H0]; · iexact H0
      isplitl [H1]; · iexact H1
      isplitl [H2]; · iexact H2
      isplitl [HS]; · iexists _; iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun hz => h0 (by rw [hz])
    rw [sc0_step V c t h0]
    rw [PhiS0_castSucc V c t, PhiS0_pos V c _ _ hz]
    unfold scoped0
    by_cases h1 : t.val % 64 = 63
    · -- a run ends here
      rw [show (dat0 V c).leavesExact 2 t = owns (c : Thread nD τ) (ms0_2 t) fullShare ((dat0 V c).after 2 t) from by
        unfold Dat.leavesExact; rw [liveAt0_2 t ((hcond0_1 t).mpr h1)], after0_2]
      rw [sc0_step V c t h0]
      iintro ⟨⟨⟨HS, Hrest⟩, Hg⟩, Ho, ⟨%d0, H0⟩, ⟨%d1, H1⟩, ⟨%d2, H2⟩⟩
      iapply (run0_store c (grid0.coords t) _ (hs0_0 t) _ (hs0_1 t) _ (hs0_2 t) _ (Memref.isWhole_whole _) (fun h => h0 ((hcond0_0 t).mp h)) ((hcond0_1 t).mpr h1) (colBlk0 V c t) (rowBlk0 V c t) _ Set.univ _)
      isplitl [H0]; · iexact H0
      isplitl [H1]; · iexact H1
      isplitl [H2]; · iexists _; iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · -- inside a run
      rw [Dat.leavesExact_idle (dat0 V c) 2 t (idleAt0_2 t (fun h => h1 ((hcond0_1 t).mp h))) (noFlush0_2 t (fun h => h1 ((hcond0_1 t).mp h)))]
      iintro ⟨⟨⟨HS, Hrest⟩, Hg⟩, Ho, ⟨%d0, H0⟩, ⟨%d1, H1⟩, ⟨%d2, H2⟩⟩
      iapply (run0_plain c (grid0.coords t) _ (hs0_0 t) _ (hs0_1 t) _ (hs0_2 t) _ (Memref.isWhole_whole _) (fun h => h0 ((hcond0_0 t).mp h)) (fun h => h1 ((hcond0_1 t).mp h)) (colBlk0 V c t) (rowBlk0 V c t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation for region 0, at every grid point. -/
theorem body_obligation0 (c : Dev nD) : BodyObligation (dat0 (F := F) V c) (defs₀ (F := F)) Variants.none () Set.univ := by
  intro t
  rw [bigSep_W0, bigSep_W0]
  exact sound_body0 V c t

end Cert.Kernel.Hand

end
-- ==== Proof.K.Body1.lean ====
/-
  The body of region 1 at a grid point. The body first clears the 64×512 scratch where ni = 0, then loads the two
  column blocks and the scratch, stores the scratch plus f[:, ni-block] · exp(tile) back, and where ni = 7 divides the
  scratch by the batch's total (window 2) and stores the quotient into the output block. So after point t the scratch
  holds `sc1 t`, the input blocks are as found, and the output buffer holds the quotient at ni = 7 and is untouched
  elsewhere.

  Three cases occur on the grid (t = 64·b + 8·mi + ni): the scratch is cleared first (ni = 0), neither conditional
  is taken (0 < ni < 7), the quotient is stored last (ni = 7). Each case's run of the whole body is stated with the
  contents every buffer ends with; the obligation then chooses the case from the point's residue mod 8.
-/
import proofs.«157743_j13898514170484_1_alg».proof.Proof.K.Data
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions of the body, in closed form over the grid -/

/-- The first conditional (the scratch is cleared): the coordinate ni is 0. -/
abbrev cond1_0 (i : grid1.Coords) : Prop :=
  (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional (the quotient is stored): the coordinate ni is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output is idle exactly off the points where the quotient is stored, -/
theorem idleAt1_3 : ∀ t : Fin cfg1.N, ¬ t.val % 8 = 7 → cfg1.idle 3 (grid1.coords t) = true := by decide +kernel
theorem liveAt1_3 : ∀ t : Fin cfg1.N, t.val % 8 = 7 → cfg1.idle 3 (grid1.coords t) = false := by decide +kernel
/-- and is not written back there. -/
theorem noFlush1_3 (t : Fin cfg1.N) (h : ¬ t.val % 8 = 7) : (cfg1.win 3).flush t = false := by
  cases hf : (cfg1.win 3).flush t with
  | false => rfl
  | true => exact absurd ((flush1_3 t).mp hf) h

/-! ## Whole-buffer loads and stores: the zero offsets, and the one-piece cover -/

private theorem hz2 : (![0, 0] : Fin S64x512.rank → Nat) = fun _ => 0 := funext fun a => by fin_cases a <;> rfl
private theorem hz3 : (![0, 0, 0] : Fin S1x64x512.rank → Nat) = fun _ => 0 := funext fun a => by fin_cases a <;> rfl
private theorem hz1 : (![0, 0, 0] : Fin S1x1x1.rank → Nat) = fun _ => 0 := funext fun a => by fin_cases a <;> rfl

/-- A list of stores whose last (head) store is of the whole buffer covers it. -/
private theorem cover_head {S : Shape} {e : EltTy} {off : Fin S.rank → Nat} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons.mpr (Or.inl rfl), View.mem_set_unit_zero h inb y⟩

/-! ## The body's run, case by case -/

set_option maxHeartbeats 1000000 in
/-- THE SCRATCH CLEARED FIRST. With the scratch at any contents `xs`, the body runs to the continuation holding the
    inputs and the output as they were and the scratch at the update of the cleared scratch by the two blocks. -/
theorem kernelRun1_A (c : Dev nD) (i : grid1.Coords)
    (arg3 : Memref sig .tc .vmem S1x64x512 .f32) (harg3 : arg3.IsWhole)
    (arg4 : Memref sig .tc .vmem S1x64x512 .f32) (harg4 : arg4.IsWhole)
    (arg5 : Memref sig .tc .vmem S1x1x1 .f32) (harg5 : arg5.IsWhole)
    (arg6 : Memref sig .tc .vmem S1x64x512 .f32) (harg6 : arg6.IsWhole)
    (arg7 : Memref sig .tc .vmem S64x512 .f32) (harg7 : arg7.IsWhole)
    (hc0 : cond1_0 i) (hc1 : ¬cond1_1 i)
    (x0 x1 : Vec F S1x64x512 .f32) (x2 : Vec F S1x1x1 .f32) (xs : Vec F S64x512 .f32)
    (xi3 : Vec F S1x64x512 .f32) (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare xi3
        ∗ owns (c : Thread nD τ) arg7 fullShare xs
        ∗ (iprop(owns (c : Thread nD τ) arg3 fullShare x0 ∗ owns (c : Thread nD τ) arg4 fullShare x1
            ∗ owns (c : Thread nD τ) arg5 fullShare x2 ∗ owns (c : Thread nD τ) arg6 fullShare xi3
            ∗ owns (c : Thread nD τ) arg7 fullShare (k1_pay2 x0 x1 k1_pay1)) -∗ K ⟨⟩))
      ⊢ wp frame (wpE (defs₀ (F := F)) Variants.none c none) E
          (cc1__num_kernel i arg3 harg3 arg4 harg4 arg5 harg5 arg6 harg6 arg7 harg7) K := by
  simp only [cc1__num_kernel_eq_skeleton]; unfold cc1__num_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1
  obtain rfl := harg5.eq_unread hf2; obtain rfl := harg6.eq_unread hf3
  obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  sl_unfold_words
  rw [View.read_writes_eq_canon _ _ _ (cover_head hz2 _ _ _), View.canon_cons_unit_zero hz2]
  simp only [View.readAt_eq_ld, harg3.read_unread, harg4.read_unread,
    View.ld_unit_zero (S := S1x64x512) hz3, View.readCov_unit_zero (S := S64x512) _ hz2]

set_option maxHeartbeats 1000000 in
/-- NEITHER CONDITIONAL TAKEN. With the three inputs' buffers at `x0`, `x1`, `x2`, the output's at `xi3` and the scratch
    at `xs`, the body runs to the continuation holding the inputs and the output as they were and the scratch at the
    update of `xs` by the two blocks. -/
theorem kernelRun1_B (c : Dev nD) (i : grid1.Coords)
    (arg3 : Memref sig .tc .vmem S1x64x512 .f32) (harg3 : arg3.IsWhole)
    (arg4 : Memref sig .tc .vmem S1x64x512 .f32) (harg4 : arg4.IsWhole)
    (arg5 : Memref sig .tc .vmem S1x1x1 .f32) (harg5 : arg5.IsWhole)
    (arg6 : Memref sig .tc .vmem S1x64x512 .f32) (harg6 : arg6.IsWhole)
    (arg7 : Memref sig .tc .vmem S64x512 .f32) (harg7 : arg7.IsWhole)
    (hc0 : ¬cond1_0 i) (hc1 : ¬cond1_1 i)
    (x0 x1 : Vec F S1x64x512 .f32) (x2 : Vec F S1x1x1 .f32) (xs : Vec F S64x512 .f32)
    (xi3 : Vec F S1x64x512 .f32) (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare xi3
        ∗ owns (c : Thread nD τ) arg7 fullShare xs
        ∗ (iprop(owns (c : Thread nD τ) arg3 fullShare x0 ∗ owns (c : Thread nD τ) arg4 fullShare x1
            ∗ owns (c : Thread nD τ) arg5 fullShare x2 ∗ owns (c : Thread nD τ) arg6 fullShare xi3
            ∗ owns (c : Thread nD τ) arg7 fullShare (k1_pay2 x0 x1 xs)) -∗ K ⟨⟩))
      ⊢ wp frame (wpE (defs₀ (F := F)) Variants.none c none) E
          (cc1__num_kernel i arg3 harg3 arg4 harg4 arg5 harg5 arg6 harg6 arg7 harg7) K := by
  simp only [cc1__num_kernel_eq_skeleton]; unfold cc1__num_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1
  obtain rfl := harg5.eq_unread hf2; obtain rfl := harg6.eq_unread hf3
  obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (cover_head hz2 _ _ _), View.canon_unit_zero hz2]
  simp only [View.readAt_eq_ld, harg3.read_unread, harg4.read_unread, harg7.read_unread,
    View.ld_unit_zero (S := S1x64x512) hz3, View.ld_unit_zero (S := S64x512) hz2]

set_option maxHeartbeats 1000000 in
/-- THE QUOTIENT STORED LAST. With the output's buffer at any contents `xo`, the body runs to the continuation
    holding the inputs as they were, the scratch at the update of `xs` by the two blocks, and the output at that
    divided by the total. -/
theorem kernelRun1_C (c : Dev nD) (i : grid1.Coords)
    (arg3 : Memref sig .tc .vmem S1x64x512 .f32) (harg3 : arg3.IsWhole)
    (arg4 : Memref sig .tc .vmem S1x64x512 .f32) (harg4 : arg4.IsWhole)
    (arg5 : Memref sig .tc .vmem S1x1x1 .f32) (harg5 : arg5.IsWhole)
    (arg6 : Memref sig .tc .vmem S1x64x512 .f32) (harg6 : arg6.IsWhole)
    (arg7 : Memref sig .tc .vmem S64x512 .f32) (harg7 : arg7.IsWhole)
    (hc0 : ¬cond1_0 i) (hc1 : cond1_1 i)
    (x0 x1 : Vec F S1x64x512 .f32) (x2 : Vec F S1x1x1 .f32) (xs : Vec F S64x512 .f32)
    (xo : Vec F S1x64x512 .f32) (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare xo
        ∗ owns (c : Thread nD τ) arg7 fullShare xs
        ∗ (iprop(owns (c : Thread nD τ) arg3 fullShare x0 ∗ owns (c : Thread nD τ) arg4 fullShare x1
            ∗ owns (c : Thread nD τ) arg5 fullShare x2
            ∗ owns (c : Thread nD τ) arg6 fullShare (k1_pay3 x2 (k1_pay2 x0 x1 xs))
            ∗ owns (c : Thread nD τ) arg7 fullShare (k1_pay2 x0 x1 xs)) -∗ K ⟨⟩))
      ⊢ wp frame (wpE (defs₀ (F := F)) Variants.none c none) E
          (cc1__num_kernel i arg3 harg3 arg4 harg4 arg5 harg5 arg6 harg6 arg7 harg7) K := by
  simp only [cc1__num_kernel_eq_skeleton]; unfold cc1__num_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1
  obtain rfl := harg5.eq_unread hf2; obtain rfl := harg6.eq_unread hf3
  obtain rfl := harg7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_words
    rw [View.read_writes_eq_canon _ _ _ (cover_head hz3 _ _ _), View.canon_unit_zero hz3]
    simp only [View.readAt_eq_ld, harg3.read_unread, harg4.read_unread, harg5.read_unread, harg7.read_unread,
      View.ld_unit_zero (S := S1x64x512) hz3, View.ld_unit_zero (S := S64x512) hz2,
      View.ld_unit_zero (S := S1x1x1) hz1, View.readCov_unit_zero (S := S64x512) _ hz2]
  iexists _; isplitr
  swap; · iexact HS
  ipureintro
  sl_unfold_words
  rw [View.read_writes_eq_canon _ _ _ (cover_head hz2 _ _ _), View.canon_unit_zero hz2]
  simp only [View.readAt_eq_ld, harg3.read_unread, harg4.read_unread, harg7.read_unread,
    View.ld_unit_zero (S := S1x64x512) hz3, View.ld_unit_zero (S := S64x512) hz2]

/-! ## The body obligation at a point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point's residue mod 8 says which case it is
    in. Where the scratch is cleared first it is handed over at whatever it holds (anything at the first point, what
    the point before left later); elsewhere at what the point before left. It comes back at this point's contents;
    the other scoped buffers and the generator register ride along untouched. The output's buffer is handed back as
    found off the storing points, and at the quotient on them. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val % 8 = 0
  · -- the scratch is cleared first
    have h1 : ¬ t.val % 8 = 7 := by omega
    rw [Dat.leavesExact_idle (dat1 V c) 3 t (idleAt1_3 t h1) (noFlush1_3 t h1)]
    rw [sc1_reset V c t h0]
    by_cases hz : t.val = 0
    · rw [PhiS1_castSucc V c t, PhiS1_zero V c _ _ hz, PhiA1_eq]
      unfold scoped1
      iintro ⟨⟨⟨G0, G1, G2, G3, G4, G5, G6, ⟨%ds, HS⟩⟩, Hg⟩, Ho, ⟨%d0, H0⟩, ⟨%d1, H1⟩, ⟨%d2, H2⟩, ⟨%d3, H3⟩⟩
      iapply (kernelRun1_A c (grid1.coords t) _ _ _ _ _ _ _ _ _ _ ((hcond1_0 t).mpr h0) (fun h => h1 ((hcond1_1 t).mp h))
        (colBlk1 V c t) (rowBlk1 V c t) (totBlk1 V c t) ds ((dat1 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [G0 G1 G2 G3 G4 G5 G6 HS Hg]
      · isplitl [G0 G1 G2 G3 G4 G5 G6 HS]
        · isplitl [G0]; · iexact G0
          isplitl [G1]; · iexact G1
          isplitl [G2]; · iexact G2
          isplitl [G3]; · iexact G3
          isplitl [G4]; · iexact G4
          isplitl [G5]; · iexact G5
          isplitl [G6]; · iexact G6
          iexact HS
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      unfold scoped1
      iintro ⟨⟨⟨G0, G1, G2, G3, G4, G5, G6, HS⟩, Hg⟩, Ho, ⟨%d0, H0⟩, ⟨%d1, H1⟩, ⟨%d2, H2⟩, ⟨%d3, H3⟩⟩
      iapply (kernelRun1_A c (grid1.coords t) _ _ _ _ _ _ _ _ _ _ ((hcond1_0 t).mpr h0) (fun h => h1 ((hcond1_1 t).mp h))
        (colBlk1 V c t) (rowBlk1 V c t) (totBlk1 V c t) _ ((dat1 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [G0 G1 G2 G3 G4 G5 G6 HS Hg]
      · isplitl [G0 G1 G2 G3 G4 G5 G6 HS]
        · isplitl [G0]; · iexact G0
          isplitl [G1]; · iexact G1
          isplitl [G2]; · iexact G2
          isplitl [G3]; · iexact G3
          isplitl [G4]; · iexact G4
          isplitl [G5]; · iexact G5
          isplitl [G6]; · iexact G6
          iexact HS
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [PhiS1_castSucc V c t, PhiS1_pos V c _ _ hz]
    rw [sc1_step V c t h0]
    unfold scoped1
    by_cases h1 : t.val % 8 = 7
    · -- the quotient is stored last
      rw [show (dat1 V c).leavesExact 3 t = owns (c : Thread nD τ) (st1_3 t) fullShare ((dat1 V c).after 3 t) from by
        unfold Dat.leavesExact; rw [liveAt1_3 t h1], after1_3, sc1_step V c t h0]
      iintro ⟨⟨⟨G0, G1, G2, G3, G4, G5, G6, HS⟩, Hg⟩, Ho, ⟨%d0, H0⟩, ⟨%d1, H1⟩, ⟨%d2, H2⟩, ⟨%d3, H3⟩⟩
      iapply (kernelRun1_C c (grid1.coords t) _ _ _ _ _ _ _ _ _ _ (fun h => h0 ((hcond1_0 t).mp h)) ((hcond1_1 t).mpr h1)
        (colBlk1 V c t) (rowBlk1 V c t) (totBlk1 V c t) _ ((dat1 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [G0 G1 G2 G3 G4 G5 G6 HS Hg]
      · isplitl [G0 G1 G2 G3 G4 G5 G6 HS]
        · isplitl [G0]; · iexact G0
          isplitl [G1]; · iexact G1
          isplitl [G2]; · iexact G2
          isplitl [G3]; · iexact G3
          isplitl [G4]; · iexact G4
          isplitl [G5]; · iexact G5
          isplitl [G6]; · iexact G6
          iexact HS
        iexact Hg
      isplitl [Ho]; · iexact Ho
      isplitl [H0]; · iexact H0
      isplitl [H1]; · iexact H1
      isplitl [H2]; · iexact H2
      iexact H3
    · -- neither conditional is taken
      rw [Dat.leavesExact_idle (dat1 V c) 3 t (idleAt1_3 t h1) (noFlush1_3 t h1)]
      iintro ⟨⟨⟨G0, G1, G2, G3, G4, G5, G6, HS⟩, Hg⟩, Ho, ⟨%d0, H0⟩, ⟨%d1, H1⟩, ⟨%d2, H2⟩, ⟨%d3, H3⟩⟩
      iapply (kernelRun1_B c (grid1.coords t) _ _ _ _ _ _ _ _ _ _ (fun h => h0 ((hcond1_0 t).mp h)) (fun h => h1 ((hcond1_1 t).mp h))
        (colBlk1 V c t) (rowBlk1 V c t) (totBlk1 V c t) _ ((dat1 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [G0 G1 G2 G3 G4 G5 G6 HS Hg]
      · isplitl [G0 G1 G2 G3 G4 G5 G6 HS]
        · isplitl [G0]; · iexact G0
          isplitl [G1]; · iexact G1
          isplitl [G2]; · iexact G2
          isplitl [G3]; · iexact G3
          isplitl [G4]; · iexact G4
          isplitl [G5]; · iexact G5
          isplitl [G6]; · iexact G6
          iexact HS
        iexact Hg
      isplitl [Ho]; · iexact Ho
      isplitl [H0]; · iexact H0
      isplitl [H1]; · iexact H1
      isplitl [H2]; · iexact H2
      iexists _; iexact H3

/-- The library's body obligation for region 1, at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole run of @main: the reshape of the image, the two kernel regions, the reshape of the result.

  Between two items core c holds every unscoped buffer at a known valuation: the launch memory, then the image
  flattened, then the totals' array at what region 0 leaves in it, then the quotients' array at what region 1 leaves
  in it, then the result reshaped. Both regions read the flattened image through two windows, so at a region's entry
  the image's buffer is split in two halves, one per window, and at its exit the halves are joined again; an input
  array is never written, so both halves come back at the contents they went in with.
-/
import proofs.«157743_j13898514170484_1_alg».proof.Proof.K.Body0
import proofs.«157743_j13898514170484_1_alg».proof.Proof.K.Body1
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the image is flattened (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: the totals' array at what its write-backs leave (region 1's entry). -/
def W2 (c : Dev nD) : Valuation τ sig (Elt F) :=
  Function.update (W1 m ρ c) main_v1 (show Buf (Elt F) ((c : Thread nD τ).loc main_v1) from (dat0 (V1 m ρ) c).arrAt 2 cfg0.N)
abbrev V2 : (c : Dev nD) → (b : Ref sig .tc) → Buf (Elt F) ((c : Thread nD τ).loc b) := fun c b => W2 m ρ c b
/-- After region 1: the quotients' array at what its write-backs leave. -/
def W3 (c : Dev nD) : Valuation τ sig (Elt F) :=
  Function.update (W2 m ρ c) main_v2 (show Buf (Elt F) ((c : Thread nD τ).loc main_v2) from (dat1 (V2 m ρ) c).arrAt 3 cfg1.N)
abbrev V3 : (c : Dev nD) → (b : Ref sig .tc) → Buf (Elt F) ((c : Thread nD τ).loc b) := fun c b => W3 m ρ c b
/-- After the result is reshaped. -/
abbrev W4 : Dev nD → Valuation τ sig (Elt F) := fun c => StableHlo.after hostOps2 (W3 m ρ c)

theorem W2_v1 (c : Dev nD) : W2 m ρ c main_v1 = (dat0 (V1 m ρ) c).arrAt 2 cfg0.N := by
  unfold W2; exact Function.update_self ..
theorem W2_of_ne (c : Dev nD) (b : Ref sig .tc) (h : b ≠ main_v1) : W2 m ρ c b = W1 m ρ c b := by
  unfold W2; exact Function.update_of_ne (StableHlo.devRef_ne_of_ne h) ..
theorem W3_v2 (c : Dev nD) : W3 m ρ c main_v2 = (dat1 (V2 m ρ) c).arrAt 3 cfg1.N := by
  unfold W3; exact Function.update_self ..
theorem W3_of_ne (c : Dev nD) (b : Ref sig .tc) (h : b ≠ main_v2) : W3 m ρ c b = W2 m ρ c b := by
  unfold W3; exact Function.update_of_ne (StableHlo.devRef_ne_of_ne h) ..

/-! ## The unscoped buffers and a region's arrays, one by one -/

/-- The core's five unscoped buffers at contents `V`. -/
theorem ub_eq (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_v0) ↦{fullShare} V main_v0)
          ∗ (((c : Thread nD τ).loc main_v1) ↦{fullShare} V main_v1) ∗ (((c : Thread nD τ).loc main_v2) ↦{fullShare} V main_v2)
          ∗ (((c : Thread nD τ).loc main_v3) ↦{fullShare} V main_v3)) := by
  unfold unscopedBufs
  exact bigSep_eq_bigSepL_of_eq [main_arg0, main_v0, main_v1, main_v2, main_v3] (by decide) (by decide) _

variable (V : (c : Dev nD) → (b : Ref sig .tc) → Buf (Elt F) ((c : Thread nD τ).loc b))

/-- Region 0's arrays: the flattened image in two halves, the totals' array whole. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Dat.arrays
  rw [bigSep_W0, (arr_whole0 0).set_eq_univ, (arr_whole0 2).set_eq_univ]
  rfl

/-- Region 1's arrays: the flattened image in two halves, the totals' and the quotients' arrays whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2) ∗ (((c : Thread nD τ).loc main_v2) ↦{fullShare} G 3)) := by
  unfold Dat.arrays
  rw [bigSep_W1, (arr_whole1 0).set_eq_univ, (arr_whole1 2).set_eq_univ, (arr_whole1 3).set_eq_univ]
  rfl

/-! ## The proof data family and the thread state -/

/-- No pallas_call has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-- After any point but the first, a region's invariant gives the scoped rest back at some contents. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  unfold scoped0
  iintro ⟨⟨HS, Hrest⟩, Hg⟩
  isplitl [HS Hrest]
  · isplitl [HS]; · iexists _; iexact HS
    iexact Hrest
  iexact Hg
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scoped1
  iintro ⟨⟨H0, H1, H2, H3, H4, H5, H6, HS⟩, Hg⟩
  isplitl [H0 H1 H2 H3 H4 H5 H6 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact HS
  iexact Hg

/-! ## A region's arrays out of the unscoped buffers, and back -/

/-- The unscoped buffers region 0 does not window. -/
def rest0 (c : Dev nD) : sProp 𝕄 :=
  iprop((((c : Thread nD τ).loc main_arg0) ↦{fullShare} V c main_arg0) ∗ (((c : Thread nD τ).loc main_v2) ↦{fullShare} V c main_v2)
    ∗ (((c : Thread nD τ).loc main_v3) ↦{fullShare} V c main_v3))
/-- The unscoped buffers region 1 does not window. -/
def rest1 (c : Dev nD) : sProp 𝕄 :=
  iprop((((c : Thread nD τ).loc main_arg0) ↦{fullShare} V c main_arg0) ∗ (((c : Thread nD τ).loc main_v3) ↦{fullShare} V c main_v3))

/-- Entry of region 0: the image's buffer is dealt in two halves to the two windows that read it. -/
theorem entry_arrays0 (c : Dev nD) :
    (unscopedBufs (Ix := Unit) (Name := ℕ) (U := UR sig nD τ) (Lvl := ℕ) c (V c) : sProp 𝕄)
      ⊢ iprop((dat0 V c).arrays (fun w => (dat0 V c).arrAt w 0) ∗ rest0 V c) := by
  rw [ub_eq, arrays0_eq]; unfold rest0
  iintro ⟨Ha, Hv0, Hv1, Hv2, Hv3⟩
  ihave Hs := (pointsTo_share (PosShare.mem_left_op_right fullShare)).1 $$ Hv0
  icases Hs with ⟨HL, HR⟩
  isplitl [HL HR Hv1]
  · isplitl [HL]; · iexact HL
    isplitl [HR]; · iexact HR
    iexact Hv1
  isplitl [Ha]; · iexact Ha
  isplitl [Hv2]; · iexact Hv2
  iexact Hv3

/-- Exit of region 0: the two halves of the image's buffer, unchanged, are joined; the totals' array holds what
    the region's write-backs leave. -/
theorem exit_arrays0 (c : Dev nD) (V' : (b : Ref sig .tc) → Buf (Elt F) ((c : Thread nD τ).loc b))
    (h1 : V' main_v1 = (dat0 V c).arrAt 2 cfg0.N) (hne : ∀ b, b ≠ main_v1 → V' b = V c b) :
    iprop((dat0 V c).arrays (fun w => (dat0 V c).arrAt w cfg0.N) ∗ rest0 V c)
      ⊢ (unscopedBufs (Ix := Unit) (Name := ℕ) (U := UR sig nD τ) (Lvl := ℕ) c V' : sProp 𝕄) := by
  have e0 : (dat0 V c).arrAt 0 cfg0.N = V c main_v0 := ((dat0 V c).arrAt_in 0 rfl _).trans (A_eq0 V c 0)
  have e1 : (dat0 V c).arrAt 1 cfg0.N = V c main_v0 := ((dat0 V c).arrAt_in 1 rfl _).trans (A_eq0 V c 1)
  rw [ub_eq, arrays0_eq, h1, hne main_arg0 (by decide), hne main_v0 (by decide), hne main_v2 (by decide), hne main_v3 (by decide)]
  unfold rest0
  iintro ⟨⟨HL, HR, Hv1⟩, Ha, Hv2, Hv3⟩
  rw [e0, e1]
  ihave Hv0 := (pointsTo_share (PosShare.mem_left_op_right fullShare)).2 $$ [HL HR]
  · isplitl [HL]; · iexact HL
    iexact HR
  isplitl [Ha]; · iexact Ha
  isplitl [Hv0]; · iexact Hv0
  isplitl [Hv1]; · iexact Hv1
  isplitl [Hv2]; · iexact Hv2
  iexact Hv3

/-- Entry of region 1. -/
theorem entry_arrays1 (c : Dev nD) :
    (unscopedBufs (Ix := Unit) (Name := ℕ) (U := UR sig nD τ) (Lvl := ℕ) c (V c) : sProp 𝕄)
      ⊢ iprop((dat1 V c).arrays (fun w => (dat1 V c).arrAt w 0) ∗ rest1 V c) := by
  rw [ub_eq, arrays1_eq]; unfold rest1
  iintro ⟨Ha, Hv0, Hv1, Hv2, Hv3⟩
  ihave Hs := (pointsTo_share (PosShare.mem_left_op_right fullShare)).1 $$ Hv0
  icases Hs with ⟨HL, HR⟩
  isplitl [HL HR Hv1 Hv2]
  · isplitl [HL]; · iexact HL
    isplitl [HR]; · iexact HR
    isplitl [Hv1]; · iexact Hv1
    iexact Hv2
  isplitl [Ha]; · iexact Ha
  iexact Hv3

/-- Exit of region 1. -/
theorem exit_arrays1 (c : Dev nD) (V' : (b : Ref sig .tc) → Buf (Elt F) ((c : Thread nD τ).loc b))
    (h2 : V' main_v2 = (dat1 V c).arrAt 3 cfg1.N) (hne : ∀ b, b ≠ main_v2 → V' b = V c b) :
    iprop((dat1 V c).arrays (fun w => (dat1 V c).arrAt w cfg1.N) ∗ rest1 V c)
      ⊢ (unscopedBufs (Ix := Unit) (Name := ℕ) (U := UR sig nD τ) (Lvl := ℕ) c V' : sProp 𝕄) := by
  have e0 : (dat1 V c).arrAt 0 cfg1.N = V c main_v0 := ((dat1 V c).arrAt_in 0 rfl _).trans (A_eq1 V c 0)
  have e1 : (dat1 V c).arrAt 1 cfg1.N = V c main_v0 := ((dat1 V c).arrAt_in 1 rfl _).trans (A_eq1 V c 1)
  have e2 : (dat1 V c).arrAt 2 cfg1.N = V c main_v1 := ((dat1 V c).arrAt_in 2 rfl _).trans (A_eq1 V c 2)
  rw [ub_eq, arrays1_eq, h2, hne main_arg0 (by decide), hne main_v0 (by decide), hne main_v1 (by decide), hne main_v3 (by decide)]
  unfold rest1
  iintro ⟨⟨HL, HR, Hv1, Hv2⟩, Ha, Hv3⟩
  rw [e0, e1, e2]
  ihave Hv0 := (pointsTo_share (PosShare.mem_left_op_right fullShare)).2 $$ [HL HR]
  · isplitl [HL]; · iexact HL
    iexact HR
  isplitl [Ha]; · iexact Ha
  isplitl [Hv0]; · iexact Hv0
  isplitl [Hv1]; · iexact Hv1
  isplitl [Hv2]; · iexact Hv2
  iexact Hv3

/-! ## The regions as items -/

set_option backward.isDefEq.respectTransparency.types false in
/-- Region 0 (the totals): entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := rest0 (V1 m ρ) c
  hentry c := by
    rw [Pipeline.ownSems0_none]
    have hsplit := entry_arrays0 (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi0_out (V1 m ρ) c (Fin.last _) (by rw [Fin.val_last]; have : cfg0.N = 256 := N_0; omega)).trans ?_
    unfold Pipeline.ΦA
    iintro ⟨Hr, Hp⟩
    isplitl [Hp]; · iexact Hp
    isplitr; · iempintro
    iexact Hr
  hexit c := by
    have hjoin := exit_arrays0 (V1 m ρ) c (V2 m ρ c) (W2_v1 m ρ c) (fun b h => W2_of_ne m ρ c b h)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1 (the quotients): entered from every unscoped buffer at `W2`, left at `W3`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := rest1 (V2 m ρ) c
  hentry c := by
    rw [Pipeline.ownSems0_none]
    have hsplit := entry_arrays1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi1_out (V2 m ρ) c (Fin.last _) (by rw [Fin.val_last]; have : cfg1.N = 256 := N_1; omega)).trans ?_
    unfold Pipeline.ΦA
    iintro ⟨Hr, Hp⟩
    isplitl [Hp]; · iexact Hp
    isplitr; · iempintro
    iexact Hr
  hexit c := by
    have hjoin := exit_arrays1 (V2 m ρ) c (V3 m ρ c) (W3_v2 m ρ c) (fun b h => W3_of_ne m ρ c b h)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    final state has each unscoped buffer at the last valuation `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl,
      fun c => show iprop(StableHlo.held (c : Thread nD τ) (Pipeline.ucRefs τ sig) (W4 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.K.Ends.lean ====
/-
  The two ends of the run read back: the image's buffer is never written, so it ends as launched; the flattened image
  is the reshape of the launch image; the result is the reshape of what region 1 leaves in the quotients' array.
-/
import proofs.«157743_j13898514170484_1_alg».proof.Proof.K.Run
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The flattened image is the reshape of the launch image. -/
theorem W1_v0 (c : Dev nD) :
    W1 m ρ c main_v0 = shapeCast S4x64x4096 (m ((c : Thread nD τ).loc main_arg0)) shapeCasts_S4x64x64x64_S4x64x4096 := by
  show StableHlo.after hostOps0 (W0 m ρ c) (Proc.devRef .tc main_v0) = _
  after_results; rfl

/-- The result is the reshape of the quotients' array. -/
theorem W4_v3 (c : Dev nD) :
    W4 m ρ c main_v3 = shapeCast S4x64x64x64 (W3 m ρ c main_v2) shapeCasts_S4x64x4096_S4x64x64x64 := by
  show StableHlo.after hostOps2 (W3 m ρ c) (Proc.devRef .tc main_v3) = _
  after_results; rfl

/-- No item writes the image's buffer. -/
theorem W4_arg0 (c : Dev nD) : W4 m ρ c main_arg0 = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.Forall, StableHlo.reshape_writes, Finset.mem_singleton]
          exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          exact StableHlo.devRef_ne_of_ne (by decide)))
    _ = m ((c : Thread nD τ).loc main_arg0) := rfl

/-- The run, read at the two buffers the claims speak of: the result at the last valuation, the image as launched. -/
theorem run_ends : θ_run defs (onTc (τ := τ) (main (F := F))) ⟨m, fun _ => 0, ρ⟩ (fun r => ∀ c : Dev nD,
      r.2.mem ((c.tc : Thread nD τ).loc main_v3) = W4 m ρ c main_v3
      ∧ r.2.mem ((c.tc : Thread nD τ).loc main_arg0) = m ((c.tc : Thread nD τ).loc main_arg0)) :=
  (θ_run defs _ _).mono (fun r h c => ⟨h c _ (mem_uc main_v3 (by decide)),
    (h c _ (mem_uc main_arg0 (by decide))).trans (W4_arg0 m ρ c)⟩) (run_all m ρ)

end Cert.Kernel.Hand

end
-- ==== Proof.RefVal.lean ====
/-
  The reference, read entry by entry over the extended reals: its result before the final reshape is, at (b, k, m),
  Σ_n f[b,k,n] · (exp (Σ_k' f[b,k',n] · f[b,k',m]) / total b), with total b the sum of all 4096·4096 weights of batch b.
-/
import proofs.«157743_j13898514170484_1_alg».proof.Proof.Gen.ReferenceIdeal.Read
import proofs.«157743_j13898514170484_1_alg».proof.Proof.Spec
import Idealize.ShloMosaic.Lib.ValueIdx
import Idealize.ShloMosaic.PureOps.Ideal.Laws

noncomputable section

namespace Cert.RefVal

open Cert.ReferenceIdeal Cert.ReferenceIdeal.Gen Cert.ReferenceIdeal.Read
open Idealize.ShloMosaic Idealize.ShloMosaic.ValueIdx
open scoped BigOperators

/-- An index of the [4, 4096, 4096] block is its three coordinates … -/
private def idxEquiv3 : S4x4096x4096.Idx ≃ Fin 4 × Fin 4096 × Fin 4096 where
  toFun i := (i 0, i 1, i 2)
  invFun p := ix3 p.1 p.2.1 p.2.2
  left_inv i := (eq_ix3 i).symm
  right_inv _ := rfl

/-- … so a sum over the block is the triple sum over the coordinates. -/
private theorem sum_idx3 (f : S4x4096x4096.Idx → EReal) :
    ∑ i, f i = ∑ b : Fin 4, ∑ n : Fin 4096, ∑ m : Fin 4096, f (ix3 b n m) := by
  rw [← Equiv.sum_comp idxEquiv3.symm f, Fintype.sum_prod_type]
  refine Finset.sum_congr rfl fun b _ => ?_
  rw [Fintype.sum_prod_type]
  rfl

/-- Dropping the two spatial coordinates of (b, n, m) leaves the batch b. -/
private theorem drop_ix3 (b : Fin 4) (n m : Fin 4096) :
    reducesTo_S4x4096x4096_S4_d1_2.drop (ix3 b n m) = ix1 b := by
  funext a
  match a with
  | ⟨0, _⟩ => rfl

/-- The sum over the two spatial axes, read at batch b: the initial value plus the double sum over (n, m).
    The entries that drop to b are exactly those whose first coordinate is b; of the triple sum over all
    coordinates only the b-th outer term survives. -/
private theorem reduce_read (x : S4x4096x4096.Idx → EReal) (init : EReal) (b : Fin 4) :
    Ideal.hostReduceAdd reducesTo_S4x4096x4096_S4_d1_2 x init (ix1 b)
      = init + ∑ n : Fin 4096, ∑ m : Fin 4096, x (ix3 b n m) := by
  unfold Ideal.hostReduceAdd
  congr 1
  rw [Finset.sum_filter, sum_idx3]
  simp only [drop_ix3]
  rw [Finset.sum_eq_single b]
  · refine Finset.sum_congr rfl fun n _ => Finset.sum_congr rfl fun m _ => ?_
    rw [if_pos rfl]
  · intro c _ hc
    refine Finset.sum_eq_zero fun n _ => Finset.sum_eq_zero fun m _ => ?_
    rw [if_neg]
    intro h
    exact hc (congrFun h 0)
  · intro h
    exact absurd (Finset.mem_univ _) h

/-- The exponentiated Gram entry at (b, n, m) is the weight of the flattened image. -/
private theorem wt_read (x0 : (⟨S4x64x64x64, .f32⟩ : BufTy).Contents (Elt Ideal)) (b : Fin 4) (n m : Fin 4096) :
    val_main_v2 (F := Ideal) x0 (ix3 b n m) = Cert.Spec.wt (val_main_v0 (F := Ideal) x0) b n m := by
  have hl : ∀ k : Fin 64, lidx_main_v1 (ix3 b n m) k = ix3 b k n := fun k =>
    funext fun a => Fin.ext (by match a with | ⟨0, _⟩ => rfl | ⟨1, _⟩ => rfl | ⟨2, _⟩ => rfl)
  have hr : ∀ k : Fin 64, ridx_main_v1 (ix3 b n m) k = ix3 b k m := fun k =>
    funext fun a => Fin.ext (by match a with | ⟨0, _⟩ => rfl | ⟨1, _⟩ => rfl | ⟨2, _⟩ => rfl)
  rw [val_main_v2_apply, val_main_v1_apply, Ideal.hostUnary_exp_def]
  unfold Cert.Spec.wt Cert.Spec.gram
  simp only [hl, hr]

/-- The reduced value at batch b is the batch's total weight: the initial value is the word of zero. -/
private theorem total_read (x0 : (⟨S4x64x64x64, .f32⟩ : BufTy).Contents (Elt Ideal)) (b : Fin 4) :
    val_main_v3 (F := Ideal) x0 (ix1 b) = Cert.Spec.total (val_main_v0 (F := Ideal) x0) b := by
  show Ideal.hostReduceAdd reducesTo_S4x4096x4096_S4_d1_2 (val_main_v2 (F := Ideal) x0)
      (val_main_cst (F := Ideal) (Shape.Idx.first h_S_)) (ix1 b) = _
  rw [reduce_read, val_main_cst_apply, Ideal.ofBits_def, Ideal.ofBits_zero_f32, zero_add]
  unfold Cert.Spec.total
  simp only [wt_read]

/-- The reference's value before its last reshape is the sum of quotients of the flattened image. -/
theorem ref_val (x0 : (⟨S4x64x64x64, .f32⟩ : BufTy).Contents (Elt Ideal)) :
    val_main_v7 (F := Ideal) x0 = Cert.Spec.sumOfQuot (val_main_v0 (F := Ideal) x0) := by
  funext i
  obtain ⟨b, c, m, rfl⟩ : ∃ (b : Fin 4) (c : Fin 64) (m : Fin 4096), i = ix3 b c m := ⟨i 0, i 1, i 2, eq_ix3 i⟩
  have hl : ∀ n : Fin 4096, lidx_main_v7 (ix3 b c m) n = ix3 b c n := fun n =>
    funext fun a => Fin.ext (by match a with | ⟨0, _⟩ => rfl | ⟨1, _⟩ => rfl | ⟨2, _⟩ => rfl)
  have hr : ∀ n : Fin 4096, ridx_main_v7 (ix3 b c m) n = ix3 b n m := fun n =>
    funext fun a => Fin.ext (by match a with | ⟨0, _⟩ => rfl | ⟨1, _⟩ => rfl | ⟨2, _⟩ => rfl)
  have hb : ∀ n : Fin 4096, idx_main_v4 (idx_main_v5 (ix3 b n m)) = ix1 b := fun n =>
    funext fun a => Fin.ext (by match a with | ⟨0, _⟩ => rfl)
  show val_main_v7 (F := Ideal) x0 (ix3 b c m)
    = ∑ n : Fin 4096, val_main_v0 (F := Ideal) x0 (ix3 b c n)
        * Ideal.div (Cert.Spec.wt (val_main_v0 (F := Ideal) x0) b n m) (Cert.Spec.total (val_main_v0 (F := Ideal) x0) b)
  rw [val_main_v7_apply]
  refine Finset.sum_congr rfl fun n _ => ?_
  rw [hl n, hr n, val_main_v6_apply, val_main_v5_apply, val_main_v4_apply, hb n, wt_read, total_read,
    Ideal.hostDivf_def]

end Cert.RefVal

end
-- ==== Proof.Finite.lean ====
/-
  The precondition says every entry of the image is finite: |x| < +∞ at every index, so each entry is a real number;
  a reshape only re-indexes the entries, so the flattened image is finite too.
-/
import proofs.«157743_j13898514170484_1_alg».proof.Pre_finite_inputs
import proofs.«157743_j13898514170484_1_alg».proof.Proof.LibFinite
import Idealize.ShloMosaic.Lib.ReduceAll
import Idealize.ShloMosaic.Lib.ValueIdx
import Idealize.ShloMosaic.Lib.Pipeline.Value

noncomputable section

namespace Cert.FiniteIn

open Idealize.ShloMosaic Cert.LibFinite

/-- The shape of a scalar has exactly one index. -/
private instance subsingleton_scalar_idx : Subsingleton Cert.Pre_finite_inputs.S_.Idx :=
  ⟨fun a b => funext fun d => d.elim0⟩

/-- A one-bit word made from a Boolean is 1 only when the Boolean is true. -/
private theorem ofBool_eq_one {b : Bool} (h : BitVec.ofBool b = 1#1) : b = true := by
  revert h; cases b <;> decide

/-- An extended real whose absolute value max a (-a) lies below `⊤` is finite. -/
private theorem isFin_of_abs_lt_top (a : EReal) (h : max a (-a) < ⊤) : IsFin a := by
  induction a using EReal.rec with
  | bot => simp at h
  | coe r => exact isFin_coe r
  | top => simp at h

/-- The precondition, all ones, makes every entry of the image finite. -/
theorem fin_of_pre [Cert.Pre_finite_inputs.Facts] (x : FVec Ideal Cert.Pre_finite_inputs.S4x64x64x64 .f32)
    (h : Cert.Pre_finite_inputs.fn (F := Ideal) x = fun _ => 1#1) : ∀ i, IsFin (x i) := by
  intro i
  -- the conjunction over all entries is 1, so the comparison |x i| < +∞ holds at every entry
  have h0 := congrFun h ValueIdx.ix0
  dsimp only [Cert.Pre_finite_inputs.fn] at h0
  have hi : BitVec.ofBool (decide (max (x i) (-(x i)) < Ideal.ofBits .f32 0x7F800000#32)) = 1#1 :=
    Host.reduce_andi_all _ _ _ _ _ h0 i
  have hlt := of_decide_eq_true (ofBool_eq_one hi)
  -- the word 0x7F800000 denotes +∞
  have htop : Ideal.ofBits .f32 0x7F800000#32 = ⊤ := by simp [Ideal.ofBits, Ideal.ieee]
  rw [htop] at hlt
  exact isFin_of_abs_lt_top (x i) hlt

/-- A reshape of a finite array is finite. -/
theorem fin_shapeCast {S T : Shape} (x : S.Idx → EReal) (hc : S.ShapeCasts T) (hx : ∀ i, IsFin (x i)) :
    ∀ j, IsFin (shapeCast T x hc j) := by
  intro j
  -- the reshaped array at j is the original array at the index with the same row-major position
  unfold shapeCast
  exact hx _

end Cert.FiniteIn

end
-- ==== Proof.lean ====
/-
  The kernel computes self-attention over the flattened image f[b] : 64 × 4096 without stabilisation, normalised by
  the TOTAL of the weight matrix: with wt[n,m] = exp (Σ_k f[b,k,n]·f[b,k,m]) and total[b] = Σ_n Σ_m wt[n,m], it returns
  (Σ_n f[b,k,n]·wt[n,m]) / total[b], computed tile by tile in two kernel regions (the totals, then the numerators and the
  quotient). The reference divides every weight by the total first and then multiplies: Σ_n f[b,k,n]·(wt[n,m] / total[b]).

  Over the extended reals, on a finite image, every weight is a positive real, the total is a positive real, and dividing
  a finite sum of reals by a nonzero real is dividing each term: the two results are one function of the image.

  The three frames: the two kernel programs run to the end with the image's buffer untouched (the run of the items of
  @main, at any float instance); the reference is a straight line of host operations.
-/
import proofs.«157743_j13898514170484_1_alg».proof.Defs
import proofs.«157743_j13898514170484_1_alg».proof.Proof.Gen.Kernel
import proofs.«157743_j13898514170484_1_alg».proof.Proof.Gen.KernelIdeal
import proofs.«157743_j13898514170484_1_alg».proof.Proof.Gen.ReferenceIdeal
import proofs.«157743_j13898514170484_1_alg».proof.Proof.Gen.Pre_finite_inputs
import proofs.«157743_j13898514170484_1_alg».proof.Proof.Gen.ReferenceIdeal.Run
import proofs.«157743_j13898514170484_1_alg».proof.Proof.Gen.ReferenceIdeal.Read
import proofs.«157743_j13898514170484_1_alg».proof.Proof.KI.Bridge
import proofs.«157743_j13898514170484_1_alg».proof.Proof.K.Ends
import proofs.«157743_j13898514170484_1_alg».proof.Proof.RefVal
import proofs.«157743_j13898514170484_1_alg».proof.Proof.Finite
import proofs.«157743_j13898514170484_1_alg».proof.Proof.Spec
import Idealize.ShloMosaic.Adequacy
import Idealize.ShloMosaic.Init

noncomputable section

namespace Cert.Proof

open Idealize.ShloMosaic Idealize.ShloMosaic.TcCoe Idealize.SL.Sem

/-- The word-level program runs to the end and leaves the image as launched. -/
theorem frame_k : Cert.frame_Kernel := fun m ρ _ =>
  (θ_run (Cert.Kernel.defs (F := Bits)) _ _).mono (fun _ h c => (h c).2) (Cert.Kernel.Hand.run_ends (F := Bits) m ρ)

/-- So does the idealized program. -/
theorem frame_ki : Cert.frame_KernelIdeal := fun m ρ _ =>
  (θ_run (Cert.KernelIdeal.defs (F := Ideal)) _ _).mono (fun _ h c => (h c).2) (Cert.KernelIdeal.Hand.run_ends (F := Ideal) m ρ)

/-- The reference is a line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The flattened launch image of the idealized kernel is finite under the precondition. -/
theorem flat_finite (m : (ℓ : Loc Cert.KernelIdeal.nD Cert.KernelIdeal.τ Cert.KernelIdeal.sig) → Buf (Elt Ideal) ℓ)
    (hpre : Cert.Pre_KernelIdeal m) (c : Dev Cert.KernelIdeal.nD) : ∀ i, Cert.LibFinite.IsFin (Cert.KernelIdeal.Hand.flat m c i) :=
  Cert.FiniteIn.fin_shapeCast _ _ (Cert.FiniteIn.fin_of_pre _ (hpre c))

/-- Both programs end with the reshape of one function of the flattened image. -/
theorem algebraic : Cert.algebraic_KernelIdeal_ReferenceIdeal := by
  intro m ρ m' ρ' hpre hagree
  refine ⟨fun c => Cert.KernelIdeal.Hand.W4 (F := Ideal) m ρ c Cert.KernelIdeal.main_v3, Cert.KernelIdeal.Hand.run_ends (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Hand.W4 (F := Ideal) m ρ c Cert.KernelIdeal.main_v3
  rw [Cert.ReferenceIdeal.Read.val_main_v8_eq, hagree c, Cert.KernelIdeal.Hand.kernel_result,
    Cert.Spec.quotOfSum_eq_sumOfQuot _ (flat_finite m hpre c)]
  unfold Cert.ReferenceIdeal.Read.val_main_v8
  rw [Cert.RefVal.ref_val]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
